-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x256 : Shape := ⟨2, ![2048, 256]⟩
abbrev S2048x2048 : Shape := ⟨2, ![2048, 2048]⟩
abbrev S256x256 : Shape := ⟨2, ![256, 256]⟩
abbrev S256x512 : Shape := ⟨2, ![256, 512]⟩
abbrev S512x512 : Shape := ⟨2, ![512, 512]⟩
abbrev S512x64 : Shape := ⟨2, ![512, 64]⟩
abbrev S_ : Shape := ⟨0, ![]⟩

class Facts : Prop where
  bcast_S_S2048x256 : S_.BroadcastsInDim S2048x256 (![] : Fin 0 → Fin S2048x256.rank)
  reducesTo_S2048x256_S_d0_1 : S2048x256.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S256x256 : S_.BroadcastsInDim S256x256 (![] : Fin 0 → Fin S256x256.rank)
  reducesTo_S256x256_S_d0_1 : S256x256.ReducesTo [0, 1] S_
  bcast_S_S256x512 : S_.BroadcastsInDim S256x512 (![] : Fin 0 → Fin S256x512.rank)
  reducesTo_S256x512_S_d0_1 : S256x512.ReducesTo [0, 1] S_
  bcast_S_S512x512 : S_.BroadcastsInDim S512x512 (![] : Fin 0 → Fin S512x512.rank)
  reducesTo_S512x512_S_d0_1 : S512x512.ReducesTo [0, 1] S_
  bcast_S_S512x64 : S_.BroadcastsInDim S512x64 (![] : Fin 0 → Fin S512x64.rank)
  reducesTo_S512x64_S_d0_1 : S512x64.ReducesTo [0, 1] S_

variable [Facts]

def fn_part3 {F : FTy → Type} [FloatOps F] (main_v48 : IVec S_ 1) (main_v49 : FVec F S512x64 .f32) (main_v50 : FVec F S512x64 .f32) : IVec S_ 1 :=
  let main_v51 : IVec S512x64 1 := cmpf .olt main_v49 main_v50
  let main_c_19 : IVec S_ 1 := constantI S_ 1 1#1
  let main_v52 : IVec S_ 1 := (fun x v => Host.reduce IntOp.andi x v reducesTo_S512x64_S_d0_1 h_S_) main_v51 main_c_19
  let main_v53 : IVec S_ 1 := andi main_v48 main_v52
  main_v53

def fn_part2 {F : FTy → Type} [FloatOps F] (main_arg7 : FVec F S256x512 .f32) (main_arg8 : FVec F S512x512 .f32) (main_arg9 : FVec F S512x64 .f32) (main_arg10 : FVec F S512x64 .f32) (main_v33 : IVec S_ 1) : IVec S_ 1 :=
  let main_v34 : FVec F S256x512 .f32 := Host.absf main_arg7
  let main_cst_12 : FVec F S_ .f32 := constant S_ .f32 0x7F800000#32
  let main_v35 : FVec F S256x512 .f32 := broadcastInDim S256x512 ![] bcast_S_S256x512 main_cst_12
  let main_v36 : IVec S256x512 1 := cmpf .olt main_v34 main_v35
  let main_c_13 : IVec S_ 1 := constantI S_ 1 1#1
  let main_v37 : IVec S_ 1 := (fun x v => Host.reduce IntOp.andi x v reducesTo_S256x512_S_d0_1 h_S_) main_v36 main_c_13
  let main_v38 : IVec S_ 1 := andi main_v33 main_v37
  let main_v39 : FVec F S512x512 .f32 := Host.absf main_arg8
  let main_cst_14 : FVec F S_ .f32 := constant S_ .f32 0x7F800000#32
  let main_v40 : FVec F S512x512 .f32 := broadcastInDim S512x512 ![] bcast_S_S512x512 main_cst_14
  let main_v41 : IVec S512x512 1 := cmpf .olt main_v39 main_v40
  let main_c_15 : IVec S_ 1 := constantI S_ 1 1#1
  let main_v42 : IVec S_ 1 := (fun x v => Host.reduce IntOp.andi x v reducesTo_S512x512_S_d0_1 h_S_) main_v41 main_c_15
  let main_v43 : IVec S_ 1 := andi main_v38 main_v42
  let main_v44 : FVec F S512x64 .f32 := Host.absf main_arg9
  let main_cst_16 : FVec F S_ .f32 := constant S_ .f32 0x7F800000#32
  let main_v45 : FVec F S512x64 .f32 := broadcastInDim S512x64 ![] bcast_S_S512x64 main_cst_16
  let main_v46 : IVec S512x64 1 := cmpf .olt main_v44 main_v45
  let main_c_17 : IVec S_ 1 := constantI S_ 1 1#1
  let main_v47 : IVec S_ 1 := (fun x v => Host.reduce IntOp.andi x v reducesTo_S512x64_S_d0_1 h_S_) main_v46 main_c_17
  let main_v48 : IVec S_ 1 := andi main_v43 main_v47
  let main_v49 : FVec F S512x64 .f32 := Host.absf main_arg10
  let main_cst_18 : FVec F S_ .f32 := constant S_ .f32 0x7F800000#32
  let main_v50 : FVec F S512x64 .f32 := broadcastInDim S512x64 ![] bcast_S_S512x64 main_cst_18
  fn_part3 (F := F) main_v48 main_v49 main_v50

def fn_part1 {F : FTy → Type} [FloatOps F] (main_arg4 : FVec F S256x256 .f32) (main_arg5 : FVec F S256x256 .f32) (main_arg6 : FVec F S256x512 .f32) (main_arg7 : FVec F S256x512 .f32) (main_arg8 : FVec F S512x512 .f32) (main_arg9 : FVec F S512x64 .f32) (main_arg10 : FVec F S512x64 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256x512 .f32 := Host.absf main_arg6
  let main_cst_10 : FVec F S_ .f32 := constant S_ .f32 0x7F800000#32
  let main_v30 : FVec F S256x512 .f32 := broadcastInDim S256x512 ![] bcast_S_S256x512 main_cst_10
  let main_v31 : IVec S256x512 1 := cmpf .olt main_v29 main_v30
  let main_c_11 : IVec S_ 1 := constantI S_ 1 1#1
  let main_v32 : IVec S_ 1 := (fun x v => Host.reduce IntOp.andi x v reducesTo_S256x512_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S2048x256 .f32) (main_arg1 : FVec F S2048x2048 .f32) (main_arg2 : FVec F S256x256 .f32) (main_arg3 : FVec F S256x256 .f32) (main_arg4 : FVec F S256x256 .f32) (main_arg5 : FVec F S256x256 .f32) (main_arg6 : FVec F S256x512 .f32) (main_arg7 : FVec F S256x512 .f32) (main_arg8 : FVec F S512x512 .f32) (main_arg9 : FVec F S512x64 .f32) (main_arg10 : FVec F S512x64 .f32) : IVec S_ 1 :=
  let main_v0 : FVec F S2048x256 .f32 := Host.absf main_arg0
  let main_cst : FVec F S_ .f32 := constant S_ .f32 0x7F800000#32
  let main_v1 : FVec F S2048x256 .f32 := broadcastInDim S2048x256 ![] bcast_S_S2048x256 main_cst
  let main_v2 : IVec S2048x256 1 := cmpf .olt main_v0 main_v1
  let main_c : IVec S_ 1 := constantI S_ 1 1#1
  let main_v3 : IVec S_ 1 := (fun x v => Host.reduce IntOp.andi x v reducesTo_S2048x256_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_arg7 main_arg8 main_arg9 main_arg10 main_v13 main_v16
-- ==== Kernel.lean ====
abbrev S2048x256 : Shape := ⟨2, ![2048, 256]⟩
abbrev S2048x2048 : Shape := ⟨2, ![2048, 2048]⟩
abbrev S256x256 : Shape := ⟨2, ![256, 256]⟩
abbrev S256x512 : Shape := ⟨2, ![256, 512]⟩
abbrev S512x512 : Shape := ⟨2, ![512, 512]⟩
abbrev S512x64 : Shape := ⟨2, ![512, 64]⟩
abbrev S256x2048 : Shape := ⟨2, ![256, 2048]⟩
abbrev S256 : Shape := ⟨1, ![256]⟩
abbrev S256x1 : Shape := ⟨2, ![256, 1]⟩
abbrev S2048x512 : Shape := ⟨2, ![2048, 512]⟩
abbrev S2048x64 : Shape := ⟨2, ![2048, 64]⟩
abbrev S256x64 : Shape := ⟨2, ![256, 64]⟩

abbrev nBuf : Space → Nat
  | .hbm => 23
  | .vmem => 60
  | .smem => 0
  | _ => 0

abbrev bufTy : (tb : Table) → Fin (tcTables nBuf tb) → BufTy
  | .hbm, ⟨0, _⟩ => ⟨S2048x256, .f32⟩
  | .hbm, ⟨1, _⟩ => ⟨S2048x2048, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S256x256, .f32⟩
  | .hbm, ⟨6, _⟩ => ⟨S256x512, .f32⟩
  | .hbm, ⟨7, _⟩ => ⟨S256x512, .f32⟩
  | .hbm, ⟨8, _⟩ => ⟨S512x512, .f32⟩
  | .hbm, ⟨9, _⟩ => ⟨S512x64, .f32⟩
  | .hbm, ⟨10, _⟩ => ⟨S512x64, .f32⟩
  | .hbm, ⟨11, _⟩ => ⟨S2048x256, .f32⟩
  | .hbm, ⟨12, _⟩ => ⟨S2048x256, .f32⟩
  | .hbm, ⟨13, _⟩ => ⟨S2048x256, .f32⟩
  | .hbm, ⟨14, _⟩ => ⟨S2048x256, .f32⟩
  | .hbm, ⟨15, _⟩ => ⟨S2048x256, .f32⟩
  | .hbm, ⟨16, _⟩ => ⟨S2048x512, .f32⟩
  | .hbm, ⟨17, _⟩ => ⟨S2048x512, .f32⟩
  | .hbm, ⟨18, _⟩ => ⟨S2048x512, .f32⟩
  | .hbm, ⟨19, _⟩ => ⟨S2048x512, .f32⟩
  | .hbm, ⟨20, _⟩ => ⟨S2048x64, .f32⟩
  | .hbm, ⟨21, _⟩ => ⟨S2048x64, .f32⟩
  | .hbm, ⟨22, _⟩ => ⟨S2048x64, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S2048x256, .f32⟩
  | .local _ .vmem, ⟨14, _⟩ => ⟨S2048x256, .f32⟩
  | .local _ .vmem, ⟨15, _⟩ => ⟨S2048x256, .f32⟩
  | .local _ .vmem, ⟨16, _⟩ => ⟨S256x2048, .f32⟩
  | .local _ .vmem, ⟨17, _⟩ => ⟨S256x2048, .f32⟩
  | .local _ .vmem, ⟨18, _⟩ => ⟨S256x256, .f32⟩
  | .local _ .vmem, ⟨19, _⟩ => ⟨S256x256, .f32⟩
  | .local _ .vmem, ⟨20, _⟩ => ⟨S256x256, .f32⟩
  | .local _ .vmem, ⟨21, _⟩ => ⟨S256x256, .f32⟩
  | .local _ .vmem, ⟨22, _⟩ => ⟨S256x256, .f32⟩
  | .local _ .vmem, ⟨23, _⟩ => ⟨S256x512, .f32⟩
  | .local _ .vmem, ⟨24, _⟩ => ⟨S256x512, .f32⟩
  | .local _ .vmem, ⟨25, _⟩ => ⟨S256x256, .f32⟩
  | .local _ .vmem, ⟨26, _⟩ => ⟨S256x256, .f32⟩
  | .local _ .vmem, ⟨27, _⟩ => ⟨S256x512, .f32⟩
  | .local _ .vmem, ⟨28, _⟩ => ⟨S256x512, .f32⟩
  | .local _ .vmem, ⟨29, _⟩ => ⟨S256x512, .f32⟩
  | .local _ .vmem, ⟨30, _⟩ => ⟨S256x512, .f32⟩
  | .local _ .vmem, ⟨31, _⟩ => ⟨S256x256, .f32⟩
  | .local _ .vmem, ⟨32, _⟩ => ⟨S256x256, .f32⟩
  | .local _ .vmem, ⟨33, _⟩ => ⟨S2048x256, .f32⟩
  | .local _ .vmem, ⟨34, _⟩ => ⟨S2048x512, .f32⟩
  | .local _ .vmem, ⟨35, _⟩ => ⟨S2048x512, .f32⟩
  | .local _ .vmem, ⟨36, _⟩ => ⟨S256x2048, .f32⟩
  | .local _ .vmem, ⟨37, _⟩ => ⟨S256x2048, .f32⟩
  | .local _ .vmem, ⟨38, _⟩ => ⟨S256x512, .f32⟩
  | .local _ .vmem, ⟨39, _⟩ => ⟨S256x512, .f32⟩
  | .local _ .vmem, ⟨40, _⟩ => ⟨S256x512, .f32⟩
  | .local _ .vmem, ⟨41, _⟩ => ⟨S256x512, .f32⟩
  | .local _ .vmem, ⟨42, _⟩ => ⟨S512x512, .f32⟩
  | .local _ .vmem, ⟨43, _⟩ => ⟨S512x64, .f32⟩
  | .local _ .vmem, ⟨44, _⟩ => ⟨S512x64, .f32⟩
  | .local _ .vmem, ⟨45, _⟩ => ⟨S256x512, .f32⟩
  | .local _ .vmem, ⟨46, _⟩ => ⟨S256x512, .f32⟩
  | .local _ .vmem, ⟨47, _⟩ => ⟨S256x64, .f32⟩
  | .local _ .vmem, ⟨48, _⟩ => ⟨S256x64, .f32⟩
  | .local _ .vmem, ⟨49, _⟩ => ⟨S256x64, .f32⟩
  | .local _ .vmem, ⟨50, _⟩ => ⟨S256x64, .f32⟩
  | .local _ .vmem, ⟨51, _⟩ => ⟨S256x512, .f32⟩
  | .local _ .vmem, ⟨52, _⟩ => ⟨S256x512, .f32⟩
  | .local _ .vmem, ⟨53, _⟩ => ⟨S2048x512, .f32⟩
  | .local _ .vmem, ⟨54, _⟩ => ⟨S2048x64, .f32⟩
  | .local _ .vmem, ⟨55, _⟩ => ⟨S2048x64, .f32⟩
  | .local _ .vmem, ⟨56, _⟩ => ⟨S256x2048, .f32⟩
  | .local _ .vmem, ⟨57, _⟩ => ⟨S256x2048, .f32⟩
  | .local _ .vmem, ⟨58, _⟩ => ⟨S256x64, .f32⟩
  | .local _ .vmem, ⟨59, _⟩ => ⟨S256x64, .f32⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v0_2 : Ref sig .tc := ⟨.hbm, 13, rfl⟩
abbrev main_v1 : Ref sig .tc := ⟨.hbm, 14, rfl⟩
abbrev main_v2_0 : Ref sig .tc := ⟨.hbm, 15, rfl⟩
abbrev main_v2_1 : Ref sig .tc := ⟨.hbm, 16, rfl⟩
abbrev main_v2_2 : Ref sig .tc := ⟨.hbm, 17, rfl⟩
abbrev main_v3 : Ref sig .tc := ⟨.hbm, 18, rfl⟩
abbrev main_v4_0 : Ref sig .tc := ⟨.hbm, 19, rfl⟩
abbrev main_v4_1 : Ref sig .tc := ⟨.hbm, 20, rfl⟩
abbrev main_v4_2 : Ref sig .tc := ⟨.hbm, 21, rfl⟩
abbrev main_v5 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg4_1 : Ref sig .tc := ⟨.vmem, 26, rfl⟩
abbrev cc2_stg5_0 : Ref sig .tc := ⟨.vmem, 27, rfl⟩
abbrev cc2_stg5_1 : Ref sig .tc := ⟨.vmem, 28, rfl⟩
abbrev cc2_stg6_0 : Ref sig .tc := ⟨.vmem, 29, rfl⟩
abbrev cc2_stg6_1 : Ref sig .tc := ⟨.vmem, 30, rfl⟩
abbrev cc3_stg0_0 : Ref sig .tc := ⟨.vmem, 31, rfl⟩
abbrev cc3_stg0_1 : Ref sig .tc := ⟨.vmem, 32, rfl⟩
abbrev cc3_stg1_0 : Ref sig .tc := ⟨.vmem, 33, rfl⟩
abbrev cc3_stg2_0 : Ref sig .tc := ⟨.vmem, 34, rfl⟩
abbrev cc3_stg3_0 : Ref sig .tc := ⟨.vmem, 35, rfl⟩
abbrev cc3_stg4_0 : Ref sig .tc := ⟨.vmem, 36, rfl⟩
abbrev cc3_stg4_1 : Ref sig .tc := ⟨.vmem, 37, rfl⟩
abbrev cc3_stg5_0 : Ref sig .tc := ⟨.vmem, 38, rfl⟩
abbrev cc3_stg5_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg2_0 : Ref sig .tc := ⟨.vmem, 43, rfl⟩
abbrev cc4_stg3_0 : Ref sig .tc := ⟨.vmem, 44, rfl⟩
abbrev cc4_stg4_0 : Ref sig .tc := ⟨.vmem, 45, rfl⟩
abbrev cc4_stg4_1 : Ref sig .tc := ⟨.vmem, 46, rfl⟩
abbrev cc4_stg5_0 : Ref sig .tc := ⟨.vmem, 47, rfl⟩
abbrev cc4_stg5_1 : Ref sig .tc := ⟨.vmem, 48, rfl⟩
abbrev cc4_stg6_0 : Ref sig .tc := ⟨.vmem, 49, rfl⟩
abbrev cc4_stg6_1 : Ref sig .tc := ⟨.vmem, 50, rfl⟩
abbrev cc5_stg0_0 : Ref sig .tc := ⟨.vmem, 51, rfl⟩
abbrev cc5_stg0_1 : Ref sig .tc := ⟨.vmem, 52, rfl⟩
abbrev cc5_stg1_0 : Ref sig .tc := ⟨.vmem, 53, rfl⟩
abbrev cc5_stg2_0 : Ref sig .tc := ⟨.vmem, 54, rfl⟩
abbrev cc5_stg3_0 : Ref sig .tc := ⟨.vmem, 55, rfl⟩
abbrev cc5_stg4_0 : Ref sig .tc := ⟨.vmem, 56, rfl⟩
abbrev cc5_stg4_1 : Ref sig .tc := ⟨.vmem, 57, rfl⟩
abbrev cc5_stg5_0 : Ref sig .tc := ⟨.vmem, 58, rfl⟩
abbrev cc5_stg5_1 : Ref sig .tc := ⟨.vmem, 59, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem4_1 : DmaSem sig := 17
abbrev cc1_sem5_0 : DmaSem sig := 18
abbrev cc1_sem5_1 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem3_0 : DmaSem sig := 24
abbrev cc2_sem4_0 : DmaSem sig := 25
abbrev cc2_sem4_1 : DmaSem sig := 26
abbrev cc2_sem5_0 : DmaSem sig := 27
abbrev cc2_sem5_1 : DmaSem sig := 28
abbrev cc2_sem6_0 : DmaSem sig := 29
abbrev cc2_sem6_1 : DmaSem sig := 30
abbrev cc3_sem0_0 : DmaSem sig := 31
abbrev cc3_sem0_1 : DmaSem sig := 32
abbrev cc3_sem1_0 : DmaSem sig := 33
abbrev cc3_sem2_0 : DmaSem sig := 34
abbrev cc3_sem3_0 : DmaSem sig := 35
abbrev cc3_sem4_0 : DmaSem sig := 36
abbrev cc3_sem4_1 : DmaSem sig := 37
abbrev cc3_sem5_0 : DmaSem sig := 38
abbrev cc3_sem5_1 : DmaSem sig := 39
abbrev cc4_sem0_0 : DmaSem sig := 40
abbrev cc4_sem0_1 : DmaSem sig := 41
abbrev cc4_sem1_0 : DmaSem sig := 42
abbrev cc4_sem2_0 : DmaSem sig := 43
abbrev cc4_sem3_0 : DmaSem sig := 44
abbrev cc4_sem4_0 : DmaSem sig := 45
abbrev cc4_sem4_1 : DmaSem sig := 46
abbrev cc4_sem5_0 : DmaSem sig := 47
abbrev cc4_sem5_1 : DmaSem sig := 48
abbrev cc4_sem6_0 : DmaSem sig := 49
abbrev cc4_sem6_1 : DmaSem sig := 50
abbrev cc5_sem0_0 : DmaSem sig := 51
abbrev cc5_sem0_1 : DmaSem sig := 52
abbrev cc5_sem1_0 : DmaSem sig := 53
abbrev cc5_sem2_0 : DmaSem sig := 54
abbrev cc5_sem3_0 : DmaSem sig := 55
abbrev cc5_sem4_0 : DmaSem sig := 56
abbrev cc5_sem4_1 : DmaSem sig := 57
abbrev cc5_sem5_0 : DmaSem sig := 58
abbrev cc5_sem5_1 : DmaSem sig := 59

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S2048x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S2048x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S256x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S256x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x512 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S256x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S256x512 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S256x512 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S256x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S2048x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S2048x512 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S2048x512 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S256x2048 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S256x512 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S256x512 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S512x512 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S512x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S512x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S256x512 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S256x64 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S256x64 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![8], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S256x512 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S2048x512 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S2048x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S2048x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S256x2048 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 2 → Memref sig .tc .vmem S256x64 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

class Facts₀ : Prop where
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S2048x256_S2048x256_0_0 : ∀ a, (![0, 0] : Fin 2 → Nat) a + S2048x256.size a ≤ S2048x256.size a
  h_S2048x256 : 0 < S2048x256.numel
  reduces_S256x2048_S256 : S256x2048.Reduces [1] S256
  shapeCasts_S256_S256x1 : S256.ShapeCasts S256x1
  broadcasts_S256x1_S256x2048 : S256x1.Broadcasts S256x2048
  shapeCasts_S2048x256_S2048x256 : S2048x256.ShapeCasts S2048x256
  broadcasts_S256x1_S256x256 : S256x1.Broadcasts S256x256
  inb_S256x2048_S256x2048_0_0 : ∀ a, (![0, 0] : Fin 2 → Nat) a + S256x2048.size a ≤ S256x2048.size a
  h_S256x2048 : 0 < S256x2048.numel
  inb_S256x512_S256x512_0_0 : ∀ a, (![0, 0] : Fin 2 → Nat) a + S256x512.size a ≤ S256x512.size a
  h_S256x512 : 0 < S256x512.numel
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  broadcasts_S256x1_S256x512 : S256x1.Broadcasts S256x512
  shapeCasts_S256x512_S256x512 : S256x512.ShapeCasts S256x512
  inb_S512x512_S512x512_0_0 : ∀ a, (![0, 0] : Fin 2 → Nat) a + S512x512.size a ≤ S512x512.size a
  h_S512x512 : 0 < S512x512.numel
  inb_S512x64_S512x64_0_0 : ∀ a, (![0, 0] : Fin 2 → Nat) a + S512x64.size a ≤ S512x64.size a
  h_S512x64 : 0 < S512x64.numel
  inb_S256x64_S256x64_0_0 : ∀ a, (![0, 0] : Fin 2 → Nat) a + S256x64.size a ≤ S256x64.size a
  h_S256x64 : 0 < S256x64.numel
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  broadcasts_S256x1_S256x64 : S256x1.Broadcasts S256x64
  dot_S256x256_S256x256_S256x256_1_0_0_1_n_n_wf : DotDims.WF S256x256 S256x256 S256x256 [1] [0] [0] [1] [] []
  dot_S256x256_S2048x256_S256x2048_1_1_0_0_n_n_wf : DotDims.WF S256x256 S2048x256 S256x2048 [1] [1] [0] [0] [] []
  dot_S256x2048_S2048x256_S256x256_1_0_0_1_n_n_wf : DotDims.WF S256x2048 S2048x256 S256x256 [1] [0] [0] [1] [] []
  dot_S256x256_S256x512_S256x512_1_0_0_1_n_n_wf : DotDims.WF S256x256 S256x512 S256x512 [1] [0] [0] [1] [] []
  dot_S256x2048_S2048x512_S256x512_1_0_0_1_n_n_wf : DotDims.WF S256x2048 S2048x512 S256x512 [1] [0] [0] [1] [] []
  dot_S256x512_S512x512_S256x512_1_0_0_1_n_n_wf : DotDims.WF S256x512 S512x512 S256x512 [1] [0] [0] [1] [] []
  dot_S256x512_S512x64_S256x64_1_0_0_1_n_n_wf : DotDims.WF S256x512 S512x64 S256x64 [1] [0] [0] [1] [] []
  dot_S256x512_S2048x512_S256x2048_1_1_0_0_n_n_wf : DotDims.WF S256x512 S2048x512 S256x2048 [1] [1] [0] [0] [] []
  dot_S256x2048_S2048x64_S256x64_1_0_0_1_n_n_wf : DotDims.WF S256x2048 S2048x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x256.size a ≤ S2048x256.size a
  hwx0_0 : ∀ i : grid0.Coords, EltTy.bits .f32 = 32 ∨ (Rect.block (s := S2048x256) S256x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S2048x256.size a
  hwx0_4 : ∀ i : grid0.Coords, EltTy.bits .f32 = 32 ∨ (Rect.block (s := S2048x256) S256x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S2048x256.size a
  hwx0_5 : ∀ i : grid0.Coords, EltTy.bits .f32 = 32 ∨ (Rect.block (s := S2048x256) S256x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S2048x256.size a
  hwx0_6 : ∀ i : grid0.Coords, EltTy.bits .f32 = 32 ∨ (Rect.block (s := S2048x256) S256x256.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x256.size a ≤ S2048x256.size a
  hwx1_0 : ∀ i : grid1.Coords, EltTy.bits .f32 = 32 ∨ (Rect.block (s := S2048x256) S256x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2048x256.size a ≤ S2048x256.size a
  hwx1_1 : ∀ i : grid1.Coords, EltTy.bits .f32 = 32 ∨ (Rect.block (s := S2048x256) S2048x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S2048x256.size a ≤ S2048x256.size a
  hwx1_2 : ∀ i : grid1.Coords, EltTy.bits .f32 = 32 ∨ (Rect.block (s := S2048x256) S2048x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S2048x256.size a ≤ S2048x256.size a
  hwx1_3 : ∀ i : grid1.Coords, EltTy.bits .f32 = 32 ∨ (Rect.block (s := S2048x256) S2048x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S256x2048.size a ≤ S2048x2048.size a
  hwx1_4 : ∀ i : grid1.Coords, EltTy.bits .f32 = 32 ∨ (Rect.block (s := S2048x2048) S256x2048.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S256x256.size a ≤ S2048x256.size a
  hwx1_5 : ∀ i : grid1.Coords, EltTy.bits .f32 = 32 ∨ (Rect.block (s := S2048x256) S256x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x256.size a ≤ S2048x256.size a
  hwx2_0 : ∀ i : grid2.Coords, EltTy.bits .f32 = 32 ∨ (Rect.block (s := S2048x256) S256x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x512.size a ≤ S256x512.size a
  hwx2_2 : ∀ i : grid2.Coords, EltTy.bits .f32 = 32 ∨ (Rect.block (s := S256x512) S256x512.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x512.size a ≤ S256x512.size a
  hwx2_3 : ∀ i : grid2.Coords, EltTy.bits .f32 = 32 ∨ (Rect.block (s := S256x512) S256x512.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S256x256.size a ≤ S2048x256.size a
  hwx2_4 : ∀ i : grid2.Coords, EltTy.bits .f32 = 32 ∨ (Rect.block (s := S2048x256) S256x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S256x512.size a ≤ S2048x512.size a
  hwx2_5 : ∀ i : grid2.Coords, EltTy.bits .f32 = 32 ∨ (Rect.block (s := S2048x512) S256x512.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S256x512.size a ≤ S2048x512.size a
  hwx2_6 : ∀ i : grid2.Coords, EltTy.bits .f32 = 32 ∨ (Rect.block (s := S2048x512) S256x512.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S256x256.size a ≤ S2048x256.size a
  hwx3_0 : ∀ i : grid3.Coords, EltTy.bits .f32 = 32 ∨ (Rect.block (s := S2048x256) S256x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S2048x256.size a ≤ S2048x256.size a
  hwx3_1 : ∀ i : grid3.Coords, EltTy.bits .f32 = 32 ∨ (Rect.block (s := S2048x256) S2048x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S2048x512.size a ≤ S2048x512.size a
  hwx3_2 : ∀ i : grid3.Coords, EltTy.bits .f32 = 32 ∨ (Rect.block (s := S2048x512) S2048x512.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S2048x512.size a ≤ S2048x512.size a
  hwx3_3 : ∀ i : grid3.Coords, EltTy.bits .f32 = 32 ∨ (Rect.block (s := S2048x512) S2048x512.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S256x2048.size a ≤ S2048x2048.size a
  hwx3_4 : ∀ i : grid3.Coords, EltTy.bits .f32 = 32 ∨ (Rect.block (s := S2048x2048) S256x2048.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S256x512.size a ≤ S2048x512.size a
  hwx3_5 : ∀ i : grid3.Coords, EltTy.bits .f32 = 32 ∨ (Rect.block (s := S2048x512) S256x512.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S256x512.size a ≤ S2048x512.size a
  hwx4_0 : ∀ i : grid4.Coords, EltTy.bits .f32 = 32 ∨ (Rect.block (s := S2048x512) S256x512.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S512x512.size a ≤ S512x512.size a
  hwx4_1 : ∀ i : grid4.Coords, EltTy.bits .f32 = 32 ∨ (Rect.block (s := S512x512) S512x512.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S512x64.size a ≤ S512x64.size a
  hwx4_2 : ∀ i : grid4.Coords, EltTy.bits .f32 = 32 ∨ (Rect.block (s := S512x64) S512x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S512x64.size a ≤ S512x64.size a
  hwx4_3 : ∀ i : grid4.Coords, EltTy.bits .f32 = 32 ∨ (Rect.block (s := S512x64) S512x64.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S256x512.size a ≤ S2048x512.size a
  hwx4_4 : ∀ i : grid4.Coords, EltTy.bits .f32 = 32 ∨ (Rect.block (s := S2048x512) S256x512.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S256x64.size a ≤ S2048x64.size a
  hwx4_5 : ∀ i : grid4.Coords, EltTy.bits .f32 = 32 ∨ (Rect.block (s := S2048x64) S256x64.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S256x64.size a ≤ S2048x64.size a
  hwx4_6 : ∀ i : grid4.Coords, EltTy.bits .f32 = 32 ∨ (Rect.block (s := S2048x64) S256x64.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S256x512.size a ≤ S2048x512.size a
  hwx5_0 : ∀ i : grid5.Coords, EltTy.bits .f32 = 32 ∨ (Rect.block (s := S2048x512) S256x512.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S2048x512.size a ≤ S2048x512.size a
  hwx5_1 : ∀ i : grid5.Coords, EltTy.bits .f32 = 32 ∨ (Rect.block (s := S2048x512) S2048x512.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S2048x64.size a ≤ S2048x64.size a
  hwx5_2 : ∀ i : grid5.Coords, EltTy.bits .f32 = 32 ∨ (Rect.block (s := S2048x64) S2048x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S2048x64.size a ≤ S2048x64.size a
  hwx5_3 : ∀ i : grid5.Coords, EltTy.bits .f32 = 32 ∨ (Rect.block (s := S2048x64) S2048x64.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S256x2048.size a ≤ S2048x2048.size a
  hwx5_4 : ∀ i : grid5.Coords, EltTy.bits .f32 = 32 ∨ (Rect.block (s := S2048x2048) S256x2048.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S256x64.size a ≤ S2048x64.size a
  hwx5_5 : ∀ i : grid5.Coords, EltTy.bits .f32 = 32 ∨ (Rect.block (s := S2048x64) S256x64.size (cc5_transform_5 i) (hinb5_5 i)).WholeWords (EltTy.packing .f32)

variable [Facts₀]

def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf
def dot_S256x256_S2048x256_S256x2048_1_1_0_0_n_n : DotDims S256x256 S2048x256 S256x2048 where
  lhsContracting := [1]
  rhsContracting := [1]
  lhsNonContracting := [0]
  rhsNonContracting := [0]
  lhsBatch := []
  rhsBatch := []
  wf := dot_S256x256_S2048x256_S256x2048_1_1_0_0_n_n_wf
def dot_S256x2048_S2048x256_S256x256_1_0_0_1_n_n : DotDims S256x2048 S2048x256 S256x256 where
  lhsContracting := [1]
  rhsContracting := [0]
  lhsNonContracting := [0]
  rhsNonContracting := [1]
  lhsBatch := []
  rhsBatch := []
  wf := dot_S256x2048_S2048x256_S256x256_1_0_0_1_n_n_wf
def dot_S256x256_S256x512_S256x512_1_0_0_1_n_n : DotDims S256x256 S256x512 S256x512 where
  lhsContracting := [1]
  rhsContracting := [0]
  lhsNonContracting := [0]
  rhsNonContracting := [1]
  lhsBatch := []
  rhsBatch := []
  wf := dot_S256x256_S256x512_S256x512_1_0_0_1_n_n_wf
def dot_S256x2048_S2048x512_S256x512_1_0_0_1_n_n : DotDims S256x2048 S2048x512 S256x512 where
  lhsContracting := [1]
  rhsContracting := [0]
  lhsNonContracting := [0]
  rhsNonContracting := [1]
  lhsBatch := []
  rhsBatch := []
  wf := dot_S256x2048_S2048x512_S256x512_1_0_0_1_n_n_wf
def dot_S256x512_S512x512_S256x512_1_0_0_1_n_n : DotDims S256x512 S512x512 S256x512 where
  lhsContracting := [1]
  rhsContracting := [0]
  lhsNonContracting := [0]
  rhsNonContracting := [1]
  lhsBatch := []
  rhsBatch := []
  wf := dot_S256x512_S512x512_S256x512_1_0_0_1_n_n_wf
def dot_S256x512_S512x64_S256x64_1_0_0_1_n_n : DotDims S256x512 S512x64 S256x64 where
  lhsContracting := [1]
  rhsContracting := [0]
  lhsNonContracting := [0]
  rhsNonContracting := [1]
  lhsBatch := []
  rhsBatch := []
  wf := dot_S256x512_S512x64_S256x64_1_0_0_1_n_n_wf
def dot_S256x512_S2048x512_S256x2048_1_1_0_0_n_n : DotDims S256x512 S2048x512 S256x2048 where
  lhsContracting := [1]
  rhsContracting := [1]
  lhsNonContracting := [0]
  rhsNonContracting := [0]
  lhsBatch := []
  rhsBatch := []
  wf := dot_S256x512_S2048x512_S256x2048_1_1_0_0_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf

abbrev win0_0 : Pipeline.Window sig grid0 :=
  Pipeline.Window.ofSpec (Memref.whole main_arg0) S256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S256x256.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S256x256.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_2) S256x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v0_0) S256x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S2048x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0_1) S2048x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v0_2) S2048x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg1) S256x2048.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v1) S256x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v1) S256x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S256x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg7) S256x512.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v2_0) S256x256.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v2_1) S256x512.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v2_2) S256x512.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v2_0) S256x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v1) S2048x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v2_1) S2048x512.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v2_2) S2048x512.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg1) S256x2048.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v3) S256x512.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v3) S256x512.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg8) S512x512.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg9) S512x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg10) S512x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v4_0) S256x512.size cc4_transform_4 reads4_4 true false 2 stage4_4 sem4_4
    hrank4 hreads4_4 hinb4_4 nbuf4_4 (Memref.isWhole_whole _) hwx4_4 hstage4_4

abbrev win4_5 : Pipeline.Window sig grid4 :=
  Pipeline.Window.ofSpec (Memref.whole main_v4_1) S256x64.size cc4_transform_5 reads4_5 true false 2 stage4_5 sem4_5
    hrank4 hreads4_5 hinb4_5 nbuf4_5 (Memref.isWhole_whole _) hwx4_5 hstage4_5

abbrev win4_6 : Pipeline.Window sig grid4 :=
  Pipeline.Window.ofSpec (Memref.whole main_v4_2) S256x64.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v4_0) S256x512.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v3) S2048x512.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v4_1) S2048x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v4_2) S2048x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_arg1) S256x2048.size cc5_transform_4 reads5_4 false false 2 stage5_4 sem5_4
    hrank5 hreads5_4 hinb5_4 nbuf5_4 (Memref.isWhole_whole _) hwx5_4 hstage5_4

abbrev win5_5 : Pipeline.Window sig grid5 :=
  Pipeline.Window.ofSpec (Memref.whole main_v5) S256x64.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S2048x256 : Shape := ⟨2, ![2048, 256]⟩
abbrev S2048x2048 : Shape := ⟨2, ![2048, 2048]⟩
abbrev S256x256 : Shape := ⟨2, ![256, 256]⟩
abbrev S256x512 : Shape := ⟨2, ![256, 512]⟩
abbrev S512x512 : Shape := ⟨2, ![512, 512]⟩
abbrev S512x64 : Shape := ⟨2, ![512, 64]⟩
abbrev S256x2048 : Shape := ⟨2, ![256, 2048]⟩
abbrev S_ : Shape := ⟨0, ![]⟩
abbrev S2048 : Shape := ⟨1, ![2048]⟩
abbrev S2048x1 : Shape := ⟨2, ![2048, 1]⟩
abbrev S2048x512 : Shape := ⟨2, ![2048, 512]⟩
abbrev S512x2048 : Shape := ⟨2, ![512, 2048]⟩
abbrev S2048x64 : Shape := ⟨2, ![2048, 64]⟩

abbrev nBuf : Space → Nat
  | .hbm => 105
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S2048x2048, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S256x256, .f32⟩
  | .hbm, ⟨6, _⟩ => ⟨S256x512, .f32⟩
  | .hbm, ⟨7, _⟩ => ⟨S256x512, .f32⟩
  | .hbm, ⟨8, _⟩ => ⟨S512x512, .f32⟩
  | .hbm, ⟨9, _⟩ => ⟨S512x64, .f32⟩
  | .hbm, ⟨10, _⟩ => ⟨S512x64, .f32⟩
  | .hbm, ⟨11, _⟩ => ⟨S2048x256, .f32⟩
  | .hbm, ⟨12, _⟩ => ⟨S256x2048, .f32⟩
  | .hbm, ⟨13, _⟩ => ⟨S2048x2048, .f32⟩
  | .hbm, ⟨14, _⟩ => ⟨S_, .f32⟩
  | .hbm, ⟨15, _⟩ => ⟨S2048, .f32⟩
  | .hbm, ⟨16, _⟩ => ⟨S_, .f32⟩
  | .hbm, ⟨17, _⟩ => ⟨S2048, .f32⟩
  | .hbm, ⟨18, _⟩ => ⟨S2048, .f32⟩
  | .hbm, ⟨19, _⟩ => ⟨S2048x1, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S_, .f32⟩
  | .hbm, ⟨24, _⟩ => ⟨S2048, .f32⟩
  | .hbm, ⟨25, _⟩ => ⟨S2048x1, .f32⟩
  | .hbm, ⟨26, _⟩ => ⟨S2048x2048, .f32⟩
  | .hbm, ⟨27, _⟩ => ⟨S2048x2048, .f32⟩
  | .hbm, ⟨28, _⟩ => ⟨S2048x256, .f32⟩
  | .hbm, ⟨29, _⟩ => ⟨S2048x256, .f32⟩
  | .hbm, ⟨30, _⟩ => ⟨S_, .f32⟩
  | .hbm, ⟨31, _⟩ => ⟨S2048x256, .f32⟩
  | .hbm, ⟨32, _⟩ => ⟨S2048x256, .i1⟩
  | .hbm, ⟨33, _⟩ => ⟨S_, .f32⟩
  | .hbm, ⟨34, _⟩ => ⟨S2048x256, .f32⟩
  | .hbm, ⟨35, _⟩ => ⟨S2048x256, .f32⟩
  | .hbm, ⟨36, _⟩ => ⟨S2048x256, .f32⟩
  | .hbm, ⟨37, _⟩ => ⟨S2048x256, .f32⟩
  | .hbm, ⟨38, _⟩ => ⟨S2048x256, .f32⟩
  | .hbm, ⟨39, _⟩ => ⟨S_, .f32⟩
  | .hbm, ⟨40, _⟩ => ⟨S2048x256, .f32⟩
  | .hbm, ⟨41, _⟩ => ⟨S2048x256, .i1⟩
  | .hbm, ⟨42, _⟩ => ⟨S_, .f32⟩
  | .hbm, ⟨43, _⟩ => ⟨S2048x256, .f32⟩
  | .hbm, ⟨44, _⟩ => ⟨S2048x256, .f32⟩
  | .hbm, ⟨45, _⟩ => ⟨S2048x256, .f32⟩
  | .hbm, ⟨46, _⟩ => ⟨S2048x256, .f32⟩
  | .hbm, ⟨47, _⟩ => ⟨S2048x256, .f32⟩
  | .hbm, ⟨48, _⟩ => ⟨S256x2048, .f32⟩
  | .hbm, ⟨49, _⟩ => ⟨S2048x2048, .f32⟩
  | .hbm, ⟨50, _⟩ => ⟨S_, .f32⟩
  | .hbm, ⟨51, _⟩ => ⟨S2048, .f32⟩
  | .hbm, ⟨52, _⟩ => ⟨S_, .f32⟩
  | .hbm, ⟨53, _⟩ => ⟨S2048, .f32⟩
  | .hbm, ⟨54, _⟩ => ⟨S2048, .f32⟩
  | .hbm, ⟨55, _⟩ => ⟨S2048x1, .f32⟩
  | .hbm, ⟨56, _⟩ => ⟨S2048x2048, .f32⟩
  | .hbm, ⟨57, _⟩ => ⟨S2048x2048, .f32⟩
  | .hbm, ⟨58, _⟩ => ⟨S2048x2048, .f32⟩
  | .hbm, ⟨59, _⟩ => ⟨S_, .f32⟩
  | .hbm, ⟨60, _⟩ => ⟨S2048, .f32⟩
  | .hbm, ⟨61, _⟩ => ⟨S2048x1, .f32⟩
  | .hbm, ⟨62, _⟩ => ⟨S2048x2048, .f32⟩
  | .hbm, ⟨63, _⟩ => ⟨S2048x2048, .f32⟩
  | .hbm, ⟨64, _⟩ => ⟨S2048x512, .f32⟩
  | .hbm, ⟨65, _⟩ => ⟨S2048x512, .f32⟩
  | .hbm, ⟨66, _⟩ => ⟨S_, .f32⟩
  | .hbm, ⟨67, _⟩ => ⟨S2048x512, .f32⟩
  | .hbm, ⟨68, _⟩ => ⟨S2048x512, .i1⟩
  | .hbm, ⟨69, _⟩ => ⟨S_, .f32⟩
  | .hbm, ⟨70, _⟩ => ⟨S2048x512, .f32⟩
  | .hbm, ⟨71, _⟩ => ⟨S2048x512, .f32⟩
  | .hbm, ⟨72, _⟩ => ⟨S2048x512, .f32⟩
  | .hbm, ⟨73, _⟩ => ⟨S2048x512, .f32⟩
  | .hbm, ⟨74, _⟩ => ⟨S2048x512, .f32⟩
  | .hbm, ⟨75, _⟩ => ⟨S_, .f32⟩
  | .hbm, ⟨76, _⟩ => ⟨S2048x512, .f32⟩
  | .hbm, ⟨77, _⟩ => ⟨S2048x512, .i1⟩
  | .hbm, ⟨78, _⟩ => ⟨S_, .f32⟩
  | .hbm, ⟨79, _⟩ => ⟨S2048x512, .f32⟩
  | .hbm, ⟨80, _⟩ => ⟨S2048x512, .f32⟩
  | .hbm, ⟨81, _⟩ => ⟨S2048x512, .f32⟩
  | .hbm, ⟨82, _⟩ => ⟨S2048x512, .f32⟩
  | .hbm, ⟨83, _⟩ => ⟨S2048x512, .f32⟩
  | .hbm, ⟨84, _⟩ => ⟨S512x2048, .f32⟩
  | .hbm, ⟨85, _⟩ => ⟨S2048x2048, .f32⟩
  | .hbm, ⟨86, _⟩ => ⟨S_, .f32⟩
  | .hbm, ⟨87, _⟩ => ⟨S2048, .f32⟩
  | .hbm, ⟨88, _⟩ => ⟨S_, .f32⟩
  | .hbm, ⟨89, _⟩ => ⟨S2048, .f32⟩
  | .hbm, ⟨90, _⟩ => ⟨S2048, .f32⟩
  | .hbm, ⟨91, _⟩ => ⟨S2048x1, .f32⟩
  | .hbm, ⟨92, _⟩ => ⟨S2048x2048, .f32⟩
  | .hbm, ⟨93, _⟩ => ⟨S2048x2048, .f32⟩
  | .hbm, ⟨94, _⟩ => ⟨S2048x2048, .f32⟩
  | .hbm, ⟨95, _⟩ => ⟨S_, .f32⟩
  | .hbm, ⟨96, _⟩ => ⟨S2048, .f32⟩
  | .hbm, ⟨97, _⟩ => ⟨S2048x1, .f32⟩
  | .hbm, ⟨98, _⟩ => ⟨S2048x2048, .f32⟩
  | .hbm, ⟨99, _⟩ => ⟨S2048x2048, .f32⟩
  | .hbm, ⟨100, _⟩ => ⟨S2048x64, .f32⟩
  | .hbm, ⟨101, _⟩ => ⟨S2048x64, .f32⟩
  | .hbm, ⟨102, _⟩ => ⟨S2048x64, .f32⟩
  | .hbm, ⟨103, _⟩ => ⟨S2048x64, .f32⟩
  | .hbm, ⟨104, _⟩ => ⟨S2048x64, .f32⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_1 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_call0_cst : Ref sig .tc := ⟨.hbm, 30, rfl⟩
abbrev main_call0_v0 : Ref sig .tc := ⟨.hbm, 31, rfl⟩
abbrev main_call0_v1 : Ref sig .tc := ⟨.hbm, 32, rfl⟩
abbrev main_call0_cst_0 : Ref sig .tc := ⟨.hbm, 33, rfl⟩
abbrev main_call0_v2 : Ref sig .tc := ⟨.hbm, 34, rfl⟩
abbrev main_call0_v3 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_call1_cst : Ref sig .tc := ⟨.hbm, 39, rfl⟩
abbrev main_call1_v0 : Ref sig .tc := ⟨.hbm, 40, rfl⟩
abbrev main_call1_v1 : Ref sig .tc := ⟨.hbm, 41, rfl⟩
abbrev main_call1_cst_0 : Ref sig .tc := ⟨.hbm, 42, rfl⟩
abbrev main_call1_v2 : Ref sig .tc := ⟨.hbm, 43, rfl⟩
abbrev main_call1_v3 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_cst_2 : Ref sig .tc := ⟨.hbm, 50, rfl⟩
abbrev main_v24 : Ref sig .tc := ⟨.hbm, 51, rfl⟩
abbrev main_cst_3 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_cst_4 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_call2_cst : Ref sig .tc := ⟨.hbm, 66, rfl⟩
abbrev main_call2_v0 : Ref sig .tc := ⟨.hbm, 67, rfl⟩
abbrev main_call2_v1 : Ref sig .tc := ⟨.hbm, 68, rfl⟩
abbrev main_call2_cst_0 : Ref sig .tc := ⟨.hbm, 69, rfl⟩
abbrev main_call2_v2 : Ref sig .tc := ⟨.hbm, 70, rfl⟩
abbrev main_call2_v3 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_call3_cst : Ref sig .tc := ⟨.hbm, 75, rfl⟩
abbrev main_call3_v0 : Ref sig .tc := ⟨.hbm, 76, rfl⟩
abbrev main_call3_v1 : Ref sig .tc := ⟨.hbm, 77, rfl⟩
abbrev main_call3_cst_0 : Ref sig .tc := ⟨.hbm, 78, rfl⟩
abbrev main_call3_v2 : Ref sig .tc := ⟨.hbm, 79, rfl⟩
abbrev main_call3_v3 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_cst_5 : Ref sig .tc := ⟨.hbm, 86, rfl⟩
abbrev main_v45 : Ref sig .tc := ⟨.hbm, 87, rfl⟩
abbrev main_cst_6 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_cst_7 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩

abbrev nD : Nat := 1
abbrev τ : Topo := Topo.v7x

variable {F : FTy → Type} [FloatOps F]

class Facts₀ : Prop where
  transposes_S2048x256_S256x2048_1_0 : S2048x256.Transposes [1, 0] S256x2048
  reducesTo_S2048x2048_S2048_d1 : S2048x2048.ReducesTo [1] S2048
  h_S_ : 0 < S_.numel
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x2048_0_1 : S2048x1.BroadcastsInDim S2048x2048 (![0, 1] : Fin 2 → Fin S2048x2048.rank)
  bcast_S_S2048x256 : S_.BroadcastsInDim S2048x256 (![] : Fin 0 → Fin S2048x256.rank)
  bcast_S_S2048x512 : S_.BroadcastsInDim S2048x512 (![] : Fin 0 → Fin S2048x512.rank)
  transposes_S2048x512_S512x2048_1_0 : S2048x512.Transposes [1, 0] S512x2048
  dot_S2048x256_S256x256_S2048x256_1_0_0_1_n_n_wf : DotDims.WF S2048x256 S256x256 S2048x256 [1] [0] [0] [1] [] []
  dot_S2048x256_S256x2048_S2048x2048_1_0_0_1_n_n_wf : DotDims.WF S2048x256 S256x2048 S2048x2048 [1] [0] [0] [1] [] []
  dot_S2048x2048_S2048x256_S2048x256_1_0_0_1_n_n_wf : DotDims.WF S2048x2048 S2048x256 S2048x256 [1] [0] [0] [1] [] []
  dot_S2048x256_S256x512_S2048x512_1_0_0_1_n_n_wf : DotDims.WF S2048x256 S256x512 S2048x512 [1] [0] [0] [1] [] []
  dot_S2048x2048_S2048x512_S2048x512_1_0_0_1_n_n_wf : DotDims.WF S2048x2048 S2048x512 S2048x512 [1] [0] [0] [1] [] []
  dot_S2048x512_S512x512_S2048x512_1_0_0_1_n_n_wf : DotDims.WF S2048x512 S512x512 S2048x512 [1] [0] [0] [1] [] []
  dot_S2048x512_S512x2048_S2048x2048_1_0_0_1_n_n_wf : DotDims.WF S2048x512 S512x2048 S2048x2048 [1] [0] [0] [1] [] []
  dot_S2048x512_S512x64_S2048x64_1_0_0_1_n_n_wf : DotDims.WF S2048x512 S512x64 S2048x64 [1] [0] [0] [1] [] []
  dot_S2048x2048_S2048x64_S2048x64_1_0_0_1_n_n_wf : DotDims.WF S2048x2048 S2048x64 S2048x64 [1] [0] [0] [1] [] []

variable [Facts₀]

def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S2048x256_S256x2048_S2048x2048_1_0_0_1_n_n : DotDims S2048x256 S256x2048 S2048x2048 where
  lhsContracting := [1]
  rhsContracting := [0]
  lhsNonContracting := [0]
  rhsNonContracting := [1]
  lhsBatch := []
  rhsBatch := []
  wf := dot_S2048x256_S256x2048_S2048x2048_1_0_0_1_n_n_wf
def dot_S2048x2048_S2048x256_S2048x256_1_0_0_1_n_n : DotDims S2048x2048 S2048x256 S2048x256 where
  lhsContracting := [1]
  rhsContracting := [0]
  lhsNonContracting := [0]
  rhsNonContracting := [1]
  lhsBatch := []
  rhsBatch := []
  wf := dot_S2048x2048_S2048x256_S2048x256_1_0_0_1_n_n_wf
def dot_S2048x256_S256x512_S2048x512_1_0_0_1_n_n : DotDims S2048x256 S256x512 S2048x512 where
  lhsContracting := [1]
  rhsContracting := [0]
  lhsNonContracting := [0]
  rhsNonContracting := [1]
  lhsBatch := []
  rhsBatch := []
  wf := dot_S2048x256_S256x512_S2048x512_1_0_0_1_n_n_wf
def dot_S2048x2048_S2048x512_S2048x512_1_0_0_1_n_n : DotDims S2048x2048 S2048x512 S2048x512 where
  lhsContracting := [1]
  rhsContracting := [0]
  lhsNonContracting := [0]
  rhsNonContracting := [1]
  lhsBatch := []
  rhsBatch := []
  wf := dot_S2048x2048_S2048x512_S2048x512_1_0_0_1_n_n_wf
def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf
def dot_S2048x512_S512x2048_S2048x2048_1_0_0_1_n_n : DotDims S2048x512 S512x2048 S2048x2048 where
  lhsContracting := [1]
  rhsContracting := [0]
  lhsNonContracting := [0]
  rhsNonContracting := [1]
  lhsBatch := []
  rhsBatch := []
  wf := dot_S2048x512_S512x2048_S2048x2048_1_0_0_1_n_n_wf
def dot_S2048x512_S512x64_S2048x64_1_0_0_1_n_n : DotDims S2048x512 S512x64 S2048x64 where
  lhsContracting := [1]
  rhsContracting := [0]
  lhsNonContracting := [0]
  rhsNonContracting := [1]
  lhsBatch := []
  rhsBatch := []
  wf := dot_S2048x512_S512x64_S2048x64_1_0_0_1_n_n_wf
def dot_S2048x2048_S2048x64_S2048x64_1_0_0_1_n_n : DotDims S2048x2048 S2048x64 S2048x64 where
  lhsContracting := [1]
  rhsContracting := [0]
  lhsNonContracting := [0]
  rhsNonContracting := [1]
  lhsBatch := []
  rhsBatch := []
  wf := dot_S2048x2048_S2048x64_S2048x64_1_0_0_1_n_n_wf

class Facts : Prop extends Facts₀ where

variable [Facts]
-- ==== Proof.LibRealLaws.lean ====
/-
  Laws of sums and quotients of extended reals whose operands are real numbers. On the extended reals
  multiplication does not distribute over addition in general (an infinity spoils it); between real numbers it does,
  and a quotient by a nonzero real is a product with its inverse. Two arrangements of a normalised sum are joined here:
  divide the sum, or divide each weight first.

  The method is the same throughout: every operand is a real number read as an extended real, and that reading
  commutes with products, with finite sums and with a choice between a value and zero. So each side is the reading
  of one real expression, and the two real expressions are equal by the ordinary laws of a commutative ring.
-/
import Idealize.ShloMosaic.PureOps.Ideal
import Mathlib.Data.EReal.Operations
import Mathlib.Algebra.BigOperators.Group.Finset.Basic
import Mathlib.Algebra.BigOperators.Group.Finset.Piecewise
import Mathlib.Algebra.BigOperators.Ring.Finset

noncomputable section

namespace Cert.LibRealLaws

open Idealize.ShloMosaic

/-- A finite sum of real numbers, each read as an extended real, is the real sum read as an extended real.
    By induction on the index set: the empty sum is zero on both sides, and adding one more term is the
    statement that the reading respects a sum of two reals. -/
theorem coe_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, EReal.coe_add, ih]

/-- A choice between a real number and zero, read as an extended real, is the choice between the readings. -/
theorem coe_ite_zero (p : Prop) [Decidable p] (r : ℝ) :
    (if p then ((r : ℝ) : EReal) else 0) = (((if p then r else 0) : ℝ) : EReal) := by
  by_cases hp : p
  · rw [if_pos hp, if_pos hp]
  · rw [if_neg hp, if_neg hp, EReal.coe_zero]

/-- The reciprocal of a nonzero real `g`, as an extended-real quotient `1 / g`, is the real number `1 / g`. -/
theorem div_one_coe {g : ℝ} (hg : g ≠ 0) : Ideal.div 1 ((g : ℝ) : EReal) = ((1 / g : ℝ) : EReal) := by
  rw [Ideal.div_coe hg, one_mul]

/-- THE POOLED MEAN. Dividing a weighted sum of real numbers by a nonzero real is summing with each weight divided
    first. Both sides are readings of real numbers: the left of `(∑ mask·x) · (1/c)`, the right of
    `∑ mask · (1/c) · x`; in the reals the factor `1/c` moves inside the sum. -/
theorem div_sum_mul {L : Type*} [Fintype L] (mask x : L → ℝ) (c : ℝ) (hc : c ≠ 0) :
    Ideal.div (∑ l, ((mask l : ℝ) : EReal) * ((x l : ℝ) : EReal)) ((c : ℝ) : EReal)
      = ∑ l, Ideal.div ((mask l : ℝ) : EReal) ((c : ℝ) : EReal) * ((x l : ℝ) : EReal) := by
  -- every quotient by `c` is a product with the real `1 / c`
  simp_rw [Ideal.div_coe hc, ← EReal.coe_mul]
  -- both sums are sums of readings of reals
  rw [coe_sum, coe_sum, ← EReal.coe_mul]
  congr 1
  -- in the reals: `(∑ mask·x) · (1/c) = ∑ mask · (1/c) · x`
  rw [Finset.sum_mul]
  exact Finset.sum_congr rfl fun l _ => by ring

/-- The real identity behind the adjacency law. A row that holds the constant `a` once for every edge from `s`
    into the row, applied to `x`, is `a` times the sum of `x` over the row's edges: exchange the two sums, and for
    a fixed edge the sum over `s` has its single nonzero term at `s = src e`. -/
theorem real_adj_mul {E S : Type*} [Fintype E] [Fintype S] [DecidableEq S]
    (hit : E → Prop) [DecidablePred hit] (src : E → S) (x : S → ℝ) (a : ℝ) :
    ∑ s, (∑ e, if hit e ∧ src e = s then a else 0) * x s = (∑ e, if hit e then x (src e) else 0) * a := by
  simp_rw [Finset.sum_mul]
  rw [Finset.sum_comm]
  refine Finset.sum_congr rfl fun e _ => ?_
  by_cases he : hit e
  · -- an edge of the row: only `s = src e` contributes, with `a · x (src e)`
    simp only [he, true_and, if_true, ite_mul, zero_mul, Finset.sum_ite_eq, Finset.mem_univ]
    exact mul_comm _ _
  · -- an edge of another row contributes nothing on either side
    simp only [he, false_and, if_false, zero_mul, Finset.sum_const_zero]

/-- THE NORMALISED ADJACENCY. Fix one destination row; `hit e` says edge `e` goes into it, `src e` is the node it
    comes from, `g` the row's degree (nonzero). The row of the dense matrix that holds `1 / g` once per edge from
    `s`, applied to the real features `x`, is the sum of the features over the row's edges divided by `g`.
    Both sides are readings of real numbers, and the real numbers agree by `real_adj_mul` with `a = 1 / g`. -/
theorem adj_mul_eq_segsum_div {E S : Type*} [Fintype E] [Fintype S] [DecidableEq S]
    (hit : E → Prop) [DecidablePred hit] (src : E → S) (x : S → ℝ) (g : ℝ) (hg : g ≠ 0) :
    ∑ s, (∑ e, if hit e ∧ src e = s then Ideal.div 1 ((g : ℝ) : EReal) else 0) * ((x s : ℝ) : EReal)
      = Ideal.div (∑ e, if hit e then ((x (src e) : ℝ) : EReal) else 0) ((g : ℝ) : EReal) := by
  -- the entry `1 / g` is a real number, and the quotient on the right is a product with it
  rw [div_one_coe hg, Ideal.div_coe hg]
  -- pull the reading out of the choices, the inner sums, the products and the outer sum
  simp_rw [coe_ite_zero, coe_sum, ← EReal.coe_mul, coe_sum]
  congr 1
  exact real_adj_mul hit src x (1 / g)

end Cert.LibRealLaws

end
-- ==== Proof.Spec.lean ====
/-
  One layer of the network, as mathematics on the extended reals, for any sizes: `n` nodes, `ci` input channels,
  `co` output channels.

  With `Q = h · Wp`, `V = h · Wg`, `U = h · Wl`, row `r` of a layer's output is
      act (softmax-weighted mean of V's rows) + act (adjacency row r applied to U)
  where the softmax weights of row `r` are `e_j / Σ_j e_j`, `e_j = exp (l_j - max_j l_j)`, `l_j = Σ_k Q_{r,k} · h_{j,k}`,
  and `act` is the leaky rectifier `x ↦ x` for `0 ≤ x`, `0.01 · x` below (or the identity on the last layer).

  Two arrangements of the weighted mean are stated: the weighted sum divided once by the normaliser (`attK`), and every
  weight divided by the normaliser before the sum (`attR`). On the extended reals the two differ in general (an infinity
  spoils distributivity); where every operand is a real number and there is at least one node they agree, and the
  layer's output is again real.
-/
import Idealize.ShloMosaic.PureOps.Ideal
import Idealize.ShloMosaic.PureOps.Ideal.Laws
import Mathlib.Data.EReal.Operations
import Mathlib.Algebra.BigOperators.Group.Finset.Basic
import Mathlib.Algebra.BigOperators.Ring.Finset
import Mathlib.Algebra.Order.BigOperators.Group.Finset
import Mathlib.Data.Finset.Fold
import Mathlib.Analysis.SpecialFunctions.Exp
import proofs.«177053_g78872779423838_cont_9to1_m_604_3_alg».proof.Proof.LibRealLaws

noncomputable section

open scoped BigOperators

namespace Cert.Spec

open Idealize.ShloMosaic

/-- The accumulator a maximum starts from: the f32 pattern of minus infinity. -/
def ninf : EReal := Ideal.ofBits .f32 0xFF800000#32
/-- The rectifier's slope below zero: the f32 nearest 0.01. -/
def c01 : EReal := Ideal.ofBits .f32 0x3C23D70A#32
/-- The f32 zero pattern. -/
def z0 : EReal := Ideal.ofBits .f32 0x00000000#32

/-- The leaky rectifier as both programs compute it: compare with zero, multiply by the slope, choose. -/
def leaky (x : EReal) : EReal := Scalar.select (Ideal.cmp .oge x z0) x (c01 * x)

/-- The activation of a layer: the leaky rectifier, or nothing on the last layer. -/
def act (b : Bool) (x : EReal) : EReal := if b then leaky x else x

variable {n ci co : ℕ}

/-- A matrix product, entry by entry. -/
def mm {p q r : ℕ} (a : Fin p → Fin q → EReal) (b : Fin q → Fin r → EReal) : Fin p → Fin r → EReal :=
  fun i c => ∑ k : Fin q, a i k * b k c

/-- One row's logits against every node: `l_j = Σ_k q_k · h_{j,k}`. -/
def lrow (q : Fin ci → EReal) (h : Fin n → Fin ci → EReal) : Fin n → EReal := fun j => ∑ k : Fin ci, q k * h j k

/-- The maximum of a row, from minus infinity. -/
def rmax (l : Fin n → EReal) : EReal := (Finset.univ : Finset (Fin n)).fold max ninf l

/-- The row's unnormalised softmax weights `exp (l_j - max l)`. -/
def erow (l : Fin n → EReal) : Fin n → EReal := fun j => Ideal.exp (l j - rmax l)

/-- The attention term, the weighted sum divided once. -/
def attK (q : Fin ci → EReal) (h : Fin n → Fin ci → EReal) (v : Fin n → Fin co → EReal) (c : Fin co) : EReal :=
  Ideal.div (∑ j : Fin n, erow (lrow q h) j * v j c) (∑ j : Fin n, erow (lrow q h) j)

/-- The attention term, each weight divided first. -/
def attR (q : Fin ci → EReal) (h : Fin n → Fin ci → EReal) (v : Fin n → Fin co → EReal) (c : Fin co) : EReal :=
  ∑ j : Fin n, Ideal.div (erow (lrow q h) j) (∑ j' : Fin n, erow (lrow q h) j') * v j c

/-- The local term: one adjacency row applied to `U`. -/
def locr (a : Fin n → EReal) (u : Fin n → Fin co → EReal) (c : Fin co) : EReal := ∑ j : Fin n, a j * u j c

/-- A row of the layer's output, attention divided once. -/
def rowK (b : Bool) (q : Fin ci → EReal) (a : Fin n → EReal) (h : Fin n → Fin ci → EReal) (v u : Fin n → Fin co → EReal)
    (c : Fin co) : EReal := act b (attK q h v c) + act b (locr a u c)

/-- A row of the layer's output, every weight divided first. -/
def rowR (b : Bool) (q : Fin ci → EReal) (a : Fin n → EReal) (h : Fin n → Fin ci → EReal) (v u : Fin n → Fin co → EReal)
    (c : Fin co) : EReal := act b (attR q h v c) + act b (locr a u c)

/-- The layer from its input and weights, attention divided once. -/
def layerK (b : Bool) (h : Fin n → Fin ci → EReal) (adj : Fin n → Fin n → EReal) (Wp : Fin ci → Fin ci → EReal)
    (Wg Wl : Fin ci → Fin co → EReal) : Fin n → Fin co → EReal :=
  fun r c => rowK b (mm h Wp r) (adj r) h (mm h Wg) (mm h Wl) c

/-- The layer from its input and weights, every weight divided first. -/
def layerR (b : Bool) (h : Fin n → Fin ci → EReal) (adj : Fin n → Fin n → EReal) (Wp : Fin ci → Fin ci → EReal)
    (Wg Wl : Fin ci → Fin co → EReal) : Fin n → Fin co → EReal :=
  fun r c => rowR b (mm h Wp r) (adj r) h (mm h Wg) (mm h Wl) c

/-- Every entry is a real number. -/
def IsReal {p q : ℕ} (a : Fin p → Fin q → EReal) : Prop := ∀ i k, ∃ x : ℝ, a i k = (x : EReal)

/-! ### The constants -/

/-- The f32 pattern of minus infinity is the bottom of the extended reals. -/
theorem ninf_eq_bot : ninf = ⊥ := by
  simp [ninf, Ideal.ofBits, Ideal.ieee]

/-- The f32 zero pattern is zero. -/
theorem z0_eq_zero : z0 = 0 := by
  simp [z0, Ideal.ofBits, Ideal.ieee]

/-- The rectifier's slope is a real number: its exponent field is neither all zeros nor all ones. -/
theorem c01_real : ∃ r : ℝ, c01 = (r : EReal) := by
  unfold c01 Ideal.ofBits Ideal.ieee
  dsimp only
  rw [if_neg (by decide), if_neg (by decide)]
  exact ⟨_, rfl⟩

/-! ### Real operands give real values -/

/-- A maximum, from the bottom, over finitely many real values: the bottom if there are none, else a real number. -/
theorem fold_max_real {ι : Type*} [DecidableEq ι] (s : Finset ι) (f : ι → ℝ) :
    (s = ∅ ∧ s.fold max (⊥ : EReal) (fun i => ((f i : ℝ) : EReal)) = ⊥) ∨
      ∃ M : ℝ, s.fold max (⊥ : EReal) (fun i => ((f i : ℝ) : EReal)) = (M : EReal) := by
  induction s using Finset.induction_on with
  | empty => exact Or.inl ⟨rfl, Finset.fold_empty⟩
  | insert a s ha ih =>
    right
    rw [Finset.fold_insert ha]
    rcases ih with ⟨-, h0⟩ | ⟨M, hM⟩
    · exact ⟨f a, by rw [h0, max_eq_left bot_le]⟩
    · exact ⟨max (f a) M, by rw [hM, EReal.coe_strictMono.monotone.map_max]⟩

/-- The maximum of a nonempty row of real numbers is a real number. -/
theorem rmax_real (hn : 0 < n) (l : Fin n → ℝ) : ∃ M : ℝ, rmax (fun j => ((l j : ℝ) : EReal)) = (M : EReal) := by
  unfold rmax
  rw [ninf_eq_bot]
  rcases fold_max_real (Finset.univ : Finset (Fin n)) l with ⟨h0, -⟩ | h
  · exact absurd h0 (Finset.Nonempty.ne_empty ⟨⟨0, hn⟩, Finset.mem_univ _⟩)
  · exact h

/-- The unnormalised softmax weights of a nonempty real row are real numbers with a nonzero (positive) sum. -/
theorem erow_real (hn : 0 < n) (l : Fin n → ℝ) :
    ∃ w : Fin n → ℝ, (∀ j, erow (fun j => ((l j : ℝ) : EReal)) j = ((w j : ℝ) : EReal)) ∧ (∑ j, w j) ≠ 0 := by
  obtain ⟨M, hM⟩ := rmax_real hn l
  refine ⟨fun j => Real.exp (l j - M), fun j => ?_, ?_⟩
  · unfold erow
    rw [hM, ← EReal.coe_sub, Ideal.exp_coe]
  · exact (Finset.sum_pos (fun j _ => Real.exp_pos _) ⟨⟨0, hn⟩, Finset.mem_univ _⟩).ne'

/-- A matrix product of real matrices is real. -/
theorem mm_real {p q r : ℕ} {a : Fin p → Fin q → EReal} {b : Fin q → Fin r → EReal} (ha : IsReal a) (hb : IsReal b) :
    IsReal (mm a b) := by
  intro i c
  choose a' ha' using ha
  choose b' hb' using hb
  refine ⟨∑ k, a' i k * b' k c, ?_⟩
  unfold mm
  simp_rw [ha', hb', ← EReal.coe_mul]
  exact Cert.LibRealLaws.coe_sum _ _

/-- For a real query row, real inputs, real values and at least one node: the two arrangements of the attention term
    agree, and the term is a real number. The logits are real sums of real products, the weights real exponentials
    with a positive sum, and the quotient by that sum is a product with its real reciprocal. -/
theorem att_real (hn : 0 < n) {q : Fin ci → EReal} {h : Fin n → Fin ci → EReal} {v : Fin n → Fin co → EReal}
    (hq : ∀ k, ∃ x : ℝ, q k = (x : EReal)) (hh : IsReal h) (hv : IsReal v) (c : Fin co) :
    attK q h v c = attR q h v c ∧ ∃ x : ℝ, attK q h v c = (x : EReal) := by
  choose q' hq' using hq
  choose h' hh' using hh
  choose v' hv' using hv
  have hl : lrow q h = fun j => ((∑ k, q' k * h' j k : ℝ) : EReal) := by
    funext j
    unfold lrow
    simp_rw [hq', hh', ← EReal.coe_mul]
    exact Cert.LibRealLaws.coe_sum _ _
  obtain ⟨w, hw, hS⟩ := erow_real hn (fun j => ∑ k, q' k * h' j k)
  unfold attK attR
  rw [hl]
  simp_rw [hw, hv', Cert.LibRealLaws.coe_sum Finset.univ w]
  refine ⟨Cert.LibRealLaws.div_sum_mul w (fun j => v' j c) _ hS, ?_⟩
  rw [Ideal.div_coe hS]
  simp_rw [← EReal.coe_mul]
  rw [Cert.LibRealLaws.coe_sum, ← EReal.coe_mul]
  exact ⟨_, rfl⟩

/-- One real adjacency row applied to a real matrix is real. -/
theorem locr_real {a : Fin n → EReal} {u : Fin n → Fin co → EReal} (ha : ∀ j, ∃ x : ℝ, a j = (x : EReal)) (hu : IsReal u)
    (c : Fin co) : ∃ x : ℝ, locr a u c = (x : EReal) := by
  choose a' ha' using ha
  choose u' hu' using hu
  refine ⟨∑ j, a' j * u' j c, ?_⟩
  unfold locr
  simp_rw [ha', hu', ← EReal.coe_mul]
  exact Cert.LibRealLaws.coe_sum _ _

/-- The leaky rectifier of a real number is real: it is the number itself or the real slope times it. -/
theorem leaky_real (x : ℝ) : ∃ y : ℝ, leaky (x : EReal) = (y : EReal) := by
  obtain ⟨s, hs⟩ := c01_real
  unfold leaky Scalar.select
  split_ifs
  · exact ⟨x, rfl⟩
  · exact ⟨s * x, by rw [hs, EReal.coe_mul]⟩

/-- The activation of a real number is real. -/
theorem act_real (b : Bool) {x : EReal} (hx : ∃ r : ℝ, x = (r : EReal)) : ∃ y : ℝ, act b x = (y : EReal) := by
  obtain ⟨r, rfl⟩ := hx
  unfold act
  split_ifs
  · exact leaky_real r
  · exact ⟨r, rfl⟩

/-! ### The three statements -/

/-- Starting a maximum over again from minus infinity changes nothing. -/
theorem max_ninf_rmax (l : Fin n → EReal) : max ninf (rmax l) = rmax l :=
  max_eq_right ((Finset.le_fold_max ninf).mpr (Or.inl le_rfl))

/-- Between real operands and with at least one node, the two arrangements of a layer agree. -/
theorem layerK_eq_layerR (b : Bool) (hn : 0 < n) {h : Fin n → Fin ci → EReal} {adj : Fin n → Fin n → EReal}
    {Wp : Fin ci → Fin ci → EReal} {Wg Wl : Fin ci → Fin co → EReal}
    (hh : IsReal h) (hadj : IsReal adj) (hWp : IsReal Wp) (hWg : IsReal Wg) (hWl : IsReal Wl) :
    layerK b h adj Wp Wg Wl = layerR b h adj Wp Wg Wl := by
  funext r c
  unfold layerK layerR rowK rowR
  rw [(att_real hn (mm_real hh hWp r) hh (mm_real hh hWg) c).1]

/-- Between real operands and with at least one node, a layer's output is real. -/
theorem layerK_real (b : Bool) (hn : 0 < n) {h : Fin n → Fin ci → EReal} {adj : Fin n → Fin n → EReal}
    {Wp : Fin ci → Fin ci → EReal} {Wg Wl : Fin ci → Fin co → EReal}
    (hh : IsReal h) (hadj : IsReal adj) (hWp : IsReal Wp) (hWg : IsReal Wg) (hWl : IsReal Wl) :
    IsReal (layerK b h adj Wp Wg Wl) := by
  intro r c
  unfold layerK rowK
  obtain ⟨x, hx⟩ := act_real b (att_real hn (mm_real hh hWp r) hh (mm_real hh hWg) c).2
  obtain ⟨y, hy⟩ := act_real b (locr_real (hadj r) (mm_real hh hWl) c)
  exact ⟨x + y, by rw [hx, hy, EReal.coe_add]⟩

end Cert.Spec

end
-- ==== Proof.Arr.lean ====
/-
  A rank-2 array's contents as a function of its two coordinates.
-/
import Idealize.ShloMosaic.PureOps.Ideal
import Idealize.ShloMosaic.Lib.ValueIdx

noncomputable section

namespace Cert.Arr

open Idealize.ShloMosaic Idealize.ShloMosaic.ValueIdx

/-- The entry at row `i`, column `k`. -/
def m2 (p q : ℕ) (a : (⟨2, ![p, q]⟩ : Shape).Idx → EReal) : Fin p → Fin q → EReal := fun i k => a (ix2 i k)

theorem m2_apply (p q : ℕ) (a : (⟨2, ![p, q]⟩ : Shape).Idx → EReal) (i : Fin p) (k : Fin q) : m2 p q a i k = a (ix2 i k) := rfl

/-- Two arrays with the same entries are the same array. -/
theorem ext_m2 {p q : ℕ} {a b : (⟨2, ![p, q]⟩ : Shape).Idx → EReal} (h : m2 p q a = m2 p q b) : a = b := by
  funext j
  obtain ⟨i, k, rfl⟩ : ∃ (i : Fin p) (k : Fin q), j = ix2 i k := ⟨j 0, j 1, eq_ix2 j⟩
  exact congrFun (congrFun h i) k

end Cert.Arr

end
-- ==== Proof.Finite.lean ====
/-
  What the precondition gives: every entry of every input array is a real number. The precondition's predicate says of
  each array that the absolute value of every entry is below plus infinity, all of it in conjunction; an extended real
  whose absolute value is below plus infinity is neither infinity, so it is a real number.
-/
import proofs.«177053_g78872779423838_cont_9to1_m_604_3_alg».proof.Pre_finite_inputs
import proofs.«177053_g78872779423838_cont_9to1_m_604_3_alg».proof.Proof.Gen.Pre_finite_inputs
import Idealize.ShloMosaic.PureOps.Ideal
import Idealize.ShloMosaic.PureOps.Ideal.Laws
import Idealize.ShloMosaic.Lib.ValueIdx
import Idealize.ShloMosaic.Lib.ReduceAll

noncomputable section

namespace Cert.Finite

open Cert.Pre_finite_inputs Cert.Pre_finite_inputs.Gen Idealize.ShloMosaic

/-- The rank-zero shape has exactly one index. -/
instance subsingleton_scalar_idx : Subsingleton S_.Idx := ⟨fun a b => funext fun d => d.elim0⟩

/-- The bit pattern of the comparison constant denotes plus infinity. -/
theorem ofBits_inf : Ideal.ofBits .f32 0x7F800000#32 = (⊤ : EReal) := by
  simp [Ideal.ofBits, Ideal.ieee]

/-- An extended real whose absolute value `max x (-x)` is strictly below plus infinity is a real number: at either
    infinity the maximum is plus infinity, which is not below itself. -/
theorem real_of_abs_lt_top (x : EReal) (h : Ideal.cmp .olt (max x (-x)) (⊤ : EReal) = 1#1) : ∃ r : ℝ, x = (r : EReal) := by
  induction x using EReal.rec with
  | bot => simp [Ideal.cmp] at h
  | coe r => exact ⟨r, rfl⟩
  | top => simp [Ideal.cmp] at h

/-- One array: if the conjunction over all entries of `|a i| < +∞` is true, every entry of `a` is a real number. -/
theorem all_real {s : Shape} {axes : List (Fin s.rank)} (a : FVec Ideal s .f32) (hb : S_.BroadcastsInDim s (![] : Fin 0 → Fin s.rank))
    (hr : s.ReducesTo axes S_) (hu : 0 < S_.numel)
    (h : Host.reduce IntOp.andi (cmpf .olt (Host.absf a) (broadcastInDim s ![] hb (constant S_ .f32 0x7F800000#32)))
      (constantI S_ 1 1#1) hr hu ValueIdx.ix0 = 1#1) : ∀ i, ∃ x : ℝ, a i = (x : EReal) := by
  intro i
  have e := Host.reduce_andi_all _ _ hr hu _ h i
  have e' : Ideal.cmp .olt (max (a i) (-(a i))) (⊤ : EReal) = 1#1 := by
    rw [← ofBits_inf]; exact e
  exact real_of_abs_lt_top _ e'

/-- Under the precondition every entry of each of the eleven input arrays is a real number. -/
theorem real_of_pre (a0 : FVec Ideal S2048x256 .f32) (a1 : FVec Ideal S2048x2048 .f32) (a2 a3 a4 a5 : FVec Ideal S256x256 .f32)
    (a6 a7 : FVec Ideal S256x512 .f32) (a8 : FVec Ideal S512x512 .f32) (a9 a10 : FVec Ideal S512x64 .f32)
    (h : Cert.Pre_finite_inputs.fn (F := Ideal) a0 a1 a2 a3 a4 a5 a6 a7 a8 a9 a10 = fun _ => 1#1) :
    (∀ i, ∃ x : ℝ, a0 i = (x : EReal)) ∧ (∀ i, ∃ x : ℝ, a1 i = (x : EReal)) ∧ (∀ i, ∃ x : ℝ, a2 i = (x : EReal))
      ∧ (∀ i, ∃ x : ℝ, a3 i = (x : EReal)) ∧ (∀ i, ∃ x : ℝ, a4 i = (x : EReal)) ∧ (∀ i, ∃ x : ℝ, a5 i = (x : EReal))
      ∧ (∀ i, ∃ x : ℝ, a6 i = (x : EReal)) ∧ (∀ i, ∃ x : ℝ, a7 i = (x : EReal)) ∧ (∀ i, ∃ x : ℝ, a8 i = (x : EReal))
      ∧ (∀ i, ∃ x : ℝ, a9 i = (x : EReal)) ∧ (∀ i, ∃ x : ℝ, a10 i = (x : EReal)) := by
  have h0 := congrFun h ValueIdx.ix0
  dsimp only [fn, fn_part1, fn_part2, fn_part3] at h0
  -- the conjunction of the eleven per-array conjunctions, split from the outside in
  obtain ⟨h0, e10⟩ := IntOp.andi_eq_one.1 h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨all_real a0 _ _ _ e0, all_real a1 _ _ _ e1, all_real a2 _ _ _ e2, all_real a3 _ _ _ e3, all_real a4 _ _ _ e4,
    all_real a5 _ _ _ e5, all_real a6 _ _ _ e6, all_real a7 _ _ _ e7, all_real a8 _ _ _ e8, all_real a9 _ _ _ e9,
    all_real a10 _ _ _ e10⟩

end Cert.Finite

end
-- ==== Proof.LibDot.lean ====
/-
  A plain matrix product read at an entry.

  For dimension numbers that contract axis 1 of an `M × K` left operand with axis 0 of a `K × N` right operand and
  have no batch axes, the contraction index is one coordinate `k : Fin K`, the left operand is read at `(a, k)` and the
  right operand at `(k, b)`: the sum over the contraction index is `∑ k : Fin K`. At the ideal instance this reads a
  kernel's matrix product into a zero accumulator, and a host program's `dot_general`, at entry `(a, b)`.
-/
import Idealize.ShloMosaic.PureOps.Ideal
import Idealize.ShloMosaic.PureOps.Ideal.Laws
import Idealize.ShloMosaic.Lib.ValueIdx

noncomputable section

open scoped BigOperators

namespace Cert.LibDot

open Idealize.ShloMosaic Idealize.ShloMosaic.ValueIdx

/-- The sum over the contraction index of a plain `M × K` by `K × N` product, as a sum over `Fin K`. -/
theorem plain_sum {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    {α : Type} [AddCommMonoid α] (f : (⟨2, ![M, K]⟩ : Shape).Idx → (⟨2, ![K, N]⟩ : Shape).Idx → α) (a : Fin M) (b : Fin N) :
    ∑ k : d.contr.Idx, f (d.lhsIdx (ix2 a b) k) (d.rhsIdx (ix2 a b) k) = ∑ k : Fin K, f (ix2 a k) (ix2 k b) := by
  obtain ⟨lc, rc, ln, rn, lb, rb, wf⟩ := d
  dsimp only at h1 h2 h3 h4 h5 h6
  subst h1 h2 h3 h4 h5 h6
  have hr : (DotDims.mk [1] [0] [0] [1] [] [] wf : DotDims ⟨2, ![M, K]⟩ ⟨2, ![K, N]⟩ ⟨2, ![M, N]⟩).contr.rank = 1 := rfl
  have hs : (DotDims.mk [1] [0] [0] [1] [] [] wf : DotDims ⟨2, ![M, K]⟩ ⟨2, ![K, N]⟩ ⟨2, ![M, N]⟩).contr.size ⟨0, by omega⟩ = K := rfl
  rw [← Equiv.sum_comp (contrEquiv1 _ K hr hs).symm]
  refine Finset.sum_congr rfl fun k _ => ?_
  congr 1
  · funext c
    match c with
    | ⟨0, _⟩ => exact Fin.ext rfl
    | ⟨1, _⟩ => exact Fin.ext rfl
  · funext c
    match c with
    | ⟨0, _⟩ => exact Fin.ext rfl
    | ⟨1, _⟩ => exact Fin.ext rfl

/-- A kernel's matrix product into the zero accumulator, at the ideal instance, at entry `(a, b)`. -/
theorem matmul_zero_apply {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) {φ₁ φ₂ : FTy}
    (prec : Option ContractPrecision) (l : FVec Ideal ⟨2, ![M, K]⟩ φ₁) (r : FVec Ideal ⟨2, ![K, N]⟩ φ₂) (a : Fin M) (b : Fin N) :
    matmul d prec l r (constant ⟨2, ![M, N]⟩ .f32 0x00000000#32) (ix2 a b) = ∑ k : Fin K, l (ix2 a k) * r (ix2 k b) := by
  show FloatOps.matmul d prec l r (constant ⟨2, ![M, N]⟩ .f32 0x00000000#32) (ix2 a b) = _
  rw [Ideal.matmul_constant_zero_apply]
  exact plain_sum d h1 h2 h3 h4 h5 h6 (fun i j => l i * r j) a b

/-- A host program's `dot_general`, at the ideal instance, at entry `(a, b)`. -/
theorem dotGeneral_apply {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) {φ₁ φ₂ : FTy}
    (prec : Option ContractPrecision) (l : FVec Ideal ⟨2, ![M, K]⟩ φ₁) (r : FVec Ideal ⟨2, ![K, N]⟩ φ₂) (a : Fin M) (b : Fin N) :
    Host.dotGeneral d prec l r (ix2 a b) = ∑ k : Fin K, l (ix2 a k) * r (ix2 k b) := by
  show FloatOps.dotGeneral d prec .single l r (ix2 a b) = _
  rw [Ideal.dotGeneral_apply]
  exact plain_sum d h1 h2 h3 h4 h5 h6 (fun i j => l i * r j) a b

end Cert.LibDot

end
-- ==== Proof.KPrep0.lean ====
/-
  Region 0 multiplies the 2048 × 256 input array by three 256 × 256 weight matrices. The rows are cut into eight
  blocks of 256; a grid point t reads rows 256 t … 256 t + 255 of the input and all of each weight matrix, and writes
  the same rows of each of the three products. Since entry (i, j) of a product only needs row i of the input, block t
  of a product is the product of block t of the input with the weight matrix; the eight blocks tile the rows, so after
  the run each output array is the whole product.
-/
import proofs.«177053_g78872779423838_cont_9to1_m_604_3_alg».proof.Proof.Gen.KernelIdeal.Frame
import proofs.«177053_g78872779423838_cont_9to1_m_604_3_alg».proof.Proof.Spec
import proofs.«177053_g78872779423838_cont_9to1_m_604_3_alg».proof.Proof.Arr
import proofs.«177053_g78872779423838_cont_9to1_m_604_3_alg».proof.Proof.LibDot
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.KV

open Cert.KernelIdeal Cert.KernelIdeal.Gen Idealize.ShloMosaic Idealize.ShloMosaic.TcCoe Idealize.ShloMosaic.ValueIdx Cert.Arr

variable (V : (c : Dev nD) → (b : Ref sig .tc) → Buf (Elt Ideal) ((c : Thread nD τ).loc b))

namespace Prep0

/-- The offsets (0, 0) of an access to a whole block are the constant zero function. -/
theorem hz0 : (![0, 0] : Fin 2 → Nat) = fun _ => 0 := funext fun a => match a with | ⟨0, _⟩ => rfl | ⟨1, _⟩ => rfl

/-- The region's input array and its three weight matrices, as the region finds them. -/
abbrev h0arr (c : Dev nD) : S2048x256.Idx → EReal := V c main_arg0
abbrev w0arr1 (c : Dev nD) : S256x256.Idx → EReal := V c main_arg2
abbrev w0arr2 (c : Dev nD) : S256x256.Idx → EReal := V c main_arg3
abbrev w0arr3 (c : Dev nD) : S256x256.Idx → EReal := V c main_arg4

/-- The product of a 2048 × 256 array with a 256 × 256 matrix, as an array: entry (i, j) is Σ_k h(i, k) · w(k, j). -/
def prod0 (h : S2048x256.Idx → EReal) (w : S256x256.Idx → EReal) : S2048x256.Idx → EReal :=
  fun i => ∑ k : Fin 256, h (ix2 (i 0) k) * w (ix2 k (i 1))

/-! ## The body's arithmetic: one matrix product per output -/

/-- The first payload at entry (p, q): Σ_k x0(p, k) · x1(k, q), a product accumulated from zero. -/
theorem pay0_1_apply (x0 x1 : Vec Ideal S256x256 .f32) (p q : Fin 256) :
    k0_pay1 x0 x1 (ix2 p q) = ∑ k : Fin 256, x0 (ix2 p k) * x1 (ix2 k q) := by
  unfold k0_pay1
  exact Cert.LibDot.matmul_zero_apply _ rfl rfl rfl rfl rfl rfl none x0 x1 p q

/-- The second payload at entry (p, q): the same sum. -/
theorem pay0_2_apply (x0 x1 : Vec Ideal S256x256 .f32) (p q : Fin 256) :
    k0_pay2 x0 x1 (ix2 p q) = ∑ k : Fin 256, x0 (ix2 p k) * x1 (ix2 k q) := by
  unfold k0_pay2
  exact Cert.LibDot.matmul_zero_apply _ rfl rfl rfl rfl rfl rfl none x0 x1 p q

/-- The third payload at entry (p, q): the same sum. -/
theorem pay0_3_apply (x0 x1 : Vec Ideal S256x256 .f32) (p q : Fin 256) :
    k0_pay3 x0 x1 (ix2 p q) = ∑ k : Fin 256, x0 (ix2 p k) * x1 (ix2 k q) := by
  unfold k0_pay3
  exact Cert.LibDot.matmul_zero_apply _ rfl rfl rfl rfl rfl rfl none x0 x1 p q

/-! ## Where the blocks sit -/

/-- The block indices over the eight points: the input and the three outputs are at row block t, column block 0; each
    weight matrix is a single block. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- Row p of point t's block is row 256 t + p of the array. -/
def row0 (t : Fin cfg0.N) (p : Fin 256) : Fin 2048 :=
  ⟨t.val * 256 + p.val, by have := t.isLt; have : cfg0.N = 8 := rfl; have := p.isLt; omega⟩

/-- The input's block at point t: entry (p, k) is the array's entry (256 t + p, k). -/
theorem iblk0_0_apply (c : Dev nD) (t : Fin cfg0.N) (p k : Fin 256) :
    iblk0 V c 0 t (ix2 p k) = h0arr V c (ix2 (row0 t p) k) := by
  obtain ⟨e00, e01, -⟩ := idx_facts0 t
  show h0arr V c (((cfg0.win 0).blk t).view.emb (ix2 p k)) = _
  congr 1
  funext a; apply Fin.ext
  match a with
  | ⟨0, _⟩ => show win0_0.index t (0 : Fin 2) * 256 + 1 * p.val = t.val * 256 + p.val; omega
  | ⟨1, _⟩ => show win0_0.index t (1 : Fin 2) * 256 + 1 * k.val = k.val; omega

/-- The first weight's block at any point is the whole matrix. -/
theorem iblk0_1_apply (c : Dev nD) (t : Fin cfg0.N) (k q : Fin 256) :
    iblk0 V c 1 t (ix2 k q) = w0arr1 V c (ix2 k q) := by
  obtain ⟨-, -, e10, e11, -⟩ := idx_facts0 t
  show w0arr1 V c (((cfg0.win 1).blk t).view.emb (ix2 k q)) = _
  congr 1
  funext a; apply Fin.ext
  match a with
  | ⟨0, _⟩ => show win0_1.index t (0 : Fin 2) * 256 + 1 * k.val = k.val; omega
  | ⟨1, _⟩ => show win0_1.index t (1 : Fin 2) * 256 + 1 * q.val = q.val; omega

/-- The second weight's block at any point is the whole matrix. -/
theorem iblk0_2_apply (c : Dev nD) (t : Fin cfg0.N) (k q : Fin 256) :
    iblk0 V c 2 t (ix2 k q) = w0arr2 V c (ix2 k q) := by
  obtain ⟨-, -, -, -, e20, e21, -⟩ := idx_facts0 t
  show w0arr2 V c (((cfg0.win 2).blk t).view.emb (ix2 k q)) = _
  congr 1
  funext a; apply Fin.ext
  match a with
  | ⟨0, _⟩ => show win0_2.index t (0 : Fin 2) * 256 + 1 * k.val = k.val; omega
  | ⟨1, _⟩ => show win0_2.index t (1 : Fin 2) * 256 + 1 * q.val = q.val; omega

/-- The third weight's block at any point is the whole matrix. -/
theorem iblk0_3_apply (c : Dev nD) (t : Fin cfg0.N) (k q : Fin 256) :
    iblk0 V c 3 t (ix2 k q) = w0arr3 V c (ix2 k q) := by
  obtain ⟨-, -, -, -, -, -, e30, e31, -⟩ := idx_facts0 t
  show w0arr3 V c (((cfg0.win 3).blk t).view.emb (ix2 k q)) = _
  congr 1
  funext a; apply Fin.ext
  match a with
  | ⟨0, _⟩ => show win0_3.index t (0 : Fin 2) * 256 + 1 * k.val = k.val; omega
  | ⟨1, _⟩ => show win0_3.index t (1 : Fin 2) * 256 + 1 * q.val = q.val; omega

/-! ## Output 4: the product with the first weight matrix -/

/-- Entry (p, q) of output 4's block at point t sits at (256 t + p, q) of its array. -/
theorem emb0_4 (t : Fin cfg0.N) (p q : Fin 256) :
    ((cfg0.win 4).blk t).view.emb (ix2 p q) = (ix2 (row0 t p) q : S2048x256.Idx) := by
  obtain ⟨-, -, -, -, -, -, -, -, e40, e41, -⟩ := idx_facts0 t
  funext a; apply Fin.ext
  match a with
  | ⟨0, _⟩ => show win0_4.index t (0 : Fin 2) * 256 + 1 * p.val = t.val * 256 + p.val; omega
  | ⟨1, _⟩ => show win0_4.index t (1 : Fin 2) * 256 + 1 * q.val = q.val; omega

/-- What point t writes back to output 4 is block t of the product with the first weight matrix. -/
theorem flushed0_4_eq (c : Dev nD) (t : Fin cfg0.N) :
    (dat0 (F := Ideal) V c).flushed 4 t
      = ((cfg0.win 4).blk t).view.read (Elt Ideal) (prod0 (h0arr V c) (w0arr1 V c)) := by
  show (cfg0.win 4).cut (grid0.coords t) ((dat0 (F := Ideal) V c).after 4 t) = _
  rw [after0_4]
  unfold out0_4
  rw [View.canon_unit_zero hz0]
  simp only [View.ld_unit_zero (S := S256x256) hz0]
  funext y
  obtain ⟨p, q, rfl⟩ : ∃ (p : Fin 256) (q : Fin 256), y = ix2 p q := ⟨y 0, y 1, eq_ix2 y⟩
  show k0_pay1 (iblk0 V c 0 t) (iblk0 V c 1 t) (ix2 p q)
    = prod0 (h0arr V c) (w0arr1 V c) (((cfg0.win 4).blk t).view.emb (ix2 p q))
  rw [pay0_1_apply, emb0_4]
  unfold prod0
  refine Finset.sum_congr rfl fun k _ => ?_
  rw [iblk0_0_apply, iblk0_1_apply]

/-- An index of output 4's array is in point t's block iff each coordinate is in the block's range on its axis. -/
theorem mem_blk0_4 (t : Fin cfg0.N) (i : S2048x256.Idx) :
    i ∈ ((cfg0.win 4).blk t).view.set ↔ ∀ a : Fin 2, win0_4.index t a * S256x256.size a ≤ (i a).val
      ∧ (i a).val < win0_4.index t a * S256x256.size a + S256x256.size a := by
  show i ∈ ((View.whole main_v0_0).slice (win0_4.rect t)).set ↔ _
  rw [View.set_slice_whole, Rect.mem_set_unit]
  exact Iff.rfl

/-- Row r of output 4's array is in the block of point r / 256: the eight blocks tile the rows. -/
theorem cover0_4_arr (i : S2048x256.Idx) :
    ∃ t : Fin cfg0.N, (cfg0.win 4).flush t = true ∧ i ∈ ((cfg0.win 4).blk t).view.set := by
  have hi0 : (i 0).val < 2048 := (i 0).isLt
  have hi1 : (i 1).val < 256 := (i 1).isLt
  have hN : cfg0.N = 8 := rfl
  obtain ⟨t, ht⟩ : ∃ t : Fin cfg0.N, t.val = (i 0).val / 256 := ⟨⟨(i 0).val / 256, by omega⟩, rfl⟩
  obtain ⟨-, -, -, -, -, -, -, -, e40, e41, -⟩ := idx_facts0 t
  refine ⟨t, flush0_4 t, ?_⟩
  rw [mem_blk0_4]
  intro a
  match a with
  | ⟨0, _⟩ => show win0_4.index t (0 : Fin 2) * 256 ≤ (i 0).val ∧ (i 0).val < win0_4.index t (0 : Fin 2) * 256 + 256; omega
  | ⟨1, _⟩ => show win0_4.index t (1 : Fin 2) * 256 ≤ (i 1).val ∧ (i 1).val < win0_4.index t (1 : Fin 2) * 256 + 256; omega

/-- Output 4's array after the run is the whole product. -/
theorem arr0_4_eq (c : Dev nD) : (dat0 (F := Ideal) V c).arrAt 4 cfg0.N = prod0 (h0arr V c) (w0arr1 V c) :=
  (dat0 (F := Ideal) V c).arrAt_eq_of_cover 4 _ (fun t _ => flushed0_4_eq V c t) cover0_4_arr

/-! ## Output 5: the product with the second weight matrix -/

/-- Entry (p, q) of output 5's block at point t sits at (256 t + p, q) of its array. -/
theorem emb0_5 (t : Fin cfg0.N) (p q : Fin 256) :
    ((cfg0.win 5).blk t).view.emb (ix2 p q) = (ix2 (row0 t p) q : S2048x256.Idx) := by
  obtain ⟨-, -, -, -, -, -, -, -, -, -, e50, e51, -⟩ := idx_facts0 t
  funext a; apply Fin.ext
  match a with
  | ⟨0, _⟩ => show win0_5.index t (0 : Fin 2) * 256 + 1 * p.val = t.val * 256 + p.val; omega
  | ⟨1, _⟩ => show win0_5.index t (1 : Fin 2) * 256 + 1 * q.val = q.val; omega

/-- What point t writes back to output 5 is block t of the product with the second weight matrix. -/
theorem flushed0_5_eq (c : Dev nD) (t : Fin cfg0.N) :
    (dat0 (F := Ideal) V c).flushed 5 t
      = ((cfg0.win 5).blk t).view.read (Elt Ideal) (prod0 (h0arr V c) (w0arr2 V c)) := by
  show (cfg0.win 5).cut (grid0.coords t) ((dat0 (F := Ideal) V c).after 5 t) = _
  rw [after0_5]
  unfold out0_5
  rw [View.canon_unit_zero hz0]
  simp only [View.ld_unit_zero (S := S256x256) hz0]
  funext y
  obtain ⟨p, q, rfl⟩ : ∃ (p : Fin 256) (q : Fin 256), y = ix2 p q := ⟨y 0, y 1, eq_ix2 y⟩
  show k0_pay2 (iblk0 V c 0 t) (iblk0 V c 2 t) (ix2 p q)
    = prod0 (h0arr V c) (w0arr2 V c) (((cfg0.win 5).blk t).view.emb (ix2 p q))
  rw [pay0_2_apply, emb0_5]
  unfold prod0
  refine Finset.sum_congr rfl fun k _ => ?_
  rw [iblk0_0_apply, iblk0_2_apply]

/-- An index of output 5's array is in point t's block iff each coordinate is in the block's range on its axis. -/
theorem mem_blk0_5 (t : Fin cfg0.N) (i : S2048x256.Idx) :
    i ∈ ((cfg0.win 5).blk t).view.set ↔ ∀ a : Fin 2, win0_5.index t a * S256x256.size a ≤ (i a).val
      ∧ (i a).val < win0_5.index t a * S256x256.size a + S256x256.size a := by
  show i ∈ ((View.whole main_v0_1).slice (win0_5.rect t)).set ↔ _
  rw [View.set_slice_whole, Rect.mem_set_unit]
  exact Iff.rfl

/-- Row r of output 5's array is in the block of point r / 256. -/
theorem cover0_5_arr (i : S2048x256.Idx) :
    ∃ t : Fin cfg0.N, (cfg0.win 5).flush t = true ∧ i ∈ ((cfg0.win 5).blk t).view.set := by
  have hi0 : (i 0).val < 2048 := (i 0).isLt
  have hi1 : (i 1).val < 256 := (i 1).isLt
  have hN : cfg0.N = 8 := rfl
  obtain ⟨t, ht⟩ : ∃ t : Fin cfg0.N, t.val = (i 0).val / 256 := ⟨⟨(i 0).val / 256, by omega⟩, rfl⟩
  obtain ⟨-, -, -, -, -, -, -, -, -, -, e50, e51, -⟩ := idx_facts0 t
  refine ⟨t, flush0_5 t, ?_⟩
  rw [mem_blk0_5]
  intro a
  match a with
  | ⟨0, _⟩ => show win0_5.index t (0 : Fin 2) * 256 ≤ (i 0).val ∧ (i 0).val < win0_5.index t (0 : Fin 2) * 256 + 256; omega
  | ⟨1, _⟩ => show win0_5.index t (1 : Fin 2) * 256 ≤ (i 1).val ∧ (i 1).val < win0_5.index t (1 : Fin 2) * 256 + 256; omega

/-- Output 5's array after the run is the whole product. -/
theorem arr0_5_eq (c : Dev nD) : (dat0 (F := Ideal) V c).arrAt 5 cfg0.N = prod0 (h0arr V c) (w0arr2 V c) :=
  (dat0 (F := Ideal) V c).arrAt_eq_of_cover 5 _ (fun t _ => flushed0_5_eq V c t) cover0_5_arr

/-! ## Output 6: the product with the third weight matrix -/

/-- Entry (p, q) of output 6's block at point t sits at (256 t + p, q) of its array. -/
theorem emb0_6 (t : Fin cfg0.N) (p q : Fin 256) :
    ((cfg0.win 6).blk t).view.emb (ix2 p q) = (ix2 (row0 t p) q : S2048x256.Idx) := by
  obtain ⟨-, -, -, -, -, -, -, -, -, -, -, -, e60, e61⟩ := idx_facts0 t
  funext a; apply Fin.ext
  match a with
  | ⟨0, _⟩ => show win0_6.index t (0 : Fin 2) * 256 + 1 * p.val = t.val * 256 + p.val; omega
  | ⟨1, _⟩ => show win0_6.index t (1 : Fin 2) * 256 + 1 * q.val = q.val; omega

/-- What point t writes back to output 6 is block t of the product with the third weight matrix. -/
theorem flushed0_6_eq (c : Dev nD) (t : Fin cfg0.N) :
    (dat0 (F := Ideal) V c).flushed 6 t
      = ((cfg0.win 6).blk t).view.read (Elt Ideal) (prod0 (h0arr V c) (w0arr3 V c)) := by
  show (cfg0.win 6).cut (grid0.coords t) ((dat0 (F := Ideal) V c).after 6 t) = _
  rw [after0_6]
  unfold out0_6
  rw [View.canon_unit_zero hz0]
  simp only [View.ld_unit_zero (S := S256x256) hz0]
  funext y
  obtain ⟨p, q, rfl⟩ : ∃ (p : Fin 256) (q : Fin 256), y = ix2 p q := ⟨y 0, y 1, eq_ix2 y⟩
  show k0_pay3 (iblk0 V c 0 t) (iblk0 V c 3 t) (ix2 p q)
    = prod0 (h0arr V c) (w0arr3 V c) (((cfg0.win 6).blk t).view.emb (ix2 p q))
  rw [pay0_3_apply, emb0_6]
  unfold prod0
  refine Finset.sum_congr rfl fun k _ => ?_
  rw [iblk0_0_apply, iblk0_3_apply]

/-- An index of output 6's array is in point t's block iff each coordinate is in the block's range on its axis. -/
theorem mem_blk0_6 (t : Fin cfg0.N) (i : S2048x256.Idx) :
    i ∈ ((cfg0.win 6).blk t).view.set ↔ ∀ a : Fin 2, win0_6.index t a * S256x256.size a ≤ (i a).val
      ∧ (i a).val < win0_6.index t a * S256x256.size a + S256x256.size a := by
  show i ∈ ((View.whole main_v0_2).slice (win0_6.rect t)).set ↔ _
  rw [View.set_slice_whole, Rect.mem_set_unit]
  exact Iff.rfl

/-- Row r of output 6's array is in the block of point r / 256. -/
theorem cover0_6_arr (i : S2048x256.Idx) :
    ∃ t : Fin cfg0.N, (cfg0.win 6).flush t = true ∧ i ∈ ((cfg0.win 6).blk t).view.set := by
  have hi0 : (i 0).val < 2048 := (i 0).isLt
  have hi1 : (i 1).val < 256 := (i 1).isLt
  have hN : cfg0.N = 8 := rfl
  obtain ⟨t, ht⟩ : ∃ t : Fin cfg0.N, t.val = (i 0).val / 256 := ⟨⟨(i 0).val / 256, by omega⟩, rfl⟩
  obtain ⟨-, -, -, -, -, -, -, -, -, -, -, -, e60, e61⟩ := idx_facts0 t
  refine ⟨t, flush0_6 t, ?_⟩
  rw [mem_blk0_6]
  intro a
  match a with
  | ⟨0, _⟩ => show win0_6.index t (0 : Fin 2) * 256 ≤ (i 0).val ∧ (i 0).val < win0_6.index t (0 : Fin 2) * 256 + 256; omega
  | ⟨1, _⟩ => show win0_6.index t (1 : Fin 2) * 256 ≤ (i 1).val ∧ (i 1).val < win0_6.index t (1 : Fin 2) * 256 + 256; omega

/-- Output 6's array after the run is the whole product. -/
theorem arr0_6_eq (c : Dev nD) : (dat0 (F := Ideal) V c).arrAt 6 cfg0.N = prod0 (h0arr V c) (w0arr3 V c) :=
  (dat0 (F := Ideal) V c).arrAt_eq_of_cover 6 _ (fun t _ => flushed0_6_eq V c t) cover0_6_arr

end Prep0

/-! ## The three products, entry by entry -/

/-- Output window 4's array after the run: Q (the input times the first weight matrix). -/
theorem final0_4 (c : Dev nD) :
    m2 2048 256 ((dat0 (F := Ideal) V c).arrAt 4 cfg0.N)
      = Cert.Spec.mm (m2 2048 256 (V c main_arg0)) (m2 256 256 (V c main_arg2)) := by
  funext r q
  show (dat0 (F := Ideal) V c).arrAt 4 cfg0.N (ix2 r q) = _
  rw [Prep0.arr0_4_eq]
  rfl

/-- Output window 5's array after the run: V (the input times the second weight matrix). -/
theorem final0_5 (c : Dev nD) :
    m2 2048 256 ((dat0 (F := Ideal) V c).arrAt 5 cfg0.N)
      = Cert.Spec.mm (m2 2048 256 (V c main_arg0)) (m2 256 256 (V c main_arg3)) := by
  funext r q
  show (dat0 (F := Ideal) V c).arrAt 5 cfg0.N (ix2 r q) = _
  rw [Prep0.arr0_5_eq]
  rfl

/-- Output window 6's array after the run: U (the input times the third weight matrix). -/
theorem final0_6 (c : Dev nD) :
    m2 2048 256 ((dat0 (F := Ideal) V c).arrAt 6 cfg0.N)
      = Cert.Spec.mm (m2 2048 256 (V c main_arg0)) (m2 256 256 (V c main_arg4)) := by
  funext r q
  show (dat0 (F := Ideal) V c).arrAt 6 cfg0.N (ix2 r q) = _
  rw [Prep0.arr0_6_eq]
  rfl

end Cert.KernelIdeal.KV

end
-- ==== Proof.KPrep2.lean ====
/-
  Region 2 multiplies its 2048 × 256 input array by one 256 × 256 and two 256 × 512 weight matrices. As in every
  row-blocked product, a grid point t reads rows 256 t … 256 t + 255 of the input and all of each weight matrix, and
  writes the same rows of each of the three products (the body first reshapes the input block to its own shape, which
  changes nothing). Entry (i, j) of a product only needs row i of the input, so block t of a product is the product of
  block t of the input with the weight matrix; the eight blocks tile the rows, so after the run each output array is
  the whole product.
-/
import proofs.«177053_g78872779423838_cont_9to1_m_604_3_alg».proof.Proof.Gen.KernelIdeal.Frame
import proofs.«177053_g78872779423838_cont_9to1_m_604_3_alg».proof.Proof.Spec
import proofs.«177053_g78872779423838_cont_9to1_m_604_3_alg».proof.Proof.Arr
import proofs.«177053_g78872779423838_cont_9to1_m_604_3_alg».proof.Proof.LibDot
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.KV

open Cert.KernelIdeal Cert.KernelIdeal.Gen Idealize.ShloMosaic Idealize.ShloMosaic.TcCoe Idealize.ShloMosaic.ValueIdx Cert.Arr

variable (V : (c : Dev nD) → (b : Ref sig .tc) → Buf (Elt Ideal) ((c : Thread nD τ).loc b))

namespace Prep2

/-- The offsets (0, 0) of an access to a whole block are the constant zero function. -/
theorem hz2 : (![0, 0] : Fin 2 → Nat) = fun _ => 0 := funext fun a => match a with | ⟨0, _⟩ => rfl | ⟨1, _⟩ => rfl

/-- The region's input array and its three weight matrices, as the region finds them. -/
abbrev h2arr (c : Dev nD) : S2048x256.Idx → EReal := V c main_v1
abbrev w2arr1 (c : Dev nD) : S256x256.Idx → EReal := V c main_arg5
abbrev w2arr2 (c : Dev nD) : S256x512.Idx → EReal := V c main_arg6
abbrev w2arr3 (c : Dev nD) : S256x512.Idx → EReal := V c main_arg7

/-- The product of a 2048 × 256 array with a 256 × 256 matrix, as an array: entry (i, j) is Σ_k h(i, k) · w(k, j). -/
def prod2n (h : S2048x256.Idx → EReal) (w : S256x256.Idx → EReal) : S2048x256.Idx → EReal :=
  fun i => ∑ k : Fin 256, h (ix2 (i 0) k) * w (ix2 k (i 1))

/-- The product of a 2048 × 256 array with a 256 × 512 matrix, as an array: entry (i, j) is Σ_k h(i, k) · w(k, j). -/
def prod2w (h : S2048x256.Idx → EReal) (w : S256x512.Idx → EReal) : S2048x512.Idx → EReal :=
  fun i => ∑ k : Fin 256, h (ix2 (i 0) k) * w (ix2 k (i 1))

/-! ## The body's arithmetic: one matrix product per output, of the (identically reshaped) input block -/

/-- The first product's payload at entry (p, q): Σ_k x0(p, k) · x1(k, q), accumulated from zero. -/
theorem pay2_2_apply (x0 x1 : Vec Ideal S256x256 .f32) (p q : Fin 256) :
    k2_pay2 x0 x1 (ix2 p q) = ∑ k : Fin 256, x0 (ix2 p k) * x1 (ix2 k q) := by
  unfold k2_pay2 k2_pay1
  simp only [shapeCast_self]
  exact Cert.LibDot.matmul_zero_apply _ rfl rfl rfl rfl rfl rfl none x0 x1 p q

/-- The second product's payload at entry (p, q): the same sum, q over 512 columns. -/
theorem pay2_3_apply (x0 : Vec Ideal S256x256 .f32) (x1 : Vec Ideal S256x512 .f32) (p : Fin 256) (q : Fin 512) :
    k2_pay3 x0 x1 (ix2 p q) = ∑ k : Fin 256, x0 (ix2 p k) * x1 (ix2 k q) := by
  unfold k2_pay3 k2_pay1
  simp only [shapeCast_self]
  exact Cert.LibDot.matmul_zero_apply _ rfl rfl rfl rfl rfl rfl none x0 x1 p q

/-- The third product's payload at entry (p, q): the same sum. -/
theorem pay2_4_apply (x0 : Vec Ideal S256x256 .f32) (x1 : Vec Ideal S256x512 .f32) (p : Fin 256) (q : Fin 512) :
    k2_pay4 x0 x1 (ix2 p q) = ∑ k : Fin 256, x0 (ix2 p k) * x1 (ix2 k q) := by
  unfold k2_pay4 k2_pay1
  simp only [shapeCast_self]
  exact Cert.LibDot.matmul_zero_apply _ rfl rfl rfl rfl rfl rfl none x0 x1 p q

/-! ## Where the blocks sit -/

/-- The block indices over the eight points: the input and the three outputs are at row block t, column block 0; each
    weight matrix is a single block. -/
theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0
    ∧ win2_5.index t (0 : Fin 2) = t.val ∧ win2_5.index t (1 : Fin 2) = 0
    ∧ win2_6.index t (0 : Fin 2) = t.val ∧ win2_6.index t (1 : Fin 2) = 0 :=
  (by decide +kernel : ∀ t : Fin grid2.N, _)

/-- Row p of point t's block is row 256 t + p of the array. -/
def row2 (t : Fin cfg2.N) (p : Fin 256) : Fin 2048 :=
  ⟨t.val * 256 + p.val, by have := t.isLt; have : cfg2.N = 8 := rfl; have := p.isLt; omega⟩

/-- The input's block at point t: entry (p, k) is the array's entry (256 t + p, k). -/
theorem iblk2_0_apply (c : Dev nD) (t : Fin cfg2.N) (p k : Fin 256) :
    iblk2 V c 0 t (ix2 p k) = h2arr V c (ix2 (row2 t p) k) := by
  obtain ⟨e00, e01, -⟩ := idx_facts2 t
  show h2arr V c (((cfg2.win 0).blk t).view.emb (ix2 p k)) = _
  congr 1
  funext a; apply Fin.ext
  match a with
  | ⟨0, _⟩ => show win2_0.index t (0 : Fin 2) * 256 + 1 * p.val = t.val * 256 + p.val; omega
  | ⟨1, _⟩ => show win2_0.index t (1 : Fin 2) * 256 + 1 * k.val = k.val; omega

/-- The first weight's block at any point is the whole matrix. -/
theorem iblk2_1_apply (c : Dev nD) (t : Fin cfg2.N) (k q : Fin 256) :
    iblk2 V c 1 t (ix2 k q) = w2arr1 V c (ix2 k q) := by
  obtain ⟨-, -, e10, e11, -⟩ := idx_facts2 t
  show w2arr1 V c (((cfg2.win 1).blk t).view.emb (ix2 k q)) = _
  congr 1
  funext a; apply Fin.ext
  match a with
  | ⟨0, _⟩ => show win2_1.index t (0 : Fin 2) * 256 + 1 * k.val = k.val; omega
  | ⟨1, _⟩ => show win2_1.index t (1 : Fin 2) * 256 + 1 * q.val = q.val; omega

/-- The second weight's block at any point is the whole matrix. -/
theorem iblk2_2_apply (c : Dev nD) (t : Fin cfg2.N) (k : Fin 256) (q : Fin 512) :
    iblk2 V c 2 t (ix2 k q) = w2arr2 V c (ix2 k q) := by
  obtain ⟨-, -, -, -, e20, e21, -⟩ := idx_facts2 t
  show w2arr2 V c (((cfg2.win 2).blk t).view.emb (ix2 k q)) = _
  congr 1
  funext a; apply Fin.ext
  match a with
  | ⟨0, _⟩ => show win2_2.index t (0 : Fin 2) * 256 + 1 * k.val = k.val; omega
  | ⟨1, _⟩ => show win2_2.index t (1 : Fin 2) * 512 + 1 * q.val = q.val; omega

/-- The third weight's block at any point is the whole matrix. -/
theorem iblk2_3_apply (c : Dev nD) (t : Fin cfg2.N) (k : Fin 256) (q : Fin 512) :
    iblk2 V c 3 t (ix2 k q) = w2arr3 V c (ix2 k q) := by
  obtain ⟨-, -, -, -, -, -, e30, e31, -⟩ := idx_facts2 t
  show w2arr3 V c (((cfg2.win 3).blk t).view.emb (ix2 k q)) = _
  congr 1
  funext a; apply Fin.ext
  match a with
  | ⟨0, _⟩ => show win2_3.index t (0 : Fin 2) * 256 + 1 * k.val = k.val; omega
  | ⟨1, _⟩ => show win2_3.index t (1 : Fin 2) * 512 + 1 * q.val = q.val; omega

/-! ## Output 4: the product with the first weight matrix (256 columns) -/

/-- Entry (p, q) of output 4's block at point t sits at (256 t + p, q) of its array. -/
theorem emb2_4 (t : Fin cfg2.N) (p q : Fin 256) :
    ((cfg2.win 4).blk t).view.emb (ix2 p q) = (ix2 (row2 t p) q : S2048x256.Idx) := by
  obtain ⟨-, -, -, -, -, -, -, -, e40, e41, -⟩ := idx_facts2 t
  funext a; apply Fin.ext
  match a with
  | ⟨0, _⟩ => show win2_4.index t (0 : Fin 2) * 256 + 1 * p.val = t.val * 256 + p.val; omega
  | ⟨1, _⟩ => show win2_4.index t (1 : Fin 2) * 256 + 1 * q.val = q.val; omega

/-- What point t writes back to output 4 is block t of the product with the first weight matrix. -/
theorem flushed2_4_eq (c : Dev nD) (t : Fin cfg2.N) :
    (dat2 (F := Ideal) V c).flushed 4 t
      = ((cfg2.win 4).blk t).view.read (Elt Ideal) (prod2n (h2arr V c) (w2arr1 V c)) := by
  show (cfg2.win 4).cut (grid2.coords t) ((dat2 (F := Ideal) V c).after 4 t) = _
  rw [after2_4]
  unfold out2_4
  rw [View.canon_unit_zero hz2]
  simp only [View.ld_unit_zero (S := S256x256) hz2]
  funext y
  obtain ⟨p, q, rfl⟩ : ∃ (p : Fin 256) (q : Fin 256), y = ix2 p q := ⟨y 0, y 1, eq_ix2 y⟩
  show k2_pay2 (iblk2 V c 0 t) (iblk2 V c 1 t) (ix2 p q)
    = prod2n (h2arr V c) (w2arr1 V c) (((cfg2.win 4).blk t).view.emb (ix2 p q))
  rw [pay2_2_apply, emb2_4]
  unfold prod2n
  refine Finset.sum_congr rfl fun k _ => ?_
  rw [iblk2_0_apply, iblk2_1_apply]

/-- An index of output 4's array is in point t's block iff each coordinate is in the block's range on its axis. -/
theorem mem_blk2_4 (t : Fin cfg2.N) (i : S2048x256.Idx) :
    i ∈ ((cfg2.win 4).blk t).view.set ↔ ∀ a : Fin 2, win2_4.index t a * S256x256.size a ≤ (i a).val
      ∧ (i a).val < win2_4.index t a * S256x256.size a + S256x256.size a := by
  show i ∈ ((View.whole main_v2_0).slice (win2_4.rect t)).set ↔ _
  rw [View.set_slice_whole, Rect.mem_set_unit]
  exact Iff.rfl

/-- Row r of output 4's array is in the block of point r / 256: the eight blocks tile the rows. -/
theorem cover2_4_arr (i : S2048x256.Idx) :
    ∃ t : Fin cfg2.N, (cfg2.win 4).flush t = true ∧ i ∈ ((cfg2.win 4).blk t).view.set := by
  have hi0 : (i 0).val < 2048 := (i 0).isLt
  have hi1 : (i 1).val < 256 := (i 1).isLt
  have hN : cfg2.N = 8 := rfl
  obtain ⟨t, ht⟩ : ∃ t : Fin cfg2.N, t.val = (i 0).val / 256 := ⟨⟨(i 0).val / 256, by omega⟩, rfl⟩
  obtain ⟨-, -, -, -, -, -, -, -, e40, e41, -⟩ := idx_facts2 t
  refine ⟨t, flush2_4 t, ?_⟩
  rw [mem_blk2_4]
  intro a
  match a with
  | ⟨0, _⟩ => show win2_4.index t (0 : Fin 2) * 256 ≤ (i 0).val ∧ (i 0).val < win2_4.index t (0 : Fin 2) * 256 + 256; omega
  | ⟨1, _⟩ => show win2_4.index t (1 : Fin 2) * 256 ≤ (i 1).val ∧ (i 1).val < win2_4.index t (1 : Fin 2) * 256 + 256; omega

/-- Output 4's array after the run is the whole product. -/
theorem arr2_4_eq (c : Dev nD) : (dat2 (F := Ideal) V c).arrAt 4 cfg2.N = prod2n (h2arr V c) (w2arr1 V c) :=
  (dat2 (F := Ideal) V c).arrAt_eq_of_cover 4 _ (fun t _ => flushed2_4_eq V c t) cover2_4_arr

/-! ## Output 5: the product with the second weight matrix (512 columns) -/

/-- Entry (p, q) of output 5's block at point t sits at (256 t + p, q) of its array. -/
theorem emb2_5 (t : Fin cfg2.N) (p : Fin 256) (q : Fin 512) :
    ((cfg2.win 5).blk t).view.emb (ix2 p q) = (ix2 (row2 t p) q : S2048x512.Idx) := by
  obtain ⟨-, -, -, -, -, -, -, -, -, -, e50, e51, -⟩ := idx_facts2 t
  funext a; apply Fin.ext
  match a with
  | ⟨0, _⟩ => show win2_5.index t (0 : Fin 2) * 256 + 1 * p.val = t.val * 256 + p.val; omega
  | ⟨1, _⟩ => show win2_5.index t (1 : Fin 2) * 512 + 1 * q.val = q.val; omega

/-- What point t writes back to output 5 is block t of the product with the second weight matrix. -/
theorem flushed2_5_eq (c : Dev nD) (t : Fin cfg2.N) :
    (dat2 (F := Ideal) V c).flushed 5 t
      = ((cfg2.win 5).blk t).view.read (Elt Ideal) (prod2w (h2arr V c) (w2arr2 V c)) := by
  show (cfg2.win 5).cut (grid2.coords t) ((dat2 (F := Ideal) V c).after 5 t) = _
  rw [after2_5]
  unfold out2_5
  rw [View.canon_unit_zero hz2]
  simp only [View.ld_unit_zero (S := S256x256) hz2, View.ld_unit_zero (S := S256x512) hz2]
  funext y
  obtain ⟨p, q, rfl⟩ : ∃ (p : Fin 256) (q : Fin 512), y = ix2 p q := ⟨y 0, y 1, eq_ix2 y⟩
  show k2_pay3 (iblk2 V c 0 t) (iblk2 V c 2 t) (ix2 p q)
    = prod2w (h2arr V c) (w2arr2 V c) (((cfg2.win 5).blk t).view.emb (ix2 p q))
  rw [pay2_3_apply, emb2_5]
  unfold prod2w
  refine Finset.sum_congr rfl fun k _ => ?_
  rw [iblk2_0_apply, iblk2_2_apply]

/-- An index of output 5's array is in point t's block iff each coordinate is in the block's range on its axis. -/
theorem mem_blk2_5 (t : Fin cfg2.N) (i : S2048x512.Idx) :
    i ∈ ((cfg2.win 5).blk t).view.set ↔ ∀ a : Fin 2, win2_5.index t a * S256x512.size a ≤ (i a).val
      ∧ (i a).val < win2_5.index t a * S256x512.size a + S256x512.size a := by
  show i ∈ ((View.whole main_v2_1).slice (win2_5.rect t)).set ↔ _
  rw [View.set_slice_whole, Rect.mem_set_unit]
  exact Iff.rfl

/-- Row r of output 5's array is in the block of point r / 256. -/
theorem cover2_5_arr (i : S2048x512.Idx) :
    ∃ t : Fin cfg2.N, (cfg2.win 5).flush t = true ∧ i ∈ ((cfg2.win 5).blk t).view.set := by
  have hi0 : (i 0).val < 2048 := (i 0).isLt
  have hi1 : (i 1).val < 512 := (i 1).isLt
  have hN : cfg2.N = 8 := rfl
  obtain ⟨t, ht⟩ : ∃ t : Fin cfg2.N, t.val = (i 0).val / 256 := ⟨⟨(i 0).val / 256, by omega⟩, rfl⟩
  obtain ⟨-, -, -, -, -, -, -, -, -, -, e50, e51, -⟩ := idx_facts2 t
  refine ⟨t, flush2_5 t, ?_⟩
  rw [mem_blk2_5]
  intro a
  match a with
  | ⟨0, _⟩ => show win2_5.index t (0 : Fin 2) * 256 ≤ (i 0).val ∧ (i 0).val < win2_5.index t (0 : Fin 2) * 256 + 256; omega
  | ⟨1, _⟩ => show win2_5.index t (1 : Fin 2) * 512 ≤ (i 1).val ∧ (i 1).val < win2_5.index t (1 : Fin 2) * 512 + 512; omega

/-- Output 5's array after the run is the whole product. -/
theorem arr2_5_eq (c : Dev nD) : (dat2 (F := Ideal) V c).arrAt 5 cfg2.N = prod2w (h2arr V c) (w2arr2 V c) :=
  (dat2 (F := Ideal) V c).arrAt_eq_of_cover 5 _ (fun t _ => flushed2_5_eq V c t) cover2_5_arr

/-! ## Output 6: the product with the third weight matrix (512 columns) -/

/-- Entry (p, q) of output 6's block at point t sits at (256 t + p, q) of its array. -/
theorem emb2_6 (t : Fin cfg2.N) (p : Fin 256) (q : Fin 512) :
    ((cfg2.win 6).blk t).view.emb (ix2 p q) = (ix2 (row2 t p) q : S2048x512.Idx) := by
  obtain ⟨-, -, -, -, -, -, -, -, -, -, -, -, e60, e61⟩ := idx_facts2 t
  funext a; apply Fin.ext
  match a with
  | ⟨0, _⟩ => show win2_6.index t (0 : Fin 2) * 256 + 1 * p.val = t.val * 256 + p.val; omega
  | ⟨1, _⟩ => show win2_6.index t (1 : Fin 2) * 512 + 1 * q.val = q.val; omega

/-- What point t writes back to output 6 is block t of the product with the third weight matrix. -/
theorem flushed2_6_eq (c : Dev nD) (t : Fin cfg2.N) :
    (dat2 (F := Ideal) V c).flushed 6 t
      = ((cfg2.win 6).blk t).view.read (Elt Ideal) (prod2w (h2arr V c) (w2arr3 V c)) := by
  show (cfg2.win 6).cut (grid2.coords t) ((dat2 (F := Ideal) V c).after 6 t) = _
  rw [after2_6]
  unfold out2_6
  rw [View.canon_unit_zero hz2]
  simp only [View.ld_unit_zero (S := S256x256) hz2, View.ld_unit_zero (S := S256x512) hz2]
  funext y
  obtain ⟨p, q, rfl⟩ : ∃ (p : Fin 256) (q : Fin 512), y = ix2 p q := ⟨y 0, y 1, eq_ix2 y⟩
  show k2_pay4 (iblk2 V c 0 t) (iblk2 V c 3 t) (ix2 p q)
    = prod2w (h2arr V c) (w2arr3 V c) (((cfg2.win 6).blk t).view.emb (ix2 p q))
  rw [pay2_4_apply, emb2_6]
  unfold prod2w
  refine Finset.sum_congr rfl fun k _ => ?_
  rw [iblk2_0_apply, iblk2_3_apply]

/-- An index of output 6's array is in point t's block iff each coordinate is in the block's range on its axis. -/
theorem mem_blk2_6 (t : Fin cfg2.N) (i : S2048x512.Idx) :
    i ∈ ((cfg2.win 6).blk t).view.set ↔ ∀ a : Fin 2, win2_6.index t a * S256x512.size a ≤ (i a).val
      ∧ (i a).val < win2_6.index t a * S256x512.size a + S256x512.size a := by
  show i ∈ ((View.whole main_v2_2).slice (win2_6.rect t)).set ↔ _
  rw [View.set_slice_whole, Rect.mem_set_unit]
  exact Iff.rfl

/-- Row r of output 6's array is in the block of point r / 256. -/
theorem cover2_6_arr (i : S2048x512.Idx) :
    ∃ t : Fin cfg2.N, (cfg2.win 6).flush t = true ∧ i ∈ ((cfg2.win 6).blk t).view.set := by
  have hi0 : (i 0).val < 2048 := (i 0).isLt
  have hi1 : (i 1).val < 512 := (i 1).isLt
  have hN : cfg2.N = 8 := rfl
  obtain ⟨t, ht⟩ : ∃ t : Fin cfg2.N, t.val = (i 0).val / 256 := ⟨⟨(i 0).val / 256, by omega⟩, rfl⟩
  obtain ⟨-, -, -, -, -, -, -, -, -, -, -, -, e60, e61⟩ := idx_facts2 t
  refine ⟨t, flush2_6 t, ?_⟩
  rw [mem_blk2_6]
  intro a
  match a with
  | ⟨0, _⟩ => show win2_6.index t (0 : Fin 2) * 256 ≤ (i 0).val ∧ (i 0).val < win2_6.index t (0 : Fin 2) * 256 + 256; omega
  | ⟨1, _⟩ => show win2_6.index t (1 : Fin 2) * 512 ≤ (i 1).val ∧ (i 1).val < win2_6.index t (1 : Fin 2) * 512 + 512; omega

/-- Output 6's array after the run is the whole product. -/
theorem arr2_6_eq (c : Dev nD) : (dat2 (F := Ideal) V c).arrAt 6 cfg2.N = prod2w (h2arr V c) (w2arr3 V c) :=
  (dat2 (F := Ideal) V c).arrAt_eq_of_cover 6 _ (fun t _ => flushed2_6_eq V c t) cover2_6_arr

end Prep2

/-! ## The three products, entry by entry -/

/-- Output window 4's array after the run: Q (the input times the first weight matrix). -/
theorem final2_4 (c : Dev nD) :
    m2 2048 256 ((dat2 (F := Ideal) V c).arrAt 4 cfg2.N)
      = Cert.Spec.mm (m2 2048 256 (V c main_v1)) (m2 256 256 (V c main_arg5)) := by
  funext r q
  show (dat2 (F := Ideal) V c).arrAt 4 cfg2.N (ix2 r q) = _
  rw [Prep2.arr2_4_eq]
  rfl

/-- Output window 5's array after the run: V (the input times the second weight matrix). -/
theorem final2_5 (c : Dev nD) :
    m2 2048 512 ((dat2 (F := Ideal) V c).arrAt 5 cfg2.N)
      = Cert.Spec.mm (m2 2048 256 (V c main_v1)) (m2 256 512 (V c main_arg6)) := by
  funext r q
  show (dat2 (F := Ideal) V c).arrAt 5 cfg2.N (ix2 r q) = _
  rw [Prep2.arr2_5_eq]
  rfl

/-- Output window 6's array after the run: U (the input times the third weight matrix). -/
theorem final2_6 (c : Dev nD) :
    m2 2048 512 ((dat2 (F := Ideal) V c).arrAt 6 cfg2.N)
      = Cert.Spec.mm (m2 2048 256 (V c main_v1)) (m2 256 512 (V c main_arg7)) := by
  funext r q
  show (dat2 (F := Ideal) V c).arrAt 6 cfg2.N (ix2 r q) = _
  rw [Prep2.arr2_6_eq]
  rfl

end Cert.KernelIdeal.KV

end
-- ==== Proof.KPrep4.lean ====
/-
  Region 4 multiplies its 2048 × 512 input array by one 512 × 512 and two 512 × 64 weight matrices. A grid point t reads
  rows 256 t … 256 t + 255 of the input and all of each weight matrix, and writes the same rows of each of the three
  products (the body first reshapes the input block to its own shape, which changes nothing). Entry (i, j) of a product
  only needs row i of the input, so block t of a product is the product of block t of the input with the weight matrix;
  the eight blocks tile the rows, so after the run each output array is the whole product.
-/
import proofs.«177053_g78872779423838_cont_9to1_m_604_3_alg».proof.Proof.Gen.KernelIdeal.Frame
import proofs.«177053_g78872779423838_cont_9to1_m_604_3_alg».proof.Proof.Spec
import proofs.«177053_g78872779423838_cont_9to1_m_604_3_alg».proof.Proof.Arr
import proofs.«177053_g78872779423838_cont_9to1_m_604_3_alg».proof.Proof.LibDot
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.KV

open Cert.KernelIdeal Cert.KernelIdeal.Gen Idealize.ShloMosaic Idealize.ShloMosaic.TcCoe Idealize.ShloMosaic.ValueIdx Cert.Arr

variable (V : (c : Dev nD) → (b : Ref sig .tc) → Buf (Elt Ideal) ((c : Thread nD τ).loc b))

namespace Prep4

/-- The offsets (0, 0) of an access to a whole block are the constant zero function. -/
theorem hz4 : (![0, 0] : Fin 2 → Nat) = fun _ => 0 := funext fun a => match a with | ⟨0, _⟩ => rfl | ⟨1, _⟩ => rfl

/-- The region's input array and its three weight matrices, as the region finds them. -/
abbrev h4arr (c : Dev nD) : S2048x512.Idx → EReal := V c main_v3
abbrev w4arr1 (c : Dev nD) : S512x512.Idx → EReal := V c main_arg8
abbrev w4arr2 (c : Dev nD) : S512x64.Idx → EReal := V c main_arg9
abbrev w4arr3 (c : Dev nD) : S512x64.Idx → EReal := V c main_arg10

/-- The product of a 2048 × 512 array with a 512 × 512 matrix, as an array: entry (i, j) is Σ_k h(i, k) · w(k, j). -/
def prod4w (h : S2048x512.Idx → EReal) (w : S512x512.Idx → EReal) : S2048x512.Idx → EReal :=
  fun i => ∑ k : Fin 512, h (ix2 (i 0) k) * w (ix2 k (i 1))

/-- The product of a 2048 × 512 array with a 512 × 64 matrix, as an array: entry (i, j) is Σ_k h(i, k) · w(k, j). -/
def prod4s (h : S2048x512.Idx → EReal) (w : S512x64.Idx → EReal) : S2048x64.Idx → EReal :=
  fun i => ∑ k : Fin 512, h (ix2 (i 0) k) * w (ix2 k (i 1))

/-! ## The body's arithmetic: one matrix product per output, of the (identically reshaped) input block -/

/-- The first product's payload at entry (p, q): Σ_k x0(p, k) · x1(k, q) over 512 terms, accumulated from zero. -/
theorem pay4_2_apply (x0 : Vec Ideal S256x512 .f32) (x1 : Vec Ideal S512x512 .f32) (p : Fin 256) (q : Fin 512) :
    k4_pay2 x0 x1 (ix2 p q) = ∑ k : Fin 512, x0 (ix2 p k) * x1 (ix2 k q) := by
  unfold k4_pay2 k4_pay1
  simp only [shapeCast_self]
  exact Cert.LibDot.matmul_zero_apply _ rfl rfl rfl rfl rfl rfl none x0 x1 p q

/-- The second product's payload at entry (p, q): the same sum, q over 64 columns. -/
theorem pay4_3_apply (x0 : Vec Ideal S256x512 .f32) (x1 : Vec Ideal S512x64 .f32) (p : Fin 256) (q : Fin 64) :
    k4_pay3 x0 x1 (ix2 p q) = ∑ k : Fin 512, x0 (ix2 p k) * x1 (ix2 k q) := by
  unfold k4_pay3 k4_pay1
  simp only [shapeCast_self]
  exact Cert.LibDot.matmul_zero_apply _ rfl rfl rfl rfl rfl rfl none x0 x1 p q

/-- The third product's payload at entry (p, q): the same sum. -/
theorem pay4_4_apply (x0 : Vec Ideal S256x512 .f32) (x1 : Vec Ideal S512x64 .f32) (p : Fin 256) (q : Fin 64) :
    k4_pay4 x0 x1 (ix2 p q) = ∑ k : Fin 512, x0 (ix2 p k) * x1 (ix2 k q) := by
  unfold k4_pay4 k4_pay1
  simp only [shapeCast_self]
  exact Cert.LibDot.matmul_zero_apply _ rfl rfl rfl rfl rfl rfl none x0 x1 p q

/-! ## Where the blocks sit -/

/-- The block indices over the eight points: the input and the three outputs are at row block t, column block 0; each
    weight matrix is a single block. -/
theorem idx_facts4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0
    ∧ win4_5.index t (0 : Fin 2) = t.val ∧ win4_5.index t (1 : Fin 2) = 0
    ∧ win4_6.index t (0 : Fin 2) = t.val ∧ win4_6.index t (1 : Fin 2) = 0 :=
  (by decide +kernel : ∀ t : Fin grid4.N, _)

/-- Row p of point t's block is row 256 t + p of the array. -/
def row4 (t : Fin cfg4.N) (p : Fin 256) : Fin 2048 :=
  ⟨t.val * 256 + p.val, by have := t.isLt; have : cfg4.N = 8 := rfl; have := p.isLt; omega⟩

/-- The input's block at point t: entry (p, k) is the array's entry (256 t + p, k). -/
theorem iblk4_0_apply (c : Dev nD) (t : Fin cfg4.N) (p : Fin 256) (k : Fin 512) :
    iblk4 V c 0 t (ix2 p k) = h4arr V c (ix2 (row4 t p) k) := by
  obtain ⟨e00, e01, -⟩ := idx_facts4 t
  show h4arr V c (((cfg4.win 0).blk t).view.emb (ix2 p k)) = _
  congr 1
  funext a; apply Fin.ext
  match a with
  | ⟨0, _⟩ => show win4_0.index t (0 : Fin 2) * 256 + 1 * p.val = t.val * 256 + p.val; omega
  | ⟨1, _⟩ => show win4_0.index t (1 : Fin 2) * 512 + 1 * k.val = k.val; omega

/-- The first weight's block at any point is the whole matrix. -/
theorem iblk4_1_apply (c : Dev nD) (t : Fin cfg4.N) (k q : Fin 512) :
    iblk4 V c 1 t (ix2 k q) = w4arr1 V c (ix2 k q) := by
  obtain ⟨-, -, e10, e11, -⟩ := idx_facts4 t
  show w4arr1 V c (((cfg4.win 1).blk t).view.emb (ix2 k q)) = _
  congr 1
  funext a; apply Fin.ext
  match a with
  | ⟨0, _⟩ => show win4_1.index t (0 : Fin 2) * 512 + 1 * k.val = k.val; omega
  | ⟨1, _⟩ => show win4_1.index t (1 : Fin 2) * 512 + 1 * q.val = q.val; omega

/-- The second weight's block at any point is the whole matrix. -/
theorem iblk4_2_apply (c : Dev nD) (t : Fin cfg4.N) (k : Fin 512) (q : Fin 64) :
    iblk4 V c 2 t (ix2 k q) = w4arr2 V c (ix2 k q) := by
  obtain ⟨-, -, -, -, e20, e21, -⟩ := idx_facts4 t
  show w4arr2 V c (((cfg4.win 2).blk t).view.emb (ix2 k q)) = _
  congr 1
  funext a; apply Fin.ext
  match a with
  | ⟨0, _⟩ => show win4_2.index t (0 : Fin 2) * 512 + 1 * k.val = k.val; omega
  | ⟨1, _⟩ => show win4_2.index t (1 : Fin 2) * 64 + 1 * q.val = q.val; omega

/-- The third weight's block at any point is the whole matrix. -/
theorem iblk4_3_apply (c : Dev nD) (t : Fin cfg4.N) (k : Fin 512) (q : Fin 64) :
    iblk4 V c 3 t (ix2 k q) = w4arr3 V c (ix2 k q) := by
  obtain ⟨-, -, -, -, -, -, e30, e31, -⟩ := idx_facts4 t
  show w4arr3 V c (((cfg4.win 3).blk t).view.emb (ix2 k q)) = _
  congr 1
  funext a; apply Fin.ext
  match a with
  | ⟨0, _⟩ => show win4_3.index t (0 : Fin 2) * 512 + 1 * k.val = k.val; omega
  | ⟨1, _⟩ => show win4_3.index t (1 : Fin 2) * 64 + 1 * q.val = q.val; omega

/-! ## Output 4: the product with the first weight matrix (512 columns) -/

/-- Entry (p, q) of output 4's block at point t sits at (256 t + p, q) of its array. -/
theorem emb4_4 (t : Fin cfg4.N) (p : Fin 256) (q : Fin 512) :
    ((cfg4.win 4).blk t).view.emb (ix2 p q) = (ix2 (row4 t p) q : S2048x512.Idx) := by
  obtain ⟨-, -, -, -, -, -, -, -, e40, e41, -⟩ := idx_facts4 t
  funext a; apply Fin.ext
  match a with
  | ⟨0, _⟩ => show win4_4.index t (0 : Fin 2) * 256 + 1 * p.val = t.val * 256 + p.val; omega
  | ⟨1, _⟩ => show win4_4.index t (1 : Fin 2) * 512 + 1 * q.val = q.val; omega

/-- What point t writes back to output 4 is block t of the product with the first weight matrix. -/
theorem flushed4_4_eq (c : Dev nD) (t : Fin cfg4.N) :
    (dat4 (F := Ideal) V c).flushed 4 t
      = ((cfg4.win 4).blk t).view.read (Elt Ideal) (prod4w (h4arr V c) (w4arr1 V c)) := by
  show (cfg4.win 4).cut (grid4.coords t) ((dat4 (F := Ideal) V c).after 4 t) = _
  rw [after4_4]
  unfold out4_4
  rw [View.canon_unit_zero hz4]
  simp only [View.ld_unit_zero (S := S256x512) hz4, View.ld_unit_zero (S := S512x512) hz4]
  funext y
  obtain ⟨p, q, rfl⟩ : ∃ (p : Fin 256) (q : Fin 512), y = ix2 p q := ⟨y 0, y 1, eq_ix2 y⟩
  show k4_pay2 (iblk4 V c 0 t) (iblk4 V c 1 t) (ix2 p q)
    = prod4w (h4arr V c) (w4arr1 V c) (((cfg4.win 4).blk t).view.emb (ix2 p q))
  rw [pay4_2_apply, emb4_4]
  unfold prod4w
  refine Finset.sum_congr rfl fun k _ => ?_
  rw [iblk4_0_apply, iblk4_1_apply]

/-- An index of output 4's array is in point t's block iff each coordinate is in the block's range on its axis. -/
theorem mem_blk4_4 (t : Fin cfg4.N) (i : S2048x512.Idx) :
    i ∈ ((cfg4.win 4).blk t).view.set ↔ ∀ a : Fin 2, win4_4.index t a * S256x512.size a ≤ (i a).val
      ∧ (i a).val < win4_4.index t a * S256x512.size a + S256x512.size a := by
  show i ∈ ((View.whole main_v4_0).slice (win4_4.rect t)).set ↔ _
  rw [View.set_slice_whole, Rect.mem_set_unit]
  exact Iff.rfl

/-- Row r of output 4's array is in the block of point r / 256: the eight blocks tile the rows. -/
theorem cover4_4_arr (i : S2048x512.Idx) :
    ∃ t : Fin cfg4.N, (cfg4.win 4).flush t = true ∧ i ∈ ((cfg4.win 4).blk t).view.set := by
  have hi0 : (i 0).val < 2048 := (i 0).isLt
  have hi1 : (i 1).val < 512 := (i 1).isLt
  have hN : cfg4.N = 8 := rfl
  obtain ⟨t, ht⟩ : ∃ t : Fin cfg4.N, t.val = (i 0).val / 256 := ⟨⟨(i 0).val / 256, by omega⟩, rfl⟩
  obtain ⟨-, -, -, -, -, -, -, -, e40, e41, -⟩ := idx_facts4 t
  refine ⟨t, flush4_4 t, ?_⟩
  rw [mem_blk4_4]
  intro a
  match a with
  | ⟨0, _⟩ => show win4_4.index t (0 : Fin 2) * 256 ≤ (i 0).val ∧ (i 0).val < win4_4.index t (0 : Fin 2) * 256 + 256; omega
  | ⟨1, _⟩ => show win4_4.index t (1 : Fin 2) * 512 ≤ (i 1).val ∧ (i 1).val < win4_4.index t (1 : Fin 2) * 512 + 512; omega

/-- Output 4's array after the run is the whole product. -/
theorem arr4_4_eq (c : Dev nD) : (dat4 (F := Ideal) V c).arrAt 4 cfg4.N = prod4w (h4arr V c) (w4arr1 V c) :=
  (dat4 (F := Ideal) V c).arrAt_eq_of_cover 4 _ (fun t _ => flushed4_4_eq V c t) cover4_4_arr

/-! ## Output 5: the product with the second weight matrix (64 columns) -/

/-- Entry (p, q) of output 5's block at point t sits at (256 t + p, q) of its array. -/
theorem emb4_5 (t : Fin cfg4.N) (p : Fin 256) (q : Fin 64) :
    ((cfg4.win 5).blk t).view.emb (ix2 p q) = (ix2 (row4 t p) q : S2048x64.Idx) := by
  obtain ⟨-, -, -, -, -, -, -, -, -, -, e50, e51, -⟩ := idx_facts4 t
  funext a; apply Fin.ext
  match a with
  | ⟨0, _⟩ => show win4_5.index t (0 : Fin 2) * 256 + 1 * p.val = t.val * 256 + p.val; omega
  | ⟨1, _⟩ => show win4_5.index t (1 : Fin 2) * 64 + 1 * q.val = q.val; omega

/-- What point t writes back to output 5 is block t of the product with the second weight matrix. -/
theorem flushed4_5_eq (c : Dev nD) (t : Fin cfg4.N) :
    (dat4 (F := Ideal) V c).flushed 5 t
      = ((cfg4.win 5).blk t).view.read (Elt Ideal) (prod4s (h4arr V c) (w4arr2 V c)) := by
  show (cfg4.win 5).cut (grid4.coords t) ((dat4 (F := Ideal) V c).after 5 t) = _
  rw [after4_5]
  unfold out4_5
  rw [View.canon_unit_zero hz4]
  simp only [View.ld_unit_zero (S := S256x512) hz4, View.ld_unit_zero (S := S512x64) hz4]
  funext y
  obtain ⟨p, q, rfl⟩ : ∃ (p : Fin 256) (q : Fin 64), y = ix2 p q := ⟨y 0, y 1, eq_ix2 y⟩
  show k4_pay3 (iblk4 V c 0 t) (iblk4 V c 2 t) (ix2 p q)
    = prod4s (h4arr V c) (w4arr2 V c) (((cfg4.win 5).blk t).view.emb (ix2 p q))
  rw [pay4_3_apply, emb4_5]
  unfold prod4s
  refine Finset.sum_congr rfl fun k _ => ?_
  rw [iblk4_0_apply, iblk4_2_apply]

/-- An index of output 5's array is in point t's block iff each coordinate is in the block's range on its axis. -/
theorem mem_blk4_5 (t : Fin cfg4.N) (i : S2048x64.Idx) :
    i ∈ ((cfg4.win 5).blk t).view.set ↔ ∀ a : Fin 2, win4_5.index t a * S256x64.size a ≤ (i a).val
      ∧ (i a).val < win4_5.index t a * S256x64.size a + S256x64.size a := by
  show i ∈ ((View.whole main_v4_1).slice (win4_5.rect t)).set ↔ _
  rw [View.set_slice_whole, Rect.mem_set_unit]
  exact Iff.rfl

/-- Row r of output 5's array is in the block of point r / 256. -/
theorem cover4_5_arr (i : S2048x64.Idx) :
    ∃ t : Fin cfg4.N, (cfg4.win 5).flush t = true ∧ i ∈ ((cfg4.win 5).blk t).view.set := by
  have hi0 : (i 0).val < 2048 := (i 0).isLt
  have hi1 : (i 1).val < 64 := (i 1).isLt
  have hN : cfg4.N = 8 := rfl
  obtain ⟨t, ht⟩ : ∃ t : Fin cfg4.N, t.val = (i 0).val / 256 := ⟨⟨(i 0).val / 256, by omega⟩, rfl⟩
  obtain ⟨-, -, -, -, -, -, -, -, -, -, e50, e51, -⟩ := idx_facts4 t
  refine ⟨t, flush4_5 t, ?_⟩
  rw [mem_blk4_5]
  intro a
  match a with
  | ⟨0, _⟩ => show win4_5.index t (0 : Fin 2) * 256 ≤ (i 0).val ∧ (i 0).val < win4_5.index t (0 : Fin 2) * 256 + 256; omega
  | ⟨1, _⟩ => show win4_5.index t (1 : Fin 2) * 64 ≤ (i 1).val ∧ (i 1).val < win4_5.index t (1 : Fin 2) * 64 + 64; omega

/-- Output 5's array after the run is the whole product. -/
theorem arr4_5_eq (c : Dev nD) : (dat4 (F := Ideal) V c).arrAt 5 cfg4.N = prod4s (h4arr V c) (w4arr2 V c) :=
  (dat4 (F := Ideal) V c).arrAt_eq_of_cover 5 _ (fun t _ => flushed4_5_eq V c t) cover4_5_arr

/-! ## Output 6: the product with the third weight matrix (64 columns) -/

/-- Entry (p, q) of output 6's block at point t sits at (256 t + p, q) of its array. -/
theorem emb4_6 (t : Fin cfg4.N) (p : Fin 256) (q : Fin 64) :
    ((cfg4.win 6).blk t).view.emb (ix2 p q) = (ix2 (row4 t p) q : S2048x64.Idx) := by
  obtain ⟨-, -, -, -, -, -, -, -, -, -, -, -, e60, e61⟩ := idx_facts4 t
  funext a; apply Fin.ext
  match a with
  | ⟨0, _⟩ => show win4_6.index t (0 : Fin 2) * 256 + 1 * p.val = t.val * 256 + p.val; omega
  | ⟨1, _⟩ => show win4_6.index t (1 : Fin 2) * 64 + 1 * q.val = q.val; omega

/-- What point t writes back to output 6 is block t of the product with the third weight matrix. -/
theorem flushed4_6_eq (c : Dev nD) (t : Fin cfg4.N) :
    (dat4 (F := Ideal) V c).flushed 6 t
      = ((cfg4.win 6).blk t).view.read (Elt Ideal) (prod4s (h4arr V c) (w4arr3 V c)) := by
  show (cfg4.win 6).cut (grid4.coords t) ((dat4 (F := Ideal) V c).after 6 t) = _
  rw [after4_6]
  unfold out4_6
  rw [View.canon_unit_zero hz4]
  simp only [View.ld_unit_zero (S := S256x512) hz4, View.ld_unit_zero (S := S512x64) hz4]
  funext y
  obtain ⟨p, q, rfl⟩ : ∃ (p : Fin 256) (q : Fin 64), y = ix2 p q := ⟨y 0, y 1, eq_ix2 y⟩
  show k4_pay4 (iblk4 V c 0 t) (iblk4 V c 3 t) (ix2 p q)
    = prod4s (h4arr V c) (w4arr3 V c) (((cfg4.win 6).blk t).view.emb (ix2 p q))
  rw [pay4_4_apply, emb4_6]
  unfold prod4s
  refine Finset.sum_congr rfl fun k _ => ?_
  rw [iblk4_0_apply, iblk4_3_apply]

/-- An index of output 6's array is in point t's block iff each coordinate is in the block's range on its axis. -/
theorem mem_blk4_6 (t : Fin cfg4.N) (i : S2048x64.Idx) :
    i ∈ ((cfg4.win 6).blk t).view.set ↔ ∀ a : Fin 2, win4_6.index t a * S256x64.size a ≤ (i a).val
      ∧ (i a).val < win4_6.index t a * S256x64.size a + S256x64.size a := by
  show i ∈ ((View.whole main_v4_2).slice (win4_6.rect t)).set ↔ _
  rw [View.set_slice_whole, Rect.mem_set_unit]
  exact Iff.rfl

/-- Row r of output 6's array is in the block of point r / 256. -/
theorem cover4_6_arr (i : S2048x64.Idx) :
    ∃ t : Fin cfg4.N, (cfg4.win 6).flush t = true ∧ i ∈ ((cfg4.win 6).blk t).view.set := by
  have hi0 : (i 0).val < 2048 := (i 0).isLt
  have hi1 : (i 1).val < 64 := (i 1).isLt
  have hN : cfg4.N = 8 := rfl
  obtain ⟨t, ht⟩ : ∃ t : Fin cfg4.N, t.val = (i 0).val / 256 := ⟨⟨(i 0).val / 256, by omega⟩, rfl⟩
  obtain ⟨-, -, -, -, -, -, -, -, -, -, -, -, e60, e61⟩ := idx_facts4 t
  refine ⟨t, flush4_6 t, ?_⟩
  rw [mem_blk4_6]
  intro a
  match a with
  | ⟨0, _⟩ => show win4_6.index t (0 : Fin 2) * 256 ≤ (i 0).val ∧ (i 0).val < win4_6.index t (0 : Fin 2) * 256 + 256; omega
  | ⟨1, _⟩ => show win4_6.index t (1 : Fin 2) * 64 ≤ (i 1).val ∧ (i 1).val < win4_6.index t (1 : Fin 2) * 64 + 64; omega

/-- Output 6's array after the run is the whole product. -/
theorem arr4_6_eq (c : Dev nD) : (dat4 (F := Ideal) V c).arrAt 6 cfg4.N = prod4s (h4arr V c) (w4arr3 V c) :=
  (dat4 (F := Ideal) V c).arrAt_eq_of_cover 6 _ (fun t _ => flushed4_6_eq V c t) cover4_6_arr

end Prep4

/-! ## The three products, entry by entry -/

/-- Output window 4's array after the run: Q (the input times the first weight matrix). -/
theorem final4_4 (c : Dev nD) :
    m2 2048 512 ((dat4 (F := Ideal) V c).arrAt 4 cfg4.N)
      = Cert.Spec.mm (m2 2048 512 (V c main_v3)) (m2 512 512 (V c main_arg8)) := by
  funext r q
  show (dat4 (F := Ideal) V c).arrAt 4 cfg4.N (ix2 r q) = _
  rw [Prep4.arr4_4_eq]
  rfl

/-- Output window 5's array after the run: V (the input times the second weight matrix). -/
theorem final4_5 (c : Dev nD) :
    m2 2048 64 ((dat4 (F := Ideal) V c).arrAt 5 cfg4.N)
      = Cert.Spec.mm (m2 2048 512 (V c main_v3)) (m2 512 64 (V c main_arg9)) := by
  funext r q
  show (dat4 (F := Ideal) V c).arrAt 5 cfg4.N (ix2 r q) = _
  rw [Prep4.arr4_5_eq]
  rfl

/-- Output window 6's array after the run: U (the input times the third weight matrix). -/
theorem final4_6 (c : Dev nD) :
    m2 2048 64 ((dat4 (F := Ideal) V c).arrAt 6 cfg4.N)
      = Cert.Spec.mm (m2 2048 512 (V c main_v3)) (m2 512 64 (V c main_arg10)) := by
  funext r q
  show (dat4 (F := Ideal) V c).arrAt 6 cfg4.N (ix2 r q) = _
  rw [Prep4.arr4_6_eq]
  rfl

end Cert.KernelIdeal.KV

end
-- ==== Proof.LibDotNT.lean ====
/-
  A matrix product of two row-major operands contracted along their LAST axes, read at an entry.

  For dimension numbers that contract axis 1 of an `M × K` left operand with axis 1 of an `N × K` right operand
  (`l · rᵀ`, what `dot_general(a, b, (((1,), (1,)), ((), ())))` prints) and have no batch axes, the contraction index is one
  coordinate `k : Fin K`, the left operand is read at `(a, k)` and the right operand at `(b, k)`: the sum over the
  contraction index is `∑ k : Fin K`. At the ideal instance this reads a kernel's matrix product into a zero
  accumulator, and a host program's `dot_general`, at entry `(a, b)`.
-/
import Idealize.ShloMosaic.PureOps.Ideal
import Idealize.ShloMosaic.PureOps.Ideal.Laws
import Idealize.ShloMosaic.Lib.ValueIdx

noncomputable section

open scoped BigOperators

namespace Cert.LibDotNT

open Idealize.ShloMosaic Idealize.ShloMosaic.ValueIdx

/-- The sum over the contraction index of an `M × K` by `N × K` product contracted along both last axes, as a sum over
    `Fin K`. -/
theorem nt_sum {M K N : Nat} (d : DotDims ⟨2, ![M, K]⟩ ⟨2, ![N, K]⟩ ⟨2, ![M, N]⟩)
    (h1 : d.lhsContracting = [1]) (h2 : d.rhsContracting = [1]) (h3 : d.lhsNonContracting = [0])
    (h4 : d.rhsNonContracting = [0]) (h5 : d.lhsBatch = []) (h6 : d.rhsBatch = [])
    {α : Type} [AddCommMonoid α] (f : (⟨2, ![M, K]⟩ : Shape).Idx → (⟨2, ![N, K]⟩ : Shape).Idx → α) (a : Fin M) (b : Fin N) :
    ∑ k : d.contr.Idx, f (d.lhsIdx (ix2 a b) k) (d.rhsIdx (ix2 a b) k) = ∑ k : Fin K, f (ix2 a k) (ix2 b k) := by
  obtain ⟨lc, rc, ln, rn, lb, rb, wf⟩ := d
  dsimp only at h1 h2 h3 h4 h5 h6
  subst h1 h2 h3 h4 h5 h6
  have hr : (DotDims.mk [1] [1] [0] [0] [] [] wf : DotDims ⟨2, ![M, K]⟩ ⟨2, ![N, K]⟩ ⟨2, ![M, N]⟩).contr.rank = 1 := rfl
  have hs : (DotDims.mk [1] [1] [0] [0] [] [] wf : DotDims ⟨2, ![M, K]⟩ ⟨2, ![N, K]⟩ ⟨2, ![M, N]⟩).contr.size ⟨0, by omega⟩ = K := rfl
  rw [← Equiv.sum_comp (contrEquiv1 _ K hr hs).symm]
  refine Finset.sum_congr rfl fun k _ => ?_
  congr 1
  · funext c
    match c with
    | ⟨0, _⟩ => exact Fin.ext rfl
    | ⟨1, _⟩ => exact Fin.ext rfl
  · funext c
    match c with
    | ⟨0, _⟩ => exact Fin.ext rfl
    | ⟨1, _⟩ => exact Fin.ext rfl

/-- A kernel's matrix product `l · rᵀ` into the zero accumulator, at the ideal instance, at entry `(a, b)`. -/
theorem matmul_zero_apply {M K N : Nat} (d : DotDims ⟨2, ![M, K]⟩ ⟨2, ![N, K]⟩ ⟨2, ![M, N]⟩)
    (h1 : d.lhsContracting = [1]) (h2 : d.rhsContracting = [1]) (h3 : d.lhsNonContracting = [0])
    (h4 : d.rhsNonContracting = [0]) (h5 : d.lhsBatch = []) (h6 : d.rhsBatch = []) {φ₁ φ₂ : FTy}
    (prec : Option ContractPrecision) (l : FVec Ideal ⟨2, ![M, K]⟩ φ₁) (r : FVec Ideal ⟨2, ![N, K]⟩ φ₂) (a : Fin M) (b : Fin N) :
    matmul d prec l r (constant ⟨2, ![M, N]⟩ .f32 0x00000000#32) (ix2 a b) = ∑ k : Fin K, l (ix2 a k) * r (ix2 b k) := by
  show FloatOps.matmul d prec l r (constant ⟨2, ![M, N]⟩ .f32 0x00000000#32) (ix2 a b) = _
  rw [Ideal.matmul_constant_zero_apply]
  exact nt_sum d h1 h2 h3 h4 h5 h6 (fun i j => l i * r j) a b

/-- A host program's `dot_general` of the same dimension numbers, at the ideal instance, at entry `(a, b)`. -/
theorem dotGeneral_apply {M K N : Nat} (d : DotDims ⟨2, ![M, K]⟩ ⟨2, ![N, K]⟩ ⟨2, ![M, N]⟩)
    (h1 : d.lhsContracting = [1]) (h2 : d.rhsContracting = [1]) (h3 : d.lhsNonContracting = [0])
    (h4 : d.rhsNonContracting = [0]) (h5 : d.lhsBatch = []) (h6 : d.rhsBatch = []) {φ₁ φ₂ : FTy}
    (prec : Option ContractPrecision) (l : FVec Ideal ⟨2, ![M, K]⟩ φ₁) (r : FVec Ideal ⟨2, ![N, K]⟩ φ₂) (a : Fin M) (b : Fin N) :
    Host.dotGeneral d prec l r (ix2 a b) = ∑ k : Fin K, l (ix2 a k) * r (ix2 b k) := by
  show FloatOps.dotGeneral d prec .single l r (ix2 a b) = _
  rw [Ideal.dotGeneral_apply]
  exact nt_sum d h1 h2 h3 h4 h5 h6 (fun i j => l i * r j) a b

end Cert.LibDotNT

end
-- ==== Proof.LibKeepdims.lean ====
/-
  Reductions that keep their axis, read at an index given by coordinates.

  A sum over one axis of a matrix that keeps the axis (`jnp.sum(…, keepdims=True)`) is a lane sum to a vector, a shape
  cast of the vector to a column `[a] → [a, 1]` or to a row `[a] → [1, a]`, and a broadcast of the column
  `[a, 1] → [a, b]` or of the row back over the matrix. Here: the column cast and the column broadcast at `(i, j)`, and
  an f32 lane sum over the columns (axis 1) or over the rows (axis 0) of a matrix at the extended reals as a
  `Fin`-indexed sum of the matrix entries.
-/
import Idealize.ShloMosaic.Lib.ValueLayout
import Idealize.ShloMosaic.PureOps.Ideal.Laws

namespace Idealize.ShloMosaic.ValueIdx

open Idealize.ShloMosaic

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An f32 lane sum over the COLUMNS of an `[a, b]` matrix of extended reals is, in row `r`, the sum of that row. -/
theorem multiReduction_add_cols_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (r : Fin a) :
    multiReduction .add [1] ⟨1, ![a]⟩ src 0x00000000#32 h hφ hacc (ix1 r) = ∑ c : Fin b, src (ix2 r c) :=
  (Ideal.multiReduction_add_single src 0x00000000#32 h hφ hacc (ix1 r)).trans
    (Finset.sum_congr rfl fun c _ => congrArg src (funext fun ax => Fin.ext (by
      match ax with
      | ⟨0, _⟩ => rfl
      | ⟨1, _⟩ => rfl)))

/-- An f32 lane sum over the ROWS of an `[a, b]` matrix of extended reals is, in column `j`, the sum of that column. -/
theorem multiReduction_add_rows_apply {a b : ℕ} (src : FVec Ideal ⟨2, ![a, b]⟩ .f32)
    (h : (⟨2, ![a, b]⟩ : Shape).Reduces [0] ⟨1, ![b]⟩) (hφ : FKind.Formats .f32)
    (hacc : (0x00000000#32 : BitVec 32) = FKind.add.neutral .f32 hφ) (j : Fin b) :
    multiReduction .add [0] ⟨1, ![b]⟩ src 0x00000000#32 h hφ hacc (ix1 j) = ∑ c : Fin a, src (ix2 c j) :=
  (Ideal.multiReduction_add_single src 0x00000000#32 h hφ hacc (ix1 j)).trans
    (Finset.sum_congr rfl fun c _ => congrArg src (funext fun ax => Fin.ext (by
      match ax with
      | ⟨0, _⟩ => rfl
      | ⟨1, _⟩ => rfl)))

end Idealize.ShloMosaic.ValueIdx
-- ==== Proof.LibMaxReduce.lean ====
/-
  A float maximum-reduction over the columns of a matrix, read at the extended reals at a row given by its coordinate:
  the fold of `max` from the accumulator's value over the row's entries. For a kernel's lane reduction
  (`vector.multi_reduction <maximumf>` over axis 1) and for the host's `reduce` with a maximum body over axis 1.
-/
import Idealize.ShloMosaic.Lib.ValueIdx
import Idealize.ShloMosaic.PureOps.Ideal.Laws

namespace Idealize.ShloMosaic.ValueIdx

open Idealize.ShloMosaic

/-- A kernel's maximum over the COLUMNS of an `[a, b]` matrix: in row `r`, the maximum of that row from the accumulator. -/
theorem multiReduction_max_cols_apply {a b : ℕ} (src : FVec Ideal ⟨2, ![a, b]⟩ .f32) (acc : BitVec 32)
    (h : (⟨2, ![a, b]⟩ : Shape).Reduces [1] ⟨1, ![a]⟩) (hφ : FKind.Formats .f32)
    (hacc : acc = FKind.maximumf.neutral .f32 hφ) (r : Fin a) :
    multiReduction .maximumf [1] ⟨1, ![a]⟩ src acc h hφ hacc (ix1 r)
      = (Finset.univ : Finset (Fin b)).fold max (Ideal.ofBits .f32 acc) fun c => src (ix2 r c) :=
  (Ideal.multiReduction_maximumf_single src acc h hφ hacc (ix1 r)).trans
    (Finset.fold_congr fun c _ => congrArg src (funext fun ax => Fin.ext (by
      match ax with
      | ⟨0, _⟩ => rfl
      | ⟨1, _⟩ => rfl)))

/-- The host's `reduce` with a maximum body over the COLUMNS of an `[a, b]` matrix: in row `i`, the maximum of that row
    from the initial value. -/
theorem hostReduce_max_cols_apply {a b : ℕ} {u : Shape} (x : FVec Ideal ⟨2, ![a, b]⟩ .f32) (init : u.Idx → Ideal .f32)
    (h' : (⟨2, ![a, b]⟩ : Shape).ReducesTo [1] ⟨1, ![a]⟩) (h : (⟨2, ![a, b]⟩ : Shape).Reduces [1] ⟨1, ![a]⟩)
    (hu : 0 < u.numel) (i : Fin a) :
    Host.reduce FloatOps.maximumf x init h' hu (ix1 i)
      = (Finset.univ : Finset (Fin b)).fold max (init (Shape.Idx.first hu)) fun k => x (ix2 i k) :=
  (Host.reduce_eq_fold_single FloatOps.maximumf x init h' h hu (ix1 i)).trans
    (Finset.fold_congr fun k _ => congrArg x (funext fun ax => Fin.ext (by
      match ax with
      | ⟨0, _⟩ => rfl
      | ⟨1, _⟩ => rfl)))

end Idealize.ShloMosaic.ValueIdx
-- ==== Proof.KMain1.lean ====
/-
  Region 1 of the run: the first layer's fused body, 256 input channels to 256 output channels, with the leaky rectifier.

  The region reads five arrays — Q (2048 × 256), the node features h (2048 × 256), V and U (2048 × 256 each) and the
  adjacency (2048 × 2048) — and writes one, 2048 × 256. Its grid has eight points; point t works on rows
  256·t … 256·t + 255. For one such row r, with q = Q's row r and a = the adjacency's row r:
    * the logits  l_j = Σ_k q_k · h_{j,k}  against every node j,
    * their maximum m from minus infinity, the weights e_j = exp (l_j - m) and the normaliser Σ_j e_j,
    * the attention term (Σ_j e_j · V_{j,c}) / Σ_j e_j  and the local term Σ_j a_j · U_{j,c},
    * the leaky rectifier on each term, and their sum.
  That is `Cert.Spec.rowK true q a h V U`. The statement proved here: after the region has run, the output array holds
  this row function in every row.

  The proof has two halves. First the body's value on a block, entry by entry: the block is cut into its named pieces
  (logits, weights, attention term, local term, rectifier) and each piece is read at an entry by the law of its
  operation — a matrix product into a zero accumulator is a finite sum of products, a lane reduction is a fold over
  the row, a kept-axis broadcast reads its column entry, and the elementwise operations act entry by entry. Then from
  blocks to the array: what point t writes back is block t of one whole-array function, because block row p of point t
  is array row 256·t + p in the three row-blocked windows and the other three windows are read whole; the eight blocks
  tile the rows, so the array ends as that function.
-/
import proofs.«177053_g78872779423838_cont_9to1_m_604_3_alg».proof.Proof.Gen.KernelIdeal.Frame
import proofs.«177053_g78872779423838_cont_9to1_m_604_3_alg».proof.Proof.Spec
import proofs.«177053_g78872779423838_cont_9to1_m_604_3_alg».proof.Proof.Arr
import proofs.«177053_g78872779423838_cont_9to1_m_604_3_alg».proof.Proof.LibDot
import proofs.«177053_g78872779423838_cont_9to1_m_604_3_alg».proof.Proof.LibDotNT
import proofs.«177053_g78872779423838_cont_9to1_m_604_3_alg».proof.Proof.LibKeepdims
import proofs.«177053_g78872779423838_cont_9to1_m_604_3_alg».proof.Proof.LibMaxReduce
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.KV

open Cert.KernelIdeal Cert.KernelIdeal.Gen Idealize.ShloMosaic Idealize.ShloMosaic.TcCoe Idealize.ShloMosaic.ValueIdx Cert.Arr

variable (V : (c : Dev nD) → (b : Ref sig .tc) → Buf (Elt Ideal) ((c : Thread nD τ).loc b))

/-! ## The block's arithmetic, entry by entry -/

/-- The logits of a block of 256 query rows against all 2048 nodes: the query block times the transposed features. -/
def lgt1 (x0 : Vec Ideal S256x256 .f32) (x1 : Vec Ideal S2048x256 .f32) : FVec Ideal S256x2048 .f32 :=
  matmul (φ₁ := .f32) (φ₂ := .f32) dot_S256x256_S2048x256_S256x2048_1_1_0_0_n_n none (shapeCast S256x256 x0 shapeCasts_S256x256_S256x256 : FVec Ideal S256x256 .f32) (x1 : FVec Ideal S2048x256 .f32)
    (constant S256x2048 .f32 0x00000000#32)

/-- The unnormalised softmax weights of the block: the exponential of each logit less its row's maximum. -/
def wgt1 (x0 : Vec Ideal S256x256 .f32) (x1 : Vec Ideal S2048x256 .f32) : FVec Ideal S256x2048 .f32 :=
  exp (subf (lgt1 x0 x1) (broadcastTo S256x2048 (shapeCast S256x1
    (multiReduction .maximumf [1] S256 (lgt1 x0 x1) 0xFF800000#32 reduces_S256x2048_S256 (.inl rfl) rfl)
    shapeCasts_S256_S256x1) broadcasts_S256x1_S256x2048))

/-- The attention term of the block: the weights applied to the values, divided by each row's sum of weights. -/
def att1 (x0 : Vec Ideal S256x256 .f32) (x1 x2 : Vec Ideal S2048x256 .f32) : FVec Ideal S256x256 .f32 :=
  divf (matmul (φ₁ := .f32) (φ₂ := .f32) dot_S256x2048_S2048x256_S256x256_1_0_0_1_n_n none (wgt1 x0 x1)
      (shapeCast S2048x256 x2 shapeCasts_S2048x256_S2048x256 : FVec Ideal S2048x256 .f32) (constant S256x256 .f32 0x00000000#32))
    (broadcastTo S256x256 (shapeCast S256x1
      (multiReduction .add [1] S256 (wgt1 x0 x1) 0x00000000#32 reduces_S256x2048_S256 (.inl rfl) rfl)
      shapeCasts_S256_S256x1) broadcasts_S256x1_S256x256)

/-- The local term of the block: the adjacency rows applied to U. -/
def loc1 (x4 : Vec Ideal S256x2048 .f32) (x3 : Vec Ideal S2048x256 .f32) : FVec Ideal S256x256 .f32 :=
  matmul (φ₁ := .f32) (φ₂ := .f32) dot_S256x2048_S2048x256_S256x256_1_0_0_1_n_n none (x4 : FVec Ideal S256x2048 .f32)
    (shapeCast S2048x256 x3 shapeCasts_S2048x256_S2048x256 : FVec Ideal S2048x256 .f32) (constant S256x256 .f32 0x00000000#32)

/-- The leaky rectifier on a block: compare with zero, scale by the slope, choose. -/
def lk1 (v : FVec Ideal S256x256 .f32) : FVec Ideal S256x256 .f32 :=
  select (cmpf .oge v (broadcast S256x256 (Scalar.ofBits .f32 0x00000000#32))) v
    (mulf (broadcast S256x256 (Scalar.ofBits .f32 0x3C23D70A#32)) v)

/-- The body's value is the sum of the two rectified terms. -/
theorem pay1_eq (x0 : Vec Ideal S256x256 .f32) (x1 x2 x3 : Vec Ideal S2048x256 .f32) (x4 : Vec Ideal S256x2048 .f32) :
    k1_pay1 (F := Ideal) x0 x1 x2 x4 x3 = addf (lk1 (att1 x0 x1 x2)) (lk1 (loc1 x4 x3)) := rfl

/-- A logit is the inner product of a query row with a node's features. -/
theorem lgt1_apply (x0 : Vec Ideal S256x256 .f32) (x1 : Vec Ideal S2048x256 .f32) (p : Fin 256) (j : Fin 2048) :
    lgt1 x0 x1 (ix2 p j) = Cert.Spec.lrow (fun k => x0 (ix2 p k)) (m2 2048 256 x1) j := by
  unfold lgt1
  rw [shapeCast_self]
  exact Cert.LibDotNT.matmul_zero_apply _ rfl rfl rfl rfl rfl rfl none x0 x1 p j

/-- A weight is the exponential of its logit less the row's maximum from minus infinity. -/
theorem wgt1_apply (x0 : Vec Ideal S256x256 .f32) (x1 : Vec Ideal S2048x256 .f32) (p : Fin 256) (j : Fin 2048) :
    wgt1 x0 x1 (ix2 p j) = Cert.Spec.erow (Cert.Spec.lrow (fun k => x0 (ix2 p k)) (m2 2048 256 x1)) j := by
  unfold wgt1
  show Ideal.exp (lgt1 x0 x1 (ix2 p j) - _) = _
  rw [broadcastTo_a1_ab_apply, shapeCast_a_a1_apply]
  erw [multiReduction_max_cols_apply]
  simp only [lgt1_apply]
  rfl

/-- The attention term at an entry. -/
theorem att1_apply (x0 : Vec Ideal S256x256 .f32) (x1 x2 : Vec Ideal S2048x256 .f32) (p q : Fin 256) :
    att1 x0 x1 x2 (ix2 p q)
      = Cert.Spec.attK (fun k => x0 (ix2 p k)) (m2 2048 256 x1) (m2 2048 256 x2) q := by
  unfold att1
  rw [divf_apply, shapeCast_self, Cert.LibDot.matmul_zero_apply _ rfl rfl rfl rfl rfl rfl, broadcastTo_a1_ab_apply,
    shapeCast_a_a1_apply]
  erw [multiReduction_add_cols_apply]
  simp only [wgt1_apply]
  rfl

/-- The local term at an entry. -/
theorem loc1_apply (x4 : Vec Ideal S256x2048 .f32) (x3 : Vec Ideal S2048x256 .f32) (p q : Fin 256) :
    loc1 x4 x3 (ix2 p q) = Cert.Spec.locr (fun j => x4 (ix2 p j)) (m2 2048 256 x3) q := by
  unfold loc1
  rw [shapeCast_self]
  exact Cert.LibDot.matmul_zero_apply _ rfl rfl rfl rfl rfl rfl none x4 x3 p q

/-- The rectifier acts entry by entry. -/
theorem lk1_apply (v : FVec Ideal S256x256 .f32) (i : S256x256.Idx) : lk1 v i = Cert.Spec.leaky (v i) := rfl

/-- THE BLOCK: entry (p, q) of the body's value is the layer's row function of block row p. -/
theorem pay1_apply (x0 : Vec Ideal S256x256 .f32) (x1 x2 x3 : Vec Ideal S2048x256 .f32) (x4 : Vec Ideal S256x2048 .f32)
    (p q : Fin 256) :
    k1_pay1 (F := Ideal) x0 x1 x2 x4 x3 (ix2 p q)
      = Cert.Spec.rowK true (fun k => x0 (ix2 p k)) (fun j => x4 (ix2 p j)) (m2 2048 256 x1) (m2 2048 256 x2)
          (m2 2048 256 x3) q := by
  rw [pay1_eq, addf_apply, lk1_apply, lk1_apply, att1_apply, loc1_apply]
  rfl

/-! ## From the blocks to the whole array -/

/-- The offsets of an access to a whole block, as the constant function. -/
theorem hz1 : (![0, 0] : Fin 2 → Nat) = fun _ => 0 := funext fun a => match a with | ⟨0, _⟩ => rfl | ⟨1, _⟩ => rfl

/-- The five input arrays as the region finds them: Q, h, V, U and the adjacency. -/
abbrev qarr1 (c : Dev nD) : S2048x256.Idx → EReal := V c main_v0_0
abbrev harr1 (c : Dev nD) : S2048x256.Idx → EReal := V c main_arg0
abbrev varr1 (c : Dev nD) : S2048x256.Idx → EReal := V c main_v0_1
abbrev uarr1 (c : Dev nD) : S2048x256.Idx → EReal := V c main_v0_2
abbrev aarr1 (c : Dev nD) : S2048x2048.Idx → EReal := V c main_arg1

/-- The output array as one function of the input arrays: entry (r, q) is the layer's row function of row r of Q and of
    the adjacency, and of all of h, V and U. -/
def G1 (c : Dev nD) : S2048x256.Idx → EReal := fun i =>
  Cert.Spec.rowK true (m2 2048 256 (qarr1 V c) (i 0)) (m2 2048 2048 (aarr1 V c) (i 0)) (m2 2048 256 (harr1 V c))
    (m2 2048 256 (varr1 V c)) (m2 2048 256 (uarr1 V c)) (i 1)

/-- The block indices over the eight points: Q, the adjacency and the output move down one block of rows per point; h, V
    and U stay whole. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

/-- Every block of rows is some point's. -/
theorem idx_onto1 : ∀ b : Fin 8, ∃ t : Fin cfg1.N, win1_5.index t = ![b.val, 0] :=
  (by decide +kernel : ∀ b : Fin 8, ∃ t : Fin grid1.N, win1_5.index t = ![b.val, 0])

/-- What point t writes back is block t of G1: block row p of the point is array row 256·t + p, where Q's and the
    adjacency's blocks are read, and h, V, U are read whole. -/
theorem flushed1_eq (c : Dev nD) (t : Fin cfg1.N) :
    (dat1 (F := Ideal) V c).flushed 5 t = ((cfg1.win 5).blk t).view.read (Elt Ideal) (G1 V c) := by
  show (cfg1.win 5).cut (grid1.coords t) ((dat1 (F := Ideal) V c).after 5 t) = _
  rw [after1_5]
  unfold out1_5
  rw [View.canon_unit_zero hz1]
  simp only [View.ld_unit_zero (S := S256x256) hz1, View.ld_unit_zero (S := S2048x256) hz1,
    View.ld_unit_zero (S := S256x2048) hz1]
  funext y
  obtain ⟨p, q, rfl⟩ : ∃ (p : Fin 256) (q : Fin 256), y = ix2 p q := ⟨y 0, y 1, eq_ix2 y⟩
  show k1_pay1 (F := Ideal) (iblk1 V c 0 t) (iblk1 V c 1 t) (iblk1 V c 2 t) (iblk1 V c 4 t) (iblk1 V c 3 t) (ix2 p q)
    = G1 V c (((cfg1.win 5).blk t).view.emb (ix2 p q))
  rw [pay1_apply]
  obtain ⟨e00, e01, e10, e11, e20, e21, e30, e31, e40, e41, e50, e51⟩ := idx_facts1 t
  unfold G1
  have hq : (((cfg1.win 5).blk t).view.emb (ix2 p q)) 1 = q :=
    Fin.ext (by show win1_5.index t (1 : Fin 2) * 256 + 1 * q.val = q.val; omega)
  have h0 : (fun k => iblk1 V c 0 t (ix2 p k))
      = m2 2048 256 (qarr1 V c) ((((cfg1.win 5).blk t).view.emb (ix2 p q)) 0) := by
    funext k
    show qarr1 V c (((cfg1.win 0).blk t).view.emb (ix2 p k))
      = qarr1 V c (ix2 ((((cfg1.win 5).blk t).view.emb (ix2 p q)) 0) k)
    congr 1
    funext a; apply Fin.ext
    match a with
    | ⟨0, _⟩ => show win1_0.index t (0 : Fin 2) * 256 + 1 * p.val = win1_5.index t (0 : Fin 2) * 256 + 1 * p.val; omega
    | ⟨1, _⟩ => show win1_0.index t (1 : Fin 2) * 256 + 1 * k.val = k.val; omega
  have h4 : (fun j => iblk1 V c 4 t (ix2 p j))
      = m2 2048 2048 (aarr1 V c) ((((cfg1.win 5).blk t).view.emb (ix2 p q)) 0) := by
    funext j
    show aarr1 V c (((cfg1.win 4).blk t).view.emb (ix2 p j))
      = aarr1 V c (ix2 ((((cfg1.win 5).blk t).view.emb (ix2 p q)) 0) j)
    congr 1
    funext a; apply Fin.ext
    match a with
    | ⟨0, _⟩ => show win1_4.index t (0 : Fin 2) * 256 + 1 * p.val = win1_5.index t (0 : Fin 2) * 256 + 1 * p.val; omega
    | ⟨1, _⟩ => show win1_4.index t (1 : Fin 2) * 2048 + 1 * j.val = j.val; omega
  have h1 : m2 2048 256 (iblk1 V c 1 t) = m2 2048 256 (harr1 V c) := by
    funext j k
    show harr1 V c (((cfg1.win 1).blk t).view.emb (ix2 j k)) = harr1 V c (ix2 j k)
    congr 1
    funext a; apply Fin.ext
    match a with
    | ⟨0, _⟩ => show win1_1.index t (0 : Fin 2) * 2048 + 1 * j.val = j.val; omega
    | ⟨1, _⟩ => show win1_1.index t (1 : Fin 2) * 256 + 1 * k.val = k.val; omega
  have h2 : m2 2048 256 (iblk1 V c 2 t) = m2 2048 256 (varr1 V c) := by
    funext j k
    show varr1 V c (((cfg1.win 2).blk t).view.emb (ix2 j k)) = varr1 V c (ix2 j k)
    congr 1
    funext a; apply Fin.ext
    match a with
    | ⟨0, _⟩ => show win1_2.index t (0 : Fin 2) * 2048 + 1 * j.val = j.val; omega
    | ⟨1, _⟩ => show win1_2.index t (1 : Fin 2) * 256 + 1 * k.val = k.val; omega
  have h3 : m2 2048 256 (iblk1 V c 3 t) = m2 2048 256 (uarr1 V c) := by
    funext j k
    show uarr1 V c (((cfg1.win 3).blk t).view.emb (ix2 j k)) = uarr1 V c (ix2 j k)
    congr 1
    funext a; apply Fin.ext
    match a with
    | ⟨0, _⟩ => show win1_3.index t (0 : Fin 2) * 2048 + 1 * j.val = j.val; omega
    | ⟨1, _⟩ => show win1_3.index t (1 : Fin 2) * 256 + 1 * k.val = k.val; omega
  rw [h0, h4, h1, h2, h3, hq]

/-- An index of the array is in point t's block iff each coordinate is in the block's range on its axis. -/
theorem mem_blk1 (t : Fin cfg1.N) (i : S2048x256.Idx) :
    i ∈ ((cfg1.win 5).blk t).view.set ↔ ∀ a : Fin 2, win1_5.index t a * S256x256.size a ≤ (i a).val
      ∧ (i a).val < win1_5.index t a * S256x256.size a + S256x256.size a := by
  show i ∈ ((View.whole main_v1).slice (win1_5.rect t)).set ↔ _
  rw [View.set_slice_whole, Rect.mem_set_unit]
  exact Iff.rfl

/-- The eight blocks of 256 rows tile the 2048 rows: row r lies in the block of point r / 256. -/
theorem cover1 (i : S2048x256.Idx) :
    ∃ t : Fin cfg1.N, (cfg1.win 5).flush t = true ∧ i ∈ ((cfg1.win 5).blk t).view.set := by
  have hi0 : (i 0).val < 2048 := (i 0).isLt
  have hi1 : (i 1).val < 256 := (i 1).isLt
  obtain ⟨t, ht⟩ := idx_onto1 ⟨(i 0).val / 256, by omega⟩
  have q0 : win1_5.index t (0 : Fin 2) = (i 0).val / 256 := congrFun ht 0
  have q1 : win1_5.index t (1 : Fin 2) = 0 := congrFun ht 1
  refine ⟨t, flush1_5 t, ?_⟩
  rw [mem_blk1]
  intro a
  match a with
  | ⟨0, _⟩ =>
    show win1_5.index t (0 : Fin 2) * 256 ≤ (i 0).val ∧ (i 0).val < win1_5.index t (0 : Fin 2) * 256 + 256
    omega
  | ⟨1, _⟩ =>
    show win1_5.index t (1 : Fin 2) * 256 ≤ (i 1).val ∧ (i 1).val < win1_5.index t (1 : Fin 2) * 256 + 256
    omega

/-- The output array after the run is G1 of the input arrays. -/
theorem arr1_eq (c : Dev nD) : (dat1 (F := Ideal) V c).arrAt 5 cfg1.N = G1 V c :=
  (dat1 (F := Ideal) V c).arrAt_eq_of_cover 5 (G1 V c) (fun t _ => flushed1_eq V c t) cover1

/-- The output array after the run, row by row. -/
theorem final1_5 (c : Dev nD) :
    m2 2048 256 ((dat1 (F := Ideal) V c).arrAt 5 cfg1.N)
      = fun r q => Cert.Spec.rowK true (m2 2048 256 (V c main_v0_0) r) (m2 2048 2048 (V c main_arg1) r)
          (m2 2048 256 (V c main_arg0)) (m2 2048 256 (V c main_v0_1)) (m2 2048 256 (V c main_v0_2)) q := by
  rw [arr1_eq]
  rfl

end Cert.KernelIdeal.KV

end
-- ==== Proof.KMain3.lean ====
/-
  Region 3 of the run: the second layer's fused body, 256 input channels to 512 output channels, with the leaky
  rectifier.

  The region reads Q (2048 × 256), the node features h (2048 × 256, the first layer's output), V and U (2048 × 512 each)
  and the adjacency (2048 × 2048), and writes one array, 2048 × 512. Its grid has eight points; point t works on rows
  256·t … 256·t + 255. For a row r, with q = Q's row r and a = the adjacency's row r, the body computes the logits
  l_j = Σ_k q_k · h_{j,k}, their maximum from minus infinity, the weights e_j = exp (l_j - max), the attention term
  (Σ_j e_j · V_{j,c}) / Σ_j e_j, the local term Σ_j a_j · U_{j,c}, the leaky rectifier on each, and their sum:
  `Cert.Spec.rowK true q a h V U`. The statement: after the region has run, every row of the output array is this.

  As for the first layer, in two halves. The body's value on a block is cut into logits, weights, attention term, local
  term and rectifier, each read at an entry by the law of its operation (a product into a zero accumulator is a finite
  sum, a lane reduction a fold over the row, a kept-axis broadcast reads its column entry, a same-shape cast changes
  nothing); here the node features too pass through a same-shape cast before the product. Then what point t writes back
  is block t of one whole-array function — block row p is array row 256·t + p in the row-blocked windows, the other
  windows are read whole — and the eight blocks tile the rows.
-/
import proofs.«177053_g78872779423838_cont_9to1_m_604_3_alg».proof.Proof.Gen.KernelIdeal.Frame
import proofs.«177053_g78872779423838_cont_9to1_m_604_3_alg».proof.Proof.Spec
import proofs.«177053_g78872779423838_cont_9to1_m_604_3_alg».proof.Proof.Arr
import proofs.«177053_g78872779423838_cont_9to1_m_604_3_alg».proof.Proof.LibDot
import proofs.«177053_g78872779423838_cont_9to1_m_604_3_alg».proof.Proof.LibDotNT
import proofs.«177053_g78872779423838_cont_9to1_m_604_3_alg».proof.Proof.LibKeepdims
import proofs.«177053_g78872779423838_cont_9to1_m_604_3_alg».proof.Proof.LibMaxReduce
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.KV

open Cert.KernelIdeal Cert.KernelIdeal.Gen Idealize.ShloMosaic Idealize.ShloMosaic.TcCoe Idealize.ShloMosaic.ValueIdx Cert.Arr

variable (V : (c : Dev nD) → (b : Ref sig .tc) → Buf (Elt Ideal) ((c : Thread nD τ).loc b))

/-! ## The block's arithmetic, entry by entry -/

/-- The logits of a block of 256 query rows against all 2048 nodes: the query block times the transposed features. -/
def lgt3 (x0 : Vec Ideal S256x256 .f32) (x1 : Vec Ideal S2048x256 .f32) : FVec Ideal S256x2048 .f32 :=
  matmul (φ₁ := .f32) (φ₂ := .f32) dot_S256x256_S2048x256_S256x2048_1_1_0_0_n_n none
    (shapeCast S256x256 x0 shapeCasts_S256x256_S256x256 : FVec Ideal S256x256 .f32)
    (shapeCast S2048x256 x1 shapeCasts_S2048x256_S2048x256 : FVec Ideal S2048x256 .f32)
    (constant S256x2048 .f32 0x00000000#32)

/-- The unnormalised softmax weights of the block: the exponential of each logit less its row's maximum. -/
def wgt3 (x0 : Vec Ideal S256x256 .f32) (x1 : Vec Ideal S2048x256 .f32) : FVec Ideal S256x2048 .f32 :=
  exp (subf (lgt3 x0 x1) (broadcastTo S256x2048 (shapeCast S256x1
    (multiReduction .maximumf [1] S256 (lgt3 x0 x1) 0xFF800000#32 reduces_S256x2048_S256 (.inl rfl) rfl)
    shapeCasts_S256_S256x1) broadcasts_S256x1_S256x2048))

/-- The attention term of the block: the weights applied to the values, divided by each row's sum of weights. -/
def att3 (x0 : Vec Ideal S256x256 .f32) (x1 : Vec Ideal S2048x256 .f32) (x2 : Vec Ideal S2048x512 .f32) :
    FVec Ideal S256x512 .f32 :=
  divf (matmul (φ₁ := .f32) (φ₂ := .f32) dot_S256x2048_S2048x512_S256x512_1_0_0_1_n_n none (wgt3 x0 x1)
      (shapeCast S2048x512 x2 shapeCasts_S2048x512_S2048x512 : FVec Ideal S2048x512 .f32)
      (constant S256x512 .f32 0x00000000#32))
    (broadcastTo S256x512 (shapeCast S256x1
      (multiReduction .add [1] S256 (wgt3 x0 x1) 0x00000000#32 reduces_S256x2048_S256 (.inl rfl) rfl)
      shapeCasts_S256_S256x1) broadcasts_S256x1_S256x512)

/-- The local term of the block: the adjacency rows applied to U. -/
def loc3 (x4 : Vec Ideal S256x2048 .f32) (x3 : Vec Ideal S2048x512 .f32) : FVec Ideal S256x512 .f32 :=
  matmul (φ₁ := .f32) (φ₂ := .f32) dot_S256x2048_S2048x512_S256x512_1_0_0_1_n_n none (x4 : FVec Ideal S256x2048 .f32)
    (shapeCast S2048x512 x3 shapeCasts_S2048x512_S2048x512 : FVec Ideal S2048x512 .f32)
    (constant S256x512 .f32 0x00000000#32)

/-- The leaky rectifier on a block: compare with zero, scale by the slope, choose. -/
def lk3 (v : FVec Ideal S256x512 .f32) : FVec Ideal S256x512 .f32 :=
  select (cmpf .oge v (broadcast S256x512 (Scalar.ofBits .f32 0x00000000#32))) v
    (mulf (broadcast S256x512 (Scalar.ofBits .f32 0x3C23D70A#32)) v)

/-- The body's value is the sum of the two rectified terms. -/
theorem pay3_eq (x0 : Vec Ideal S256x256 .f32) (x1 : Vec Ideal S2048x256 .f32) (x2 x3 : Vec Ideal S2048x512 .f32)
    (x4 : Vec Ideal S256x2048 .f32) :
    k3_pay1 (F := Ideal) x0 x1 x2 x4 x3 = addf (lk3 (att3 x0 x1 x2)) (lk3 (loc3 x4 x3)) := rfl

/-- A logit is the inner product of a query row with a node's features. -/
theorem lgt3_apply (x0 : Vec Ideal S256x256 .f32) (x1 : Vec Ideal S2048x256 .f32) (p : Fin 256) (j : Fin 2048) :
    lgt3 x0 x1 (ix2 p j) = Cert.Spec.lrow (fun k => x0 (ix2 p k)) (m2 2048 256 x1) j := by
  unfold lgt3
  rw [shapeCast_self, shapeCast_self]
  exact Cert.LibDotNT.matmul_zero_apply _ rfl rfl rfl rfl rfl rfl none x0 x1 p j

/-- A weight is the exponential of its logit less the row's maximum from minus infinity. -/
theorem wgt3_apply (x0 : Vec Ideal S256x256 .f32) (x1 : Vec Ideal S2048x256 .f32) (p : Fin 256) (j : Fin 2048) :
    wgt3 x0 x1 (ix2 p j) = Cert.Spec.erow (Cert.Spec.lrow (fun k => x0 (ix2 p k)) (m2 2048 256 x1)) j := by
  unfold wgt3
  show Ideal.exp (lgt3 x0 x1 (ix2 p j) - _) = _
  rw [broadcastTo_a1_ab_apply, shapeCast_a_a1_apply]
  erw [multiReduction_max_cols_apply]
  simp only [lgt3_apply]
  rfl

/-- The attention term at an entry. -/
theorem att3_apply (x0 : Vec Ideal S256x256 .f32) (x1 : Vec Ideal S2048x256 .f32) (x2 : Vec Ideal S2048x512 .f32)
    (p : Fin 256) (q : Fin 512) :
    att3 x0 x1 x2 (ix2 p q)
      = Cert.Spec.attK (fun k => x0 (ix2 p k)) (m2 2048 256 x1) (m2 2048 512 x2) q := by
  unfold att3
  rw [divf_apply, shapeCast_self, Cert.LibDot.matmul_zero_apply _ rfl rfl rfl rfl rfl rfl, broadcastTo_a1_ab_apply,
    shapeCast_a_a1_apply]
  erw [multiReduction_add_cols_apply]
  simp only [wgt3_apply]
  rfl

/-- The local term at an entry. -/
theorem loc3_apply (x4 : Vec Ideal S256x2048 .f32) (x3 : Vec Ideal S2048x512 .f32) (p : Fin 256) (q : Fin 512) :
    loc3 x4 x3 (ix2 p q) = Cert.Spec.locr (fun j => x4 (ix2 p j)) (m2 2048 512 x3) q := by
  unfold loc3
  rw [shapeCast_self]
  exact Cert.LibDot.matmul_zero_apply _ rfl rfl rfl rfl rfl rfl none x4 x3 p q

/-- The rectifier acts entry by entry. -/
theorem lk3_apply (v : FVec Ideal S256x512 .f32) (i : S256x512.Idx) : lk3 v i = Cert.Spec.leaky (v i) := rfl

/-- THE BLOCK: entry (p, q) of the body's value is the layer's row function of block row p. -/
theorem pay3_apply (x0 : Vec Ideal S256x256 .f32) (x1 : Vec Ideal S2048x256 .f32) (x2 x3 : Vec Ideal S2048x512 .f32)
    (x4 : Vec Ideal S256x2048 .f32) (p : Fin 256) (q : Fin 512) :
    k3_pay1 (F := Ideal) x0 x1 x2 x4 x3 (ix2 p q)
      = Cert.Spec.rowK true (fun k => x0 (ix2 p k)) (fun j => x4 (ix2 p j)) (m2 2048 256 x1) (m2 2048 512 x2)
          (m2 2048 512 x3) q := by
  rw [pay3_eq, addf_apply, lk3_apply, lk3_apply, att3_apply, loc3_apply]
  rfl

/-! ## From the blocks to the whole array -/

/-- The offsets of an access to a whole block, as the constant function. -/
theorem hz3 : (![0, 0] : Fin 2 → Nat) = fun _ => 0 := funext fun a => match a with | ⟨0, _⟩ => rfl | ⟨1, _⟩ => rfl

/-- The five input arrays as the region finds them: Q, h, V, U and the adjacency. -/
abbrev qarr3 (c : Dev nD) : S2048x256.Idx → EReal := V c main_v2_0
abbrev harr3 (c : Dev nD) : S2048x256.Idx → EReal := V c main_v1
abbrev varr3 (c : Dev nD) : S2048x512.Idx → EReal := V c main_v2_1
abbrev uarr3 (c : Dev nD) : S2048x512.Idx → EReal := V c main_v2_2
abbrev aarr3 (c : Dev nD) : S2048x2048.Idx → EReal := V c main_arg1

/-- The output array as one function of the input arrays: entry (r, q) is the layer's row function of row r of Q and of
    the adjacency, and of all of h, V and U. -/
def G3 (c : Dev nD) : S2048x512.Idx → EReal := fun i =>
  Cert.Spec.rowK true (m2 2048 256 (qarr3 V c) (i 0)) (m2 2048 2048 (aarr3 V c) (i 0)) (m2 2048 256 (harr3 V c))
    (m2 2048 512 (varr3 V c)) (m2 2048 512 (uarr3 V c)) (i 1)

/-- The block indices over the eight points: Q, the adjacency and the output move down one block of rows per point; h, V
    and U stay whole. -/
theorem idx_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0
    ∧ win3_5.index t (0 : Fin 2) = t.val ∧ win3_5.index t (1 : Fin 2) = 0 :=
  (by decide +kernel : ∀ t : Fin grid3.N, _)

/-- Every block of rows is some point's. -/
theorem idx_onto3 : ∀ b : Fin 8, ∃ t : Fin cfg3.N, win3_5.index t = ![b.val, 0] :=
  (by decide +kernel : ∀ b : Fin 8, ∃ t : Fin grid3.N, win3_5.index t = ![b.val, 0])

/-- What point t writes back is block t of G3: block row p of the point is array row 256·t + p, where Q's and the
    adjacency's blocks are read, and h, V, U are read whole. -/
theorem flushed3_eq (c : Dev nD) (t : Fin cfg3.N) :
    (dat3 (F := Ideal) V c).flushed 5 t = ((cfg3.win 5).blk t).view.read (Elt Ideal) (G3 V c) := by
  show (cfg3.win 5).cut (grid3.coords t) ((dat3 (F := Ideal) V c).after 5 t) = _
  rw [after3_5]
  unfold out3_5
  rw [View.canon_unit_zero hz3]
  simp only [View.ld_unit_zero (S := S256x256) hz3, View.ld_unit_zero (S := S2048x256) hz3,
    View.ld_unit_zero (S := S2048x512) hz3, View.ld_unit_zero (S := S256x2048) hz3]
  funext y
  obtain ⟨p, q, rfl⟩ : ∃ (p : Fin 256) (q : Fin 512), y = ix2 p q := ⟨y 0, y 1, eq_ix2 y⟩
  show k3_pay1 (F := Ideal) (iblk3 V c 0 t) (iblk3 V c 1 t) (iblk3 V c 2 t) (iblk3 V c 4 t) (iblk3 V c 3 t) (ix2 p q)
    = G3 V c (((cfg3.win 5).blk t).view.emb (ix2 p q))
  rw [pay3_apply]
  obtain ⟨e00, e01, e10, e11, e20, e21, e30, e31, e40, e41, e50, e51⟩ := idx_facts3 t
  unfold G3
  have hq : (((cfg3.win 5).blk t).view.emb (ix2 p q)) 1 = q :=
    Fin.ext (by show win3_5.index t (1 : Fin 2) * 512 + 1 * q.val = q.val; omega)
  have h0 : (fun k => iblk3 V c 0 t (ix2 p k))
      = m2 2048 256 (qarr3 V c) ((((cfg3.win 5).blk t).view.emb (ix2 p q)) 0) := by
    funext k
    show qarr3 V c (((cfg3.win 0).blk t).view.emb (ix2 p k))
      = qarr3 V c (ix2 ((((cfg3.win 5).blk t).view.emb (ix2 p q)) 0) k)
    congr 1
    funext a; apply Fin.ext
    match a with
    | ⟨0, _⟩ => show win3_0.index t (0 : Fin 2) * 256 + 1 * p.val = win3_5.index t (0 : Fin 2) * 256 + 1 * p.val; omega
    | ⟨1, _⟩ => show win3_0.index t (1 : Fin 2) * 256 + 1 * k.val = k.val; omega
  have h4 : (fun j => iblk3 V c 4 t (ix2 p j))
      = m2 2048 2048 (aarr3 V c) ((((cfg3.win 5).blk t).view.emb (ix2 p q)) 0) := by
    funext j
    show aarr3 V c (((cfg3.win 4).blk t).view.emb (ix2 p j))
      = aarr3 V c (ix2 ((((cfg3.win 5).blk t).view.emb (ix2 p q)) 0) j)
    congr 1
    funext a; apply Fin.ext
    match a with
    | ⟨0, _⟩ => show win3_4.index t (0 : Fin 2) * 256 + 1 * p.val = win3_5.index t (0 : Fin 2) * 256 + 1 * p.val; omega
    | ⟨1, _⟩ => show win3_4.index t (1 : Fin 2) * 2048 + 1 * j.val = j.val; omega
  have h1 : m2 2048 256 (iblk3 V c 1 t) = m2 2048 256 (harr3 V c) := by
    funext j k
    show harr3 V c (((cfg3.win 1).blk t).view.emb (ix2 j k)) = harr3 V c (ix2 j k)
    congr 1
    funext a; apply Fin.ext
    match a with
    | ⟨0, _⟩ => show win3_1.index t (0 : Fin 2) * 2048 + 1 * j.val = j.val; omega
    | ⟨1, _⟩ => show win3_1.index t (1 : Fin 2) * 256 + 1 * k.val = k.val; omega
  have h2 : m2 2048 512 (iblk3 V c 2 t) = m2 2048 512 (varr3 V c) := by
    funext j k
    show varr3 V c (((cfg3.win 2).blk t).view.emb (ix2 j k)) = varr3 V c (ix2 j k)
    congr 1
    funext a; apply Fin.ext
    match a with
    | ⟨0, _⟩ => show win3_2.index t (0 : Fin 2) * 2048 + 1 * j.val = j.val; omega
    | ⟨1, _⟩ => show win3_2.index t (1 : Fin 2) * 512 + 1 * k.val = k.val; omega
  have h3 : m2 2048 512 (iblk3 V c 3 t) = m2 2048 512 (uarr3 V c) := by
    funext j k
    show uarr3 V c (((cfg3.win 3).blk t).view.emb (ix2 j k)) = uarr3 V c (ix2 j k)
    congr 1
    funext a; apply Fin.ext
    match a with
    | ⟨0, _⟩ => show win3_3.index t (0 : Fin 2) * 2048 + 1 * j.val = j.val; omega
    | ⟨1, _⟩ => show win3_3.index t (1 : Fin 2) * 512 + 1 * k.val = k.val; omega
  rw [h0, h4, h1, h2, h3, hq]

/-- An index of the array is in point t's block iff each coordinate is in the block's range on its axis. -/
theorem mem_blk3 (t : Fin cfg3.N) (i : S2048x512.Idx) :
    i ∈ ((cfg3.win 5).blk t).view.set ↔ ∀ a : Fin 2, win3_5.index t a * S256x512.size a ≤ (i a).val
      ∧ (i a).val < win3_5.index t a * S256x512.size a + S256x512.size a := by
  show i ∈ ((View.whole main_v3).slice (win3_5.rect t)).set ↔ _
  rw [View.set_slice_whole, Rect.mem_set_unit]
  exact Iff.rfl

/-- The eight blocks of 256 rows tile the 2048 rows: row r lies in the block of point r / 256. -/
theorem cover3 (i : S2048x512.Idx) :
    ∃ t : Fin cfg3.N, (cfg3.win 5).flush t = true ∧ i ∈ ((cfg3.win 5).blk t).view.set := by
  have hi0 : (i 0).val < 2048 := (i 0).isLt
  have hi1 : (i 1).val < 512 := (i 1).isLt
  obtain ⟨t, ht⟩ := idx_onto3 ⟨(i 0).val / 256, by omega⟩
  have q0 : win3_5.index t (0 : Fin 2) = (i 0).val / 256 := congrFun ht 0
  have q1 : win3_5.index t (1 : Fin 2) = 0 := congrFun ht 1
  refine ⟨t, flush3_5 t, ?_⟩
  rw [mem_blk3]
  intro a
  match a with
  | ⟨0, _⟩ =>
    show win3_5.index t (0 : Fin 2) * 256 ≤ (i 0).val ∧ (i 0).val < win3_5.index t (0 : Fin 2) * 256 + 256
    omega
  | ⟨1, _⟩ =>
    show win3_5.index t (1 : Fin 2) * 512 ≤ (i 1).val ∧ (i 1).val < win3_5.index t (1 : Fin 2) * 512 + 512
    omega

/-- The output array after the run is G3 of the input arrays. -/
theorem arr3_eq (c : Dev nD) : (dat3 (F := Ideal) V c).arrAt 5 cfg3.N = G3 V c :=
  (dat3 (F := Ideal) V c).arrAt_eq_of_cover 5 (G3 V c) (fun t _ => flushed3_eq V c t) cover3

/-- The output array after the run, row by row. -/
theorem final3_5 (c : Dev nD) :
    m2 2048 512 ((dat3 (F := Ideal) V c).arrAt 5 cfg3.N)
      = fun r q => Cert.Spec.rowK true (m2 2048 256 (V c main_v2_0) r) (m2 2048 2048 (V c main_arg1) r)
          (m2 2048 256 (V c main_v1)) (m2 2048 512 (V c main_v2_1)) (m2 2048 512 (V c main_v2_2)) q := by
  rw [arr3_eq]
  rfl

end Cert.KernelIdeal.KV

end
-- ==== Proof.KMain5.lean ====
/-
  Region 5 of the run: the last layer's fused body, 512 input channels to 64 output channels, without the rectifier.

  The region reads Q (2048 × 512), the node features h (2048 × 512, the second layer's output), V and U (2048 × 64
  each) and the adjacency (2048 × 2048), and writes one array, 2048 × 64. Its grid has eight points; point t works on rows
  256·t … 256·t + 255. For a row r, with q = Q's row r and a = the adjacency's row r, the body computes the logits
  l_j = Σ_k q_k · h_{j,k}, their maximum from minus infinity, the weights e_j = exp (l_j - max), the attention term
  (Σ_j e_j · V_{j,c}) / Σ_j e_j and the local term Σ_j a_j · U_{j,c}, and adds the two as they are: the last layer
  applies no activation, which is `Cert.Spec.rowK false q a h V U` (`Cert.Spec.act false` is the identity). The
  statement: after the region has run, every row of the output array is this.

  In two halves, as for the other layers. The body's value on a block is cut into logits, weights, attention term and
  local term, each read at an entry by the law of its operation (a product into a zero accumulator is a finite sum, a
  lane reduction a fold over the row, a kept-axis broadcast reads its column entry, a same-shape cast changes nothing).
  Then what point t writes back is block t of one whole-array function — block row p is array row 256·t + p in the
  row-blocked windows, the other windows are read whole — and the eight blocks tile the rows.
-/
import proofs.«177053_g78872779423838_cont_9to1_m_604_3_alg».proof.Proof.Gen.KernelIdeal.Frame
import proofs.«177053_g78872779423838_cont_9to1_m_604_3_alg».proof.Proof.Spec
import proofs.«177053_g78872779423838_cont_9to1_m_604_3_alg».proof.Proof.Arr
import proofs.«177053_g78872779423838_cont_9to1_m_604_3_alg».proof.Proof.LibDot
import proofs.«177053_g78872779423838_cont_9to1_m_604_3_alg».proof.Proof.LibDotNT
import proofs.«177053_g78872779423838_cont_9to1_m_604_3_alg».proof.Proof.LibKeepdims
import proofs.«177053_g78872779423838_cont_9to1_m_604_3_alg».proof.Proof.LibMaxReduce
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.KV

open Cert.KernelIdeal Cert.KernelIdeal.Gen Idealize.ShloMosaic Idealize.ShloMosaic.TcCoe Idealize.ShloMosaic.ValueIdx Cert.Arr

variable (V : (c : Dev nD) → (b : Ref sig .tc) → Buf (Elt Ideal) ((c : Thread nD τ).loc b))

/-! ## The block's arithmetic, entry by entry -/

/-- The logits of a block of 256 query rows against all 2048 nodes: the query block times the transposed features. -/
def lgt5 (x0 : Vec Ideal S256x512 .f32) (x1 : Vec Ideal S2048x512 .f32) : FVec Ideal S256x2048 .f32 :=
  matmul (φ₁ := .f32) (φ₂ := .f32) dot_S256x512_S2048x512_S256x2048_1_1_0_0_n_n none
    (shapeCast S256x512 x0 shapeCasts_S256x512_S256x512 : FVec Ideal S256x512 .f32)
    (shapeCast S2048x512 x1 shapeCasts_S2048x512_S2048x512 : FVec Ideal S2048x512 .f32)
    (constant S256x2048 .f32 0x00000000#32)

/-- The unnormalised softmax weights of the block: the exponential of each logit less its row's maximum. -/
def wgt5 (x0 : Vec Ideal S256x512 .f32) (x1 : Vec Ideal S2048x512 .f32) : FVec Ideal S256x2048 .f32 :=
  exp (subf (lgt5 x0 x1) (broadcastTo S256x2048 (shapeCast S256x1
    (multiReduction .maximumf [1] S256 (lgt5 x0 x1) 0xFF800000#32 reduces_S256x2048_S256 (.inl rfl) rfl)
    shapeCasts_S256_S256x1) broadcasts_S256x1_S256x2048))

/-- The attention term of the block: the weights applied to the values, divided by each row's sum of weights. -/
def att5 (x0 : Vec Ideal S256x512 .f32) (x1 : Vec Ideal S2048x512 .f32) (x2 : Vec Ideal S2048x64 .f32) :
    FVec Ideal S256x64 .f32 :=
  divf (matmul (φ₁ := .f32) (φ₂ := .f32) dot_S256x2048_S2048x64_S256x64_1_0_0_1_n_n none (wgt5 x0 x1)
      (shapeCast S2048x64 x2 shapeCasts_S2048x64_S2048x64 : FVec Ideal S2048x64 .f32)
      (constant S256x64 .f32 0x00000000#32))
    (broadcastTo S256x64 (shapeCast S256x1
      (multiReduction .add [1] S256 (wgt5 x0 x1) 0x00000000#32 reduces_S256x2048_S256 (.inl rfl) rfl)
      shapeCasts_S256_S256x1) broadcasts_S256x1_S256x64)

/-- The local term of the block: the adjacency rows applied to U. -/
def loc5 (x4 : Vec Ideal S256x2048 .f32) (x3 : Vec Ideal S2048x64 .f32) : FVec Ideal S256x64 .f32 :=
  matmul (φ₁ := .f32) (φ₂ := .f32) dot_S256x2048_S2048x64_S256x64_1_0_0_1_n_n none (x4 : FVec Ideal S256x2048 .f32)
    (shapeCast S2048x64 x3 shapeCasts_S2048x64_S2048x64 : FVec Ideal S2048x64 .f32)
    (constant S256x64 .f32 0x00000000#32)

/-- The body's value is the sum of the two terms: the last layer has no rectifier. -/
theorem pay5_eq (x0 : Vec Ideal S256x512 .f32) (x1 : Vec Ideal S2048x512 .f32) (x2 x3 : Vec Ideal S2048x64 .f32)
    (x4 : Vec Ideal S256x2048 .f32) :
    k5_pay1 (F := Ideal) x0 x1 x2 x4 x3 = addf (att5 x0 x1 x2) (loc5 x4 x3) := rfl

/-- A logit is the inner product of a query row with a node's features. -/
theorem lgt5_apply (x0 : Vec Ideal S256x512 .f32) (x1 : Vec Ideal S2048x512 .f32) (p : Fin 256) (j : Fin 2048) :
    lgt5 x0 x1 (ix2 p j) = Cert.Spec.lrow (fun k => x0 (ix2 p k)) (m2 2048 512 x1) j := by
  unfold lgt5
  rw [shapeCast_self, shapeCast_self]
  exact Cert.LibDotNT.matmul_zero_apply _ rfl rfl rfl rfl rfl rfl none x0 x1 p j

/-- A weight is the exponential of its logit less the row's maximum from minus infinity. -/
theorem wgt5_apply (x0 : Vec Ideal S256x512 .f32) (x1 : Vec Ideal S2048x512 .f32) (p : Fin 256) (j : Fin 2048) :
    wgt5 x0 x1 (ix2 p j) = Cert.Spec.erow (Cert.Spec.lrow (fun k => x0 (ix2 p k)) (m2 2048 512 x1)) j := by
  unfold wgt5
  show Ideal.exp (lgt5 x0 x1 (ix2 p j) - _) = _
  rw [broadcastTo_a1_ab_apply, shapeCast_a_a1_apply]
  erw [multiReduction_max_cols_apply]
  simp only [lgt5_apply]
  rfl

/-- The attention term at an entry. -/
theorem att5_apply (x0 : Vec Ideal S256x512 .f32) (x1 : Vec Ideal S2048x512 .f32) (x2 : Vec Ideal S2048x64 .f32)
    (p : Fin 256) (q : Fin 64) :
    att5 x0 x1 x2 (ix2 p q)
      = Cert.Spec.attK (fun k => x0 (ix2 p k)) (m2 2048 512 x1) (m2 2048 64 x2) q := by
  unfold att5
  rw [divf_apply, shapeCast_self, Cert.LibDot.matmul_zero_apply _ rfl rfl rfl rfl rfl rfl, broadcastTo_a1_ab_apply,
    shapeCast_a_a1_apply]
  erw [multiReduction_add_cols_apply]
  simp only [wgt5_apply]
  rfl

/-- The local term at an entry. -/
theorem loc5_apply (x4 : Vec Ideal S256x2048 .f32) (x3 : Vec Ideal S2048x64 .f32) (p : Fin 256) (q : Fin 64) :
    loc5 x4 x3 (ix2 p q) = Cert.Spec.locr (fun j => x4 (ix2 p j)) (m2 2048 64 x3) q := by
  unfold loc5
  rw [shapeCast_self]
  exact Cert.LibDot.matmul_zero_apply _ rfl rfl rfl rfl rfl rfl none x4 x3 p q

/-- THE BLOCK: entry (p, q) of the body's value is the layer's row function, without activation, of block row p. -/
theorem pay5_apply (x0 : Vec Ideal S256x512 .f32) (x1 : Vec Ideal S2048x512 .f32) (x2 x3 : Vec Ideal S2048x64 .f32)
    (x4 : Vec Ideal S256x2048 .f32) (p : Fin 256) (q : Fin 64) :
    k5_pay1 (F := Ideal) x0 x1 x2 x4 x3 (ix2 p q)
      = Cert.Spec.rowK false (fun k => x0 (ix2 p k)) (fun j => x4 (ix2 p j)) (m2 2048 512 x1) (m2 2048 64 x2)
          (m2 2048 64 x3) q := by
  rw [pay5_eq, addf_apply, att5_apply, loc5_apply]
  rfl

/-! ## From the blocks to the whole array -/

/-- The offsets of an access to a whole block, as the constant function. -/
theorem hz5 : (![0, 0] : Fin 2 → Nat) = fun _ => 0 := funext fun a => match a with | ⟨0, _⟩ => rfl | ⟨1, _⟩ => rfl

/-- The five input arrays as the region finds them: Q, h, V, U and the adjacency. -/
abbrev qarr5 (c : Dev nD) : S2048x512.Idx → EReal := V c main_v4_0
abbrev harr5 (c : Dev nD) : S2048x512.Idx → EReal := V c main_v3
abbrev varr5 (c : Dev nD) : S2048x64.Idx → EReal := V c main_v4_1
abbrev uarr5 (c : Dev nD) : S2048x64.Idx → EReal := V c main_v4_2
abbrev aarr5 (c : Dev nD) : S2048x2048.Idx → EReal := V c main_arg1

/-- The output array as one function of the input arrays: entry (r, q) is the layer's row function, without activation,
    of row r of Q and of the adjacency, and of all of h, V and U. -/
def G5 (c : Dev nD) : S2048x64.Idx → EReal := fun i =>
  Cert.Spec.rowK false (m2 2048 512 (qarr5 V c) (i 0)) (m2 2048 2048 (aarr5 V c) (i 0)) (m2 2048 512 (harr5 V c))
    (m2 2048 64 (varr5 V c)) (m2 2048 64 (uarr5 V c)) (i 1)

/-- The block indices over the eight points: Q, the adjacency and the output move down one block of rows per point; h, V
    and U stay whole. -/
theorem idx_facts5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0
    ∧ win5_5.index t (0 : Fin 2) = t.val ∧ win5_5.index t (1 : Fin 2) = 0 :=
  (by decide +kernel : ∀ t : Fin grid5.N, _)

/-- Every block of rows is some point's. -/
theorem idx_onto5 : ∀ b : Fin 8, ∃ t : Fin cfg5.N, win5_5.index t = ![b.val, 0] :=
  (by decide +kernel : ∀ b : Fin 8, ∃ t : Fin grid5.N, win5_5.index t = ![b.val, 0])

/-- What point t writes back is block t of G5: block row p of the point is array row 256·t + p, where Q's and the
    adjacency's blocks are read, and h, V, U are read whole. -/
theorem flushed5_eq (c : Dev nD) (t : Fin cfg5.N) :
    (dat5 (F := Ideal) V c).flushed 5 t = ((cfg5.win 5).blk t).view.read (Elt Ideal) (G5 V c) := by
  show (cfg5.win 5).cut (grid5.coords t) ((dat5 (F := Ideal) V c).after 5 t) = _
  rw [after5_5]
  unfold out5_5
  rw [View.canon_unit_zero hz5]
  simp only [View.ld_unit_zero (S := S256x512) hz5, View.ld_unit_zero (S := S2048x512) hz5,
    View.ld_unit_zero (S := S2048x64) hz5, View.ld_unit_zero (S := S256x2048) hz5]
  funext y
  obtain ⟨p, q, rfl⟩ : ∃ (p : Fin 256) (q : Fin 64), y = ix2 p q := ⟨y 0, y 1, eq_ix2 y⟩
  show k5_pay1 (F := Ideal) (iblk5 V c 0 t) (iblk5 V c 1 t) (iblk5 V c 2 t) (iblk5 V c 4 t) (iblk5 V c 3 t) (ix2 p q)
    = G5 V c (((cfg5.win 5).blk t).view.emb (ix2 p q))
  rw [pay5_apply]
  obtain ⟨e00, e01, e10, e11, e20, e21, e30, e31, e40, e41, e50, e51⟩ := idx_facts5 t
  unfold G5
  have hq : (((cfg5.win 5).blk t).view.emb (ix2 p q)) 1 = q :=
    Fin.ext (by show win5_5.index t (1 : Fin 2) * 64 + 1 * q.val = q.val; omega)
  have h0 : (fun k => iblk5 V c 0 t (ix2 p k))
      = m2 2048 512 (qarr5 V c) ((((cfg5.win 5).blk t).view.emb (ix2 p q)) 0) := by
    funext k
    show qarr5 V c (((cfg5.win 0).blk t).view.emb (ix2 p k))
      = qarr5 V c (ix2 ((((cfg5.win 5).blk t).view.emb (ix2 p q)) 0) k)
    congr 1
    funext a; apply Fin.ext
    match a with
    | ⟨0, _⟩ => show win5_0.index t (0 : Fin 2) * 256 + 1 * p.val = win5_5.index t (0 : Fin 2) * 256 + 1 * p.val; omega
    | ⟨1, _⟩ => show win5_0.index t (1 : Fin 2) * 512 + 1 * k.val = k.val; omega
  have h4 : (fun j => iblk5 V c 4 t (ix2 p j))
      = m2 2048 2048 (aarr5 V c) ((((cfg5.win 5).blk t).view.emb (ix2 p q)) 0) := by
    funext j
    show aarr5 V c (((cfg5.win 4).blk t).view.emb (ix2 p j))
      = aarr5 V c (ix2 ((((cfg5.win 5).blk t).view.emb (ix2 p q)) 0) j)
    congr 1
    funext a; apply Fin.ext
    match a with
    | ⟨0, _⟩ => show win5_4.index t (0 : Fin 2) * 256 + 1 * p.val = win5_5.index t (0 : Fin 2) * 256 + 1 * p.val; omega
    | ⟨1, _⟩ => show win5_4.index t (1 : Fin 2) * 2048 + 1 * j.val = j.val; omega
  have h1 : m2 2048 512 (iblk5 V c 1 t) = m2 2048 512 (harr5 V c) := by
    funext j k
    show harr5 V c (((cfg5.win 1).blk t).view.emb (ix2 j k)) = harr5 V c (ix2 j k)
    congr 1
    funext a; apply Fin.ext
    match a with
    | ⟨0, _⟩ => show win5_1.index t (0 : Fin 2) * 2048 + 1 * j.val = j.val; omega
    | ⟨1, _⟩ => show win5_1.index t (1 : Fin 2) * 512 + 1 * k.val = k.val; omega
  have h2 : m2 2048 64 (iblk5 V c 2 t) = m2 2048 64 (varr5 V c) := by
    funext j k
    show varr5 V c (((cfg5.win 2).blk t).view.emb (ix2 j k)) = varr5 V c (ix2 j k)
    congr 1
    funext a; apply Fin.ext
    match a with
    | ⟨0, _⟩ => show win5_2.index t (0 : Fin 2) * 2048 + 1 * j.val = j.val; omega
    | ⟨1, _⟩ => show win5_2.index t (1 : Fin 2) * 64 + 1 * k.val = k.val; omega
  have h3 : m2 2048 64 (iblk5 V c 3 t) = m2 2048 64 (uarr5 V c) := by
    funext j k
    show uarr5 V c (((cfg5.win 3).blk t).view.emb (ix2 j k)) = uarr5 V c (ix2 j k)
    congr 1
    funext a; apply Fin.ext
    match a with
    | ⟨0, _⟩ => show win5_3.index t (0 : Fin 2) * 2048 + 1 * j.val = j.val; omega
    | ⟨1, _⟩ => show win5_3.index t (1 : Fin 2) * 64 + 1 * k.val = k.val; omega
  rw [h0, h4, h1, h2, h3, hq]

/-- An index of the array is in point t's block iff each coordinate is in the block's range on its axis. -/
theorem mem_blk5 (t : Fin cfg5.N) (i : S2048x64.Idx) :
    i ∈ ((cfg5.win 5).blk t).view.set ↔ ∀ a : Fin 2, win5_5.index t a * S256x64.size a ≤ (i a).val
      ∧ (i a).val < win5_5.index t a * S256x64.size a + S256x64.size a := by
  show i ∈ ((View.whole main_v5).slice (win5_5.rect t)).set ↔ _
  rw [View.set_slice_whole, Rect.mem_set_unit]
  exact Iff.rfl

/-- The eight blocks of 256 rows tile the 2048 rows: row r lies in the block of point r / 256. -/
theorem cover5 (i : S2048x64.Idx) :
    ∃ t : Fin cfg5.N, (cfg5.win 5).flush t = true ∧ i ∈ ((cfg5.win 5).blk t).view.set := by
  have hi0 : (i 0).val < 2048 := (i 0).isLt
  have hi1 : (i 1).val < 64 := (i 1).isLt
  obtain ⟨t, ht⟩ := idx_onto5 ⟨(i 0).val / 256, by omega⟩
  have q0 : win5_5.index t (0 : Fin 2) = (i 0).val / 256 := congrFun ht 0
  have q1 : win5_5.index t (1 : Fin 2) = 0 := congrFun ht 1
  refine ⟨t, flush5_5 t, ?_⟩
  rw [mem_blk5]
  intro a
  match a with
  | ⟨0, _⟩ =>
    show win5_5.index t (0 : Fin 2) * 256 ≤ (i 0).val ∧ (i 0).val < win5_5.index t (0 : Fin 2) * 256 + 256
    omega
  | ⟨1, _⟩ =>
    show win5_5.index t (1 : Fin 2) * 64 ≤ (i 1).val ∧ (i 1).val < win5_5.index t (1 : Fin 2) * 64 + 64
    omega

/-- The output array after the run is G5 of the input arrays. -/
theorem arr5_eq (c : Dev nD) : (dat5 (F := Ideal) V c).arrAt 5 cfg5.N = G5 V c :=
  (dat5 (F := Ideal) V c).arrAt_eq_of_cover 5 (G5 V c) (fun t _ => flushed5_eq V c t) cover5

/-- The output array after the run, row by row. -/
theorem final5_5 (c : Dev nD) :
    m2 2048 64 ((dat5 (F := Ideal) V c).arrAt 5 cfg5.N)
      = fun r q => Cert.Spec.rowK false (m2 2048 512 (V c main_v4_0) r) (m2 2048 2048 (V c main_arg1) r)
          (m2 2048 512 (V c main_v3)) (m2 2048 64 (V c main_v4_1)) (m2 2048 64 (V c main_v4_2)) q := by
  rw [arr5_eq]
  rfl

end Cert.KernelIdeal.KV

end
-- ==== Proof.KChain.lean ====
/-
  The kernel program's result as three layers composed. The program is six regions in a row; each region leaves its
  output arrays at a function of the arrays it read and every other buffer as it found it. Walking back from the last
  boundary: the result is region 5's output, the last layer's row function of Q₂, V₂, U₂ (region 4's products of region
  3's output with the third layer's weights), region 3's output and the adjacency; region 3's output is the second
  layer's row function of region 2's products of region 1's output; region 1's output the first layer's of region 0's
  products of the input. An argument array is never written, so every region reads it as launched. A layer's rows, each
  the row function of one row of `h · Wp` and of the adjacency beside the whole of `h`, `h · Wg`, `h · Wl`, are the layer.
-/
import proofs.«177053_g78872779423838_cont_9to1_m_604_3_alg».proof.Proof.Gen.KernelIdeal.Frame
import proofs.«177053_g78872779423838_cont_9to1_m_604_3_alg».proof.Proof.Spec
import proofs.«177053_g78872779423838_cont_9to1_m_604_3_alg».proof.Proof.Arr
import proofs.«177053_g78872779423838_cont_9to1_m_604_3_alg».proof.Proof.KPrep0
import proofs.«177053_g78872779423838_cont_9to1_m_604_3_alg».proof.Proof.KPrep2
import proofs.«177053_g78872779423838_cont_9to1_m_604_3_alg».proof.Proof.KPrep4
import proofs.«177053_g78872779423838_cont_9to1_m_604_3_alg».proof.Proof.KMain1
import proofs.«177053_g78872779423838_cont_9to1_m_604_3_alg».proof.Proof.KMain3
import proofs.«177053_g78872779423838_cont_9to1_m_604_3_alg».proof.Proof.KMain5

set_option maxRecDepth 16384

noncomputable section

namespace Cert.KernelIdeal.KChain

open Cert.KernelIdeal Cert.KernelIdeal.Gen Cert.KernelIdeal.KV Idealize.ShloMosaic Idealize.ShloMosaic.TcCoe Cert.Arr Cert.Spec

variable (m : (ℓ : Loc nD τ sig) → Buf (Elt Ideal) ℓ) (ρ : Dev nD → PrngReg)

/-! ## Every region reads an argument as launched -/

-- boundary 0 is the launch memory itself
theorem V0_eq (c : Dev nD) (b : Ref sig .tc) : V0 m ρ c b = m ((c : Thread nD τ).loc b) := rfl

theorem V1_arg0 (c : Dev nD) : V1 m ρ c main_arg0 = m ((c : Thread nD τ).loc main_arg0) :=
  (W1_arr m ρ c 0).trans (((dat0 (V0 m ρ) c).arrAt_in 0 rfl _).trans (A_eq0 (V0 m ρ) c 0))
theorem V1_arg1 (c : Dev nD) : V1 m ρ c main_arg1 = m ((c : Thread nD τ).loc main_arg1) :=
  W1_of_ne m ρ c main_arg1 (by decide)

theorem V2_arg5 (c : Dev nD) : V2 m ρ c main_arg5 = m ((c : Thread nD τ).loc main_arg5) :=
  (W2_of_ne m ρ c main_arg5 (by decide)).trans (W1_of_ne m ρ c main_arg5 (by decide))
theorem V2_arg6 (c : Dev nD) : V2 m ρ c main_arg6 = m ((c : Thread nD τ).loc main_arg6) :=
  (W2_of_ne m ρ c main_arg6 (by decide)).trans (W1_of_ne m ρ c main_arg6 (by decide))
theorem V2_arg7 (c : Dev nD) : V2 m ρ c main_arg7 = m ((c : Thread nD τ).loc main_arg7) :=
  (W2_of_ne m ρ c main_arg7 (by decide)).trans (W1_of_ne m ρ c main_arg7 (by decide))

theorem V2_arg1 (c : Dev nD) : V2 m ρ c main_arg1 = m ((c : Thread nD τ).loc main_arg1) :=
  ((W2_arr m ρ c 4).trans (((dat1 (V1 m ρ) c).arrAt_in 4 rfl _).trans (A_eq1 (V1 m ρ) c 4))).trans (V1_arg1 m ρ c)
theorem V3_arg1 (c : Dev nD) : V3 m ρ c main_arg1 = m ((c : Thread nD τ).loc main_arg1) :=
  (W3_of_ne m ρ c main_arg1 (by decide)).trans (V2_arg1 m ρ c)
theorem V4_arg1 (c : Dev nD) : V4 m ρ c main_arg1 = m ((c : Thread nD τ).loc main_arg1) :=
  ((W4_arr m ρ c 4).trans (((dat3 (V3 m ρ) c).arrAt_in 4 rfl _).trans (A_eq3 (V3 m ρ) c 4))).trans (V3_arg1 m ρ c)
theorem V5_arg1 (c : Dev nD) : V5 m ρ c main_arg1 = m ((c : Thread nD τ).loc main_arg1) :=
  (W5_of_ne m ρ c main_arg1 (by decide)).trans (V4_arg1 m ρ c)

theorem V4_arg8 (c : Dev nD) : V4 m ρ c main_arg8 = m ((c : Thread nD τ).loc main_arg8) :=
  (W4_of_ne m ρ c main_arg8 (by decide)).trans ((W3_of_ne m ρ c main_arg8 (by decide)).trans
    ((W2_of_ne m ρ c main_arg8 (by decide)).trans (W1_of_ne m ρ c main_arg8 (by decide))))
theorem V4_arg9 (c : Dev nD) : V4 m ρ c main_arg9 = m ((c : Thread nD τ).loc main_arg9) :=
  (W4_of_ne m ρ c main_arg9 (by decide)).trans ((W3_of_ne m ρ c main_arg9 (by decide)).trans
    ((W2_of_ne m ρ c main_arg9 (by decide)).trans (W1_of_ne m ρ c main_arg9 (by decide))))
theorem V4_arg10 (c : Dev nD) : V4 m ρ c main_arg10 = m ((c : Thread nD τ).loc main_arg10) :=
  (W4_of_ne m ρ c main_arg10 (by decide)).trans ((W3_of_ne m ρ c main_arg10 (by decide)).trans
    ((W2_of_ne m ρ c main_arg10 (by decide)).trans (W1_of_ne m ρ c main_arg10 (by decide))))

/-! ## What each region finds in the arrays earlier regions wrote -/

theorem V1_v0_0 (c : Dev nD) : V1 m ρ c main_v0_0 = (dat0 (V0 m ρ) c).arrAt 4 cfg0.N := W1_arr m ρ c 4
theorem V1_v0_1 (c : Dev nD) : V1 m ρ c main_v0_1 = (dat0 (V0 m ρ) c).arrAt 5 cfg0.N := W1_arr m ρ c 5
theorem V1_v0_2 (c : Dev nD) : V1 m ρ c main_v0_2 = (dat0 (V0 m ρ) c).arrAt 6 cfg0.N := W1_arr m ρ c 6
theorem V2_v1 (c : Dev nD) : V2 m ρ c main_v1 = (dat1 (V1 m ρ) c).arrAt 5 cfg1.N := W2_arr m ρ c 5
theorem V3_v1 (c : Dev nD) : V3 m ρ c main_v1 = V2 m ρ c main_v1 :=
  (W3_arr m ρ c 0).trans (((dat2 (V2 m ρ) c).arrAt_in 0 rfl _).trans (A_eq2 (V2 m ρ) c 0))
theorem V3_v2_0 (c : Dev nD) : V3 m ρ c main_v2_0 = (dat2 (V2 m ρ) c).arrAt 4 cfg2.N := W3_arr m ρ c 4
theorem V3_v2_1 (c : Dev nD) : V3 m ρ c main_v2_1 = (dat2 (V2 m ρ) c).arrAt 5 cfg2.N := W3_arr m ρ c 5
theorem V3_v2_2 (c : Dev nD) : V3 m ρ c main_v2_2 = (dat2 (V2 m ρ) c).arrAt 6 cfg2.N := W3_arr m ρ c 6
theorem V4_v3 (c : Dev nD) : V4 m ρ c main_v3 = (dat3 (V3 m ρ) c).arrAt 5 cfg3.N := W4_arr m ρ c 5
theorem V5_v3 (c : Dev nD) : V5 m ρ c main_v3 = V4 m ρ c main_v3 :=
  (W5_arr m ρ c 0).trans (((dat4 (V4 m ρ) c).arrAt_in 0 rfl _).trans (A_eq4 (V4 m ρ) c 0))
theorem V5_v4_0 (c : Dev nD) : V5 m ρ c main_v4_0 = (dat4 (V4 m ρ) c).arrAt 4 cfg4.N := W5_arr m ρ c 4
theorem V5_v4_1 (c : Dev nD) : V5 m ρ c main_v4_1 = (dat4 (V4 m ρ) c).arrAt 5 cfg4.N := W5_arr m ρ c 5
theorem V5_v4_2 (c : Dev nD) : V5 m ρ c main_v4_2 = (dat4 (V4 m ρ) c).arrAt 6 cfg4.N := W5_arr m ρ c 6
theorem W6_v5 (c : Dev nD) : W6 m ρ c (Proc.devRef .tc main_v5) = (dat5 (V5 m ρ) c).arrAt 5 cfg5.N := W6_arr m ρ c 5

/-! ## The layers -/

/-- The input and the weights as functions of two coordinates, as launched. -/
abbrev X (c : Dev nD) := m2 2048 256 (m ((c : Thread nD τ).loc main_arg0))
abbrev A (c : Dev nD) := m2 2048 2048 (m ((c : Thread nD τ).loc main_arg1))

/-- Region 1's output: the first layer of the input. -/
theorem layer1 (c : Dev nD) :
    m2 2048 256 (V2 m ρ c main_v1)
      = layerK true (X m c) (A m c) (m2 256 256 (m ((c : Thread nD τ).loc main_arg2)))
          (m2 256 256 (m ((c : Thread nD τ).loc main_arg3))) (m2 256 256 (m ((c : Thread nD τ).loc main_arg4))) := by
  rw [V2_v1, final1_5, V1_v0_0, V1_v0_1, V1_v0_2, final0_4, final0_5, final0_6, V1_arg0, V1_arg1]
  rfl

/-- Region 3's output: the second layer of region 1's output. -/
theorem layer2 (c : Dev nD) :
    m2 2048 512 (V4 m ρ c main_v3)
      = layerK true (m2 2048 256 (V2 m ρ c main_v1)) (A m c) (m2 256 256 (m ((c : Thread nD τ).loc main_arg5)))
          (m2 256 512 (m ((c : Thread nD τ).loc main_arg6))) (m2 256 512 (m ((c : Thread nD τ).loc main_arg7))) := by
  rw [V4_v3, final3_5, V3_v2_0, V3_v2_1, V3_v2_2, final2_4, final2_5, final2_6, V3_v1, V3_arg1, V2_arg5, V2_arg6, V2_arg7]
  rfl

/-- Region 5's output, the program's result: the third layer of region 3's output. -/
theorem layer3 (c : Dev nD) :
    m2 2048 64 (W6 m ρ c (Proc.devRef .tc main_v5))
      = layerK false (m2 2048 512 (V4 m ρ c main_v3)) (A m c) (m2 512 512 (m ((c : Thread nD τ).loc main_arg8)))
          (m2 512 64 (m ((c : Thread nD τ).loc main_arg9))) (m2 512 64 (m ((c : Thread nD τ).loc main_arg10))) := by
  rw [W6_v5, final5_5, V5_v4_0, V5_v4_1, V5_v4_2, final4_4, final4_5, final4_6, V5_v3, V5_arg1, V4_arg8, V4_arg9, V4_arg10]
  rfl

/-- The program's result array is the three layers composed over the launch contents of the arguments. -/
theorem result_eq (c : Dev nD) :
    m2 2048 64 (W6 m ρ c (Proc.devRef .tc main_v5))
      = layerK false
          (layerK true
            (layerK true (X m c) (A m c) (m2 256 256 (m ((c : Thread nD τ).loc main_arg2)))
              (m2 256 256 (m ((c : Thread nD τ).loc main_arg3))) (m2 256 256 (m ((c : Thread nD τ).loc main_arg4))))
            (A m c) (m2 256 256 (m ((c : Thread nD τ).loc main_arg5)))
            (m2 256 512 (m ((c : Thread nD τ).loc main_arg6))) (m2 256 512 (m ((c : Thread nD τ).loc main_arg7))))
          (A m c) (m2 512 512 (m ((c : Thread nD τ).loc main_arg8)))
          (m2 512 64 (m ((c : Thread nD τ).loc main_arg9))) (m2 512 64 (m ((c : Thread nD τ).loc main_arg10))) := by
  rw [layer3, layer2, layer1]

end Cert.KernelIdeal.KChain

end
-- ==== Proof.RefDefs.lean ====
/-
  The reference program's three layers, each as one function of its input and weights: the composition of the host
  operations the program applies, in its order. A layer is
      leaky (softmax ((x · Wp) · xᵀ) · (x · Wg)) + leaky (adj · (x · Wl)),
  the softmax over each row: subtract the row's maximum, exponentiate, divide every entry by the row's sum. The last
  layer has no rectifier.
-/
import proofs.«177053_g78872779423838_cont_9to1_m_604_3_alg».proof.ReferenceIdeal
import proofs.«177053_g78872779423838_cont_9to1_m_604_3_alg».proof.Proof.Gen.ReferenceIdeal

noncomputable section

namespace Cert.ReferenceIdeal.RefValue

open Cert.ReferenceIdeal Cert.ReferenceIdeal.Gen Idealize.ShloMosaic

variable {F : FTy → Type} [FloatOps F]

/-- The row softmax of a 2048 × 2048 matrix, as the program computes it. -/
def smax (l : FVec F S2048x2048 .f32) : FVec F S2048x2048 .f32 :=
  Host.divf
    (Host.exp (subf l (broadcastInDim S2048x2048 ![0, 1] bcast_S2048x1_S2048x2048_0_1 (broadcastInDim S2048x1 ![0] bcast_S2048_S2048x1_0
      (maximumf (broadcastInDim S2048 ![] bcast_S_S2048 (constant S_ .f32 0xFF800000#32))
        (Host.reduce FloatOps.maximumf l (constant S_ .f32 0xFF800000#32) reducesTo_S2048x2048_S2048_d1 h_S_))))))
    (broadcastInDim S2048x2048 ![0, 1] bcast_S2048x1_S2048x2048_0_1 (broadcastInDim S2048x1 ![0] bcast_S2048_S2048x1_0
      (Host.reduceAdd
        (Host.exp (subf l (broadcastInDim S2048x2048 ![0, 1] bcast_S2048x1_S2048x2048_0_1 (broadcastInDim S2048x1 ![0] bcast_S2048_S2048x1_0
          (maximumf (broadcastInDim S2048 ![] bcast_S_S2048 (constant S_ .f32 0xFF800000#32))
            (Host.reduce FloatOps.maximumf l (constant S_ .f32 0xFF800000#32) reducesTo_S2048x2048_S2048_d1 h_S_))))))
        (constant S_ .f32 0x00000000#32) reducesTo_S2048x2048_S2048_d1 h_S_)))

/-- The leaky rectifier on a 2048 × 256 array: compare with zero, multiply by the slope, choose. -/
def leaky256 (x : FVec F S2048x256 .f32) : FVec F S2048x256 .f32 :=
  select (cmpf .oge x (broadcastInDim S2048x256 ![] bcast_S_S2048x256 (constant S_ .f32 0x00000000#32))) x
    (mulf (broadcastInDim S2048x256 ![] bcast_S_S2048x256 (constant S_ .f32 0x3C23D70A#32)) x)

/-- The leaky rectifier on a 2048 × 512 array. -/
def leaky512 (x : FVec F S2048x512 .f32) : FVec F S2048x512 .f32 :=
  select (cmpf .oge x (broadcastInDim S2048x512 ![] bcast_S_S2048x512 (constant S_ .f32 0x00000000#32))) x
    (mulf (broadcastInDim S2048x512 ![] bcast_S_S2048x512 (constant S_ .f32 0x3C23D70A#32)) x)

/-- Layer 1: 256 channels in, 256 out. -/
def L1 (x : FVec F S2048x256 .f32) (adj : FVec F S2048x2048 .f32) (Wp Wg Wl : FVec F S256x256 .f32) : FVec F S2048x256 .f32 :=
  addf
    (leaky256 (Host.dotGeneral dot_S2048x2048_S2048x256_S2048x256_1_0_0_1_n_n none
      (smax (Host.dotGeneral dot_S2048x256_S256x2048_S2048x2048_1_0_0_1_n_n none
        (Host.dotGeneral dot_S2048x256_S256x256_S2048x256_1_0_0_1_n_n none x Wp)
        (transpose S256x2048 [1, 0] x transposes_S2048x256_S256x2048_1_0)))
      (Host.dotGeneral dot_S2048x256_S256x256_S2048x256_1_0_0_1_n_n none x Wg)))
    (leaky256 (Host.dotGeneral dot_S2048x2048_S2048x256_S2048x256_1_0_0_1_n_n none adj
      (Host.dotGeneral dot_S2048x256_S256x256_S2048x256_1_0_0_1_n_n none x Wl)))

/-- Layer 2: 256 channels in, 512 out. -/
def L2 (x : FVec F S2048x256 .f32) (adj : FVec F S2048x2048 .f32) (Wp : FVec F S256x256 .f32) (Wg Wl : FVec F S256x512 .f32) :
    FVec F S2048x512 .f32 :=
  addf
    (leaky512 (Host.dotGeneral dot_S2048x2048_S2048x512_S2048x512_1_0_0_1_n_n none
      (smax (Host.dotGeneral dot_S2048x256_S256x2048_S2048x2048_1_0_0_1_n_n none
        (Host.dotGeneral dot_S2048x256_S256x256_S2048x256_1_0_0_1_n_n none x Wp)
        (transpose S256x2048 [1, 0] x transposes_S2048x256_S256x2048_1_0)))
      (Host.dotGeneral dot_S2048x256_S256x512_S2048x512_1_0_0_1_n_n none x Wg)))
    (leaky512 (Host.dotGeneral dot_S2048x2048_S2048x512_S2048x512_1_0_0_1_n_n none adj
      (Host.dotGeneral dot_S2048x256_S256x512_S2048x512_1_0_0_1_n_n none x Wl)))

/-- Layer 3: 512 channels in, 64 out, no rectifier. -/
def L3 (x : FVec F S2048x512 .f32) (adj : FVec F S2048x2048 .f32) (Wp : FVec F S512x512 .f32) (Wg Wl : FVec F S512x64 .f32) :
    FVec F S2048x64 .f32 :=
  addf
    (Host.dotGeneral dot_S2048x2048_S2048x64_S2048x64_1_0_0_1_n_n none
      (smax (Host.dotGeneral dot_S2048x512_S512x2048_S2048x2048_1_0_0_1_n_n none
        (Host.dotGeneral dot_S2048x512_S512x512_S2048x512_1_0_0_1_n_n none x Wp)
        (transpose S512x2048 [1, 0] x transposes_S2048x512_S512x2048_1_0)))
      (Host.dotGeneral dot_S2048x512_S512x64_S2048x64_1_0_0_1_n_n none x Wg))
    (Host.dotGeneral dot_S2048x2048_S2048x64_S2048x64_1_0_0_1_n_n none adj
      (Host.dotGeneral dot_S2048x512_S512x64_S2048x64_1_0_0_1_n_n none x Wl))

end Cert.ReferenceIdeal.RefValue

end
-- ==== Proof.RefRun.lean ====
/-
  The reference program's run: @main is one straight line of host operations (the four rectifier calls opened at their call
  sites over the calls' own buffers), so every weakly fair execution terminates with each buffer at the operations'
  composed value of the launch contents. The result buffer's value is the three layers composed,
  `L3 (L2 (L1 x …) …) …`, and no operation writes an argument.
-/
import proofs.«177053_g78872779423838_cont_9to1_m_604_3_alg».proof.Proof.RefDefs
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The program's ninety-four host operations in its order. Each rectifier call is written out where it is made, as the
    seven operations of its body over that call's own buffers: the zero and its broadcast, the comparison with zero, the
    slope and its broadcast, the product by the slope, and the choice between the operand and the product. -/
abbrev ops : List (HloOp τ sig (Elt F)) :=
  [ binary main_arg0 main_arg2 main_v0 ((fun l r => Host.dotGeneral dot_S2048x256_S256x256_S2048x256_1_0_0_1_n_n none l r) : (⟨S2048x256, .f32⟩ : BufTy).Contents (Elt F) → (⟨S256x256, .f32⟩ : BufTy).Contents (Elt F) → (⟨S2048x256, .f32⟩ : BufTy).Contents (Elt F)),
    unary main_arg0 main_v1 ((transpose S256x2048 [1, 0] · transposes_S2048x256_S256x2048_1_0) : (⟨S2048x256, .f32⟩ : BufTy).Contents (Elt F) → (⟨S256x2048, .f32⟩ : BufTy).Contents (Elt F)),
    binary main_v0 main_v1 main_v2 ((fun l r => Host.dotGeneral dot_S2048x256_S256x2048_S2048x2048_1_0_0_1_n_n none l r) : (⟨S2048x256, .f32⟩ : BufTy).Contents (Elt F) → (⟨S256x2048, .f32⟩ : BufTy).Contents (Elt F) → (⟨S2048x2048, .f32⟩ : BufTy).Contents (Elt F)),
    nullary main_cst (constant S_ .f32 0xFF800000#32),
    binary main_v2 main_cst main_v3 ((fun x v => Host.reduce FloatOps.maximumf x v reducesTo_S2048x2048_S2048_d1 h_S_) : (⟨S2048x2048, .f32⟩ : BufTy).Contents (Elt F) → (⟨S_, .f32⟩ : BufTy).Contents (Elt F) → (⟨S2048, .f32⟩ : BufTy).Contents (Elt F)),
    nullary main_cst_0 (constant S_ .f32 0xFF800000#32),
    unary main_cst_0 main_v4 (broadcastInDim S2048 ![] bcast_S_S2048 : (⟨S_, .f32⟩ : BufTy).Contents (Elt F) → (⟨S2048, .f32⟩ : BufTy).Contents (Elt F)),
    binary main_v4 main_v3 main_v5 (maximumf : (⟨S2048, .f32⟩ : BufTy).Contents (Elt F) → (⟨S2048, .f32⟩ : BufTy).Contents (Elt F) → (⟨S2048, .f32⟩ : BufTy).Contents (Elt F)),
    unary main_v5 main_v6 (broadcastInDim S2048x1 ![0] bcast_S2048_S2048x1_0 : (⟨S2048, .f32⟩ : BufTy).Contents (Elt F) → (⟨S2048x1, .f32⟩ : BufTy).Contents (Elt F)),
    unary main_v6 main_v7 (broadcastInDim S2048x2048 ![0, 1] bcast_S2048x1_S2048x2048_0_1 : (⟨S2048x1, .f32⟩ : BufTy).Contents (Elt F) → (⟨S2048x2048, .f32⟩ : BufTy).Contents (Elt F)),
    binary main_v2 main_v7 main_v8 (subf : (⟨S2048x2048, .f32⟩ : BufTy).Contents (Elt F) → (⟨S2048x2048, .f32⟩ : BufTy).Contents (Elt F) → (⟨S2048x2048, .f32⟩ : BufTy).Contents (Elt F)),
    unary main_v8 main_v9 (Host.exp : (⟨S2048x2048, .f32⟩ : BufTy).Contents (Elt F) → (⟨S2048x2048, .f32⟩ : BufTy).Contents (Elt F)),
    nullary main_cst_1 (constant S_ .f32 0x00000000#32),
    binary main_v9 main_cst_1 main_v10 ((fun x v => Host.reduceAdd x v reducesTo_S2048x2048_S2048_d1 h_S_) : (⟨S2048x2048, .f32⟩ : BufTy).Contents (Elt F) → (⟨S_, .f32⟩ : BufTy).Contents (Elt F) → (⟨S2048, .f32⟩ : BufTy).Contents (Elt F)),
    unary main_v10 main_v11 (broadcastInDim S2048x1 ![0] bcast_S2048_S2048x1_0 : (⟨S2048, .f32⟩ : BufTy).Contents (Elt F) → (⟨S2048x1, .f32⟩ : BufTy).Contents (Elt F)),
    unary main_v11 main_v12 (broadcastInDim S2048x2048 ![0, 1] bcast_S2048x1_S2048x2048_0_1 : (⟨S2048x1, .f32⟩ : BufTy).Contents (Elt F) → (⟨S2048x2048, .f32⟩ : BufTy).Contents (Elt F)),
    binary main_v9 main_v12 main_v13 (Host.divf : (⟨S2048x2048, .f32⟩ : BufTy).Contents (Elt F) → (⟨S2048x2048, .f32⟩ : BufTy).Contents (Elt F) → (⟨S2048x2048, .f32⟩ : BufTy).Contents (Elt F)),
    binary main_arg0 main_arg3 main_v14 ((fun l r => Host.dotGeneral dot_S2048x256_S256x256_S2048x256_1_0_0_1_n_n none l r) : (⟨S2048x256, .f32⟩ : BufTy).Contents (Elt F) → (⟨S256x256, .f32⟩ : BufTy).Contents (Elt F) → (⟨S2048x256, .f32⟩ : BufTy).Contents (Elt F)),
    binary main_v13 main_v14 main_v15 ((fun l r => Host.dotGeneral dot_S2048x2048_S2048x256_S2048x256_1_0_0_1_n_n none l r) : (⟨S2048x2048, .f32⟩ : BufTy).Contents (Elt F) → (⟨S2048x256, .f32⟩ : BufTy).Contents (Elt F) → (⟨S2048x256, .f32⟩ : BufTy).Contents (Elt F)),
    TRef.nullary main_call0.cst (constant S_ .f32 0x00000000#32),
    TRef.unary main_call0.cst main_call0.v0 (broadcastInDim S2048x256 ![] bcast_S_S2048x256),
    TRef.binary (.of main_v15 : TRef sig ⟨S2048x256, .f32⟩) main_call0.v0 main_call0.v1 (cmpf .oge),
    TRef.nullary main_call0.cst_0 (constant S_ .f32 0x3C23D70A#32),
    TRef.unary main_call0.cst_0 main_call0.v2 (broadcastInDim S2048x256 ![] bcast_S_S2048x256),
    TRef.binary main_call0.v2 (.of main_v15 : TRef sig ⟨S2048x256, .f32⟩) main_call0.v3 mulf,
    TRef.ternary main_call0.v1 (.of main_v15 : TRef sig ⟨S2048x256, .f32⟩) main_call0.v3 main_call0.call0.v0 select,
    binary main_arg0 main_arg4 main_v17 ((fun l r => Host.dotGeneral dot_S2048x256_S256x256_S2048x256_1_0_0_1_n_n none l r) : (⟨S2048x256, .f32⟩ : BufTy).Contents (Elt F) → (⟨S256x256, .f32⟩ : BufTy).Contents (Elt F) → (⟨S2048x256, .f32⟩ : BufTy).Contents (Elt F)),
    binary main_arg1 main_v17 main_v18 ((fun l r => Host.dotGeneral dot_S2048x2048_S2048x256_S2048x256_1_0_0_1_n_n none l r) : (⟨S2048x2048, .f32⟩ : BufTy).Contents (Elt F) → (⟨S2048x256, .f32⟩ : BufTy).Contents (Elt F) → (⟨S2048x256, .f32⟩ : BufTy).Contents (Elt F)),
    TRef.nullary main_call1.cst (constant S_ .f32 0x00000000#32),
    TRef.unary main_call1.cst main_call1.v0 (broadcastInDim S2048x256 ![] bcast_S_S2048x256),
    TRef.binary (.of main_v18 : TRef sig ⟨S2048x256, .f32⟩) main_call1.v0 main_call1.v1 (cmpf .oge),
    TRef.nullary main_call1.cst_0 (constant S_ .f32 0x3C23D70A#32),
    TRef.unary main_call1.cst_0 main_call1.v2 (broadcastInDim S2048x256 ![] bcast_S_S2048x256),
    TRef.binary main_call1.v2 (.of main_v18 : TRef sig ⟨S2048x256, .f32⟩) main_call1.v3 mulf,
    TRef.ternary main_call1.v1 (.of main_v18 : TRef sig ⟨S2048x256, .f32⟩) main_call1.v3 main_call1.call0.v0 select,
    binary main_v16 main_v19 main_v20 (addf : (⟨S2048x256, .f32⟩ : BufTy).Contents (Elt F) → (⟨S2048x256, .f32⟩ : BufTy).Contents (Elt F) → (⟨S2048x256, .f32⟩ : BufTy).Contents (Elt F)),
    binary main_v20 main_arg5 main_v21 ((fun l r => Host.dotGeneral dot_S2048x256_S256x256_S2048x256_1_0_0_1_n_n none l r) : (⟨S2048x256, .f32⟩ : BufTy).Contents (Elt F) → (⟨S256x256, .f32⟩ : BufTy).Contents (Elt F) → (⟨S2048x256, .f32⟩ : BufTy).Contents (Elt F)),
    unary main_v20 main_v22 ((transpose S256x2048 [1, 0] · transposes_S2048x256_S256x2048_1_0) : (⟨S2048x256, .f32⟩ : BufTy).Contents (Elt F) → (⟨S256x2048, .f32⟩ : BufTy).Contents (Elt F)),
    binary main_v21 main_v22 main_v23 ((fun l r => Host.dotGeneral dot_S2048x256_S256x2048_S2048x2048_1_0_0_1_n_n none l r) : (⟨S2048x256, .f32⟩ : BufTy).Contents (Elt F) → (⟨S256x2048, .f32⟩ : BufTy).Contents (Elt F) → (⟨S2048x2048, .f32⟩ : BufTy).Contents (Elt F)),
    nullary main_cst_2 (constant S_ .f32 0xFF800000#32),
    binary main_v23 main_cst_2 main_v24 ((fun x v => Host.reduce FloatOps.maximumf x v reducesTo_S2048x2048_S2048_d1 h_S_) : (⟨S2048x2048, .f32⟩ : BufTy).Contents (Elt F) → (⟨S_, .f32⟩ : BufTy).Contents (Elt F) → (⟨S2048, .f32⟩ : BufTy).Contents (Elt F)),
    nullary main_cst_3 (constant S_ .f32 0xFF800000#32),
    unary main_cst_3 main_v25 (broadcastInDim S2048 ![] bcast_S_S2048 : (⟨S_, .f32⟩ : BufTy).Contents (Elt F) → (⟨S2048, .f32⟩ : BufTy).Contents (Elt F)),
    binary main_v25 main_v24 main_v26 (maximumf : (⟨S2048, .f32⟩ : BufTy).Contents (Elt F) → (⟨S2048, .f32⟩ : BufTy).Contents (Elt F) → (⟨S2048, .f32⟩ : BufTy).Contents (Elt F)),
    unary main_v26 main_v27 (broadcastInDim S2048x1 ![0] bcast_S2048_S2048x1_0 : (⟨S2048, .f32⟩ : BufTy).Contents (Elt F) → (⟨S2048x1, .f32⟩ : BufTy).Contents (Elt F)),
    unary main_v27 main_v28 (broadcastInDim S2048x2048 ![0, 1] bcast_S2048x1_S2048x2048_0_1 : (⟨S2048x1, .f32⟩ : BufTy).Contents (Elt F) → (⟨S2048x2048, .f32⟩ : BufTy).Contents (Elt F)),
    binary main_v23 main_v28 main_v29 (subf : (⟨S2048x2048, .f32⟩ : BufTy).Contents (Elt F) → (⟨S2048x2048, .f32⟩ : BufTy).Contents (Elt F) → (⟨S2048x2048, .f32⟩ : BufTy).Contents (Elt F)),
    unary main_v29 main_v30 (Host.exp : (⟨S2048x2048, .f32⟩ : BufTy).Contents (Elt F) → (⟨S2048x2048, .f32⟩ : BufTy).Contents (Elt F)),
    nullary main_cst_4 (constant S_ .f32 0x00000000#32),
    binary main_v30 main_cst_4 main_v31 ((fun x v => Host.reduceAdd x v reducesTo_S2048x2048_S2048_d1 h_S_) : (⟨S2048x2048, .f32⟩ : BufTy).Contents (Elt F) → (⟨S_, .f32⟩ : BufTy).Contents (Elt F) → (⟨S2048, .f32⟩ : BufTy).Contents (Elt F)),
    unary main_v31 main_v32 (broadcastInDim S2048x1 ![0] bcast_S2048_S2048x1_0 : (⟨S2048, .f32⟩ : BufTy).Contents (Elt F) → (⟨S2048x1, .f32⟩ : BufTy).Contents (Elt F)),
    unary main_v32 main_v33 (broadcastInDim S2048x2048 ![0, 1] bcast_S2048x1_S2048x2048_0_1 : (⟨S2048x1, .f32⟩ : BufTy).Contents (Elt F) → (⟨S2048x2048, .f32⟩ : BufTy).Contents (Elt F)),
    binary main_v30 main_v33 main_v34 (Host.divf : (⟨S2048x2048, .f32⟩ : BufTy).Contents (Elt F) → (⟨S2048x2048, .f32⟩ : BufTy).Contents (Elt F) → (⟨S2048x2048, .f32⟩ : BufTy).Contents (Elt F)),
    binary main_v20 main_arg6 main_v35 ((fun l r => Host.dotGeneral dot_S2048x256_S256x512_S2048x512_1_0_0_1_n_n none l r) : (⟨S2048x256, .f32⟩ : BufTy).Contents (Elt F) → (⟨S256x512, .f32⟩ : BufTy).Contents (Elt F) → (⟨S2048x512, .f32⟩ : BufTy).Contents (Elt F)),
    binary main_v34 main_v35 main_v36 ((fun l r => Host.dotGeneral dot_S2048x2048_S2048x512_S2048x512_1_0_0_1_n_n none l r) : (⟨S2048x2048, .f32⟩ : BufTy).Contents (Elt F) → (⟨S2048x512, .f32⟩ : BufTy).Contents (Elt F) → (⟨S2048x512, .f32⟩ : BufTy).Contents (Elt F)),
    TRef.nullary main_call2.cst (constant S_ .f32 0x00000000#32),
    TRef.unary main_call2.cst main_call2.v0 (broadcastInDim S2048x512 ![] bcast_S_S2048x512),
    TRef.binary (.of main_v36 : TRef sig ⟨S2048x512, .f32⟩) main_call2.v0 main_call2.v1 (cmpf .oge),
    TRef.nullary main_call2.cst_0 (constant S_ .f32 0x3C23D70A#32),
    TRef.unary main_call2.cst_0 main_call2.v2 (broadcastInDim S2048x512 ![] bcast_S_S2048x512),
    TRef.binary main_call2.v2 (.of main_v36 : TRef sig ⟨S2048x512, .f32⟩) main_call2.v3 mulf,
    TRef.ternary main_call2.v1 (.of main_v36 : TRef sig ⟨S2048x512, .f32⟩) main_call2.v3 main_call2.call0.v0 select,
    binary main_v20 main_arg7 main_v38 ((fun l r => Host.dotGeneral dot_S2048x256_S256x512_S2048x512_1_0_0_1_n_n none l r) : (⟨S2048x256, .f32⟩ : BufTy).Contents (Elt F) → (⟨S256x512, .f32⟩ : BufTy).Contents (Elt F) → (⟨S2048x512, .f32⟩ : BufTy).Contents (Elt F)),
    binary main_arg1 main_v38 main_v39 ((fun l r => Host.dotGeneral dot_S2048x2048_S2048x512_S2048x512_1_0_0_1_n_n none l r) : (⟨S2048x2048, .f32⟩ : BufTy).Contents (Elt F) → (⟨S2048x512, .f32⟩ : BufTy).Contents (Elt F) → (⟨S2048x512, .f32⟩ : BufTy).Contents (Elt F)),
    TRef.nullary main_call3.cst (constant S_ .f32 0x00000000#32),
    TRef.unary main_call3.cst main_call3.v0 (broadcastInDim S2048x512 ![] bcast_S_S2048x512),
    TRef.binary (.of main_v39 : TRef sig ⟨S2048x512, .f32⟩) main_call3.v0 main_call3.v1 (cmpf .oge),
    TRef.nullary main_call3.cst_0 (constant S_ .f32 0x3C23D70A#32),
    TRef.unary main_call3.cst_0 main_call3.v2 (broadcastInDim S2048x512 ![] bcast_S_S2048x512),
    TRef.binary main_call3.v2 (.of main_v39 : TRef sig ⟨S2048x512, .f32⟩) main_call3.v3 mulf,
    TRef.ternary main_call3.v1 (.of main_v39 : TRef sig ⟨S2048x512, .f32⟩) main_call3.v3 main_call3.call0.v0 select,
    binary main_v37 main_v40 main_v41 (addf : (⟨S2048x512, .f32⟩ : BufTy).Contents (Elt F) → (⟨S2048x512, .f32⟩ : BufTy).Contents (Elt F) → (⟨S2048x512, .f32⟩ : BufTy).Contents (Elt F)),
    binary main_v41 main_arg8 main_v42 ((fun l r => Host.dotGeneral dot_S2048x512_S512x512_S2048x512_1_0_0_1_n_n none l r) : (⟨S2048x512, .f32⟩ : BufTy).Contents (Elt F) → (⟨S512x512, .f32⟩ : BufTy).Contents (Elt F) → (⟨S2048x512, .f32⟩ : BufTy).Contents (Elt F)),
    unary main_v41 main_v43 ((transpose S512x2048 [1, 0] · transposes_S2048x512_S512x2048_1_0) : (⟨S2048x512, .f32⟩ : BufTy).Contents (Elt F) → (⟨S512x2048, .f32⟩ : BufTy).Contents (Elt F)),
    binary main_v42 main_v43 main_v44 ((fun l r => Host.dotGeneral dot_S2048x512_S512x2048_S2048x2048_1_0_0_1_n_n none l r) : (⟨S2048x512, .f32⟩ : BufTy).Contents (Elt F) → (⟨S512x2048, .f32⟩ : BufTy).Contents (Elt F) → (⟨S2048x2048, .f32⟩ : BufTy).Contents (Elt F)),
    nullary main_cst_5 (constant S_ .f32 0xFF800000#32),
    binary main_v44 main_cst_5 main_v45 ((fun x v => Host.reduce FloatOps.maximumf x v reducesTo_S2048x2048_S2048_d1 h_S_) : (⟨S2048x2048, .f32⟩ : BufTy).Contents (Elt F) → (⟨S_, .f32⟩ : BufTy).Contents (Elt F) → (⟨S2048, .f32⟩ : BufTy).Contents (Elt F)),
    nullary main_cst_6 (constant S_ .f32 0xFF800000#32),
    unary main_cst_6 main_v46 (broadcastInDim S2048 ![] bcast_S_S2048 : (⟨S_, .f32⟩ : BufTy).Contents (Elt F) → (⟨S2048, .f32⟩ : BufTy).Contents (Elt F)),
    binary main_v46 main_v45 main_v47 (maximumf : (⟨S2048, .f32⟩ : BufTy).Contents (Elt F) → (⟨S2048, .f32⟩ : BufTy).Contents (Elt F) → (⟨S2048, .f32⟩ : BufTy).Contents (Elt F)),
    unary main_v47 main_v48 (broadcastInDim S2048x1 ![0] bcast_S2048_S2048x1_0 : (⟨S2048, .f32⟩ : BufTy).Contents (Elt F) → (⟨S2048x1, .f32⟩ : BufTy).Contents (Elt F)),
    unary main_v48 main_v49 (broadcastInDim S2048x2048 ![0, 1] bcast_S2048x1_S2048x2048_0_1 : (⟨S2048x1, .f32⟩ : BufTy).Contents (Elt F) → (⟨S2048x2048, .f32⟩ : BufTy).Contents (Elt F)),
    binary main_v44 main_v49 main_v50 (subf : (⟨S2048x2048, .f32⟩ : BufTy).Contents (Elt F) → (⟨S2048x2048, .f32⟩ : BufTy).Contents (Elt F) → (⟨S2048x2048, .f32⟩ : BufTy).Contents (Elt F)),
    unary main_v50 main_v51 (Host.exp : (⟨S2048x2048, .f32⟩ : BufTy).Contents (Elt F) → (⟨S2048x2048, .f32⟩ : BufTy).Contents (Elt F)),
    nullary main_cst_7 (constant S_ .f32 0x00000000#32),
    binary main_v51 main_cst_7 main_v52 ((fun x v => Host.reduceAdd x v reducesTo_S2048x2048_S2048_d1 h_S_) : (⟨S2048x2048, .f32⟩ : BufTy).Contents (Elt F) → (⟨S_, .f32⟩ : BufTy).Contents (Elt F) → (⟨S2048, .f32⟩ : BufTy).Contents (Elt F)),
    unary main_v52 main_v53 (broadcastInDim S2048x1 ![0] bcast_S2048_S2048x1_0 : (⟨S2048, .f32⟩ : BufTy).Contents (Elt F) → (⟨S2048x1, .f32⟩ : BufTy).Contents (Elt F)),
    unary main_v53 main_v54 (broadcastInDim S2048x2048 ![0, 1] bcast_S2048x1_S2048x2048_0_1 : (⟨S2048x1, .f32⟩ : BufTy).Contents (Elt F) → (⟨S2048x2048, .f32⟩ : BufTy).Contents (Elt F)),
    binary main_v51 main_v54 main_v55 (Host.divf : (⟨S2048x2048, .f32⟩ : BufTy).Contents (Elt F) → (⟨S2048x2048, .f32⟩ : BufTy).Contents (Elt F) → (⟨S2048x2048, .f32⟩ : BufTy).Contents (Elt F)),
    binary main_v41 main_arg9 main_v56 ((fun l r => Host.dotGeneral dot_S2048x512_S512x64_S2048x64_1_0_0_1_n_n none l r) : (⟨S2048x512, .f32⟩ : BufTy).Contents (Elt F) → (⟨S512x64, .f32⟩ : BufTy).Contents (Elt F) → (⟨S2048x64, .f32⟩ : BufTy).Contents (Elt F)),
    binary main_v55 main_v56 main_v57 ((fun l r => Host.dotGeneral dot_S2048x2048_S2048x64_S2048x64_1_0_0_1_n_n none l r) : (⟨S2048x2048, .f32⟩ : BufTy).Contents (Elt F) → (⟨S2048x64, .f32⟩ : BufTy).Contents (Elt F) → (⟨S2048x64, .f32⟩ : BufTy).Contents (Elt F)),
    binary main_v41 main_arg10 main_v58 ((fun l r => Host.dotGeneral dot_S2048x512_S512x64_S2048x64_1_0_0_1_n_n none l r) : (⟨S2048x512, .f32⟩ : BufTy).Contents (Elt F) → (⟨S512x64, .f32⟩ : BufTy).Contents (Elt F) → (⟨S2048x64, .f32⟩ : BufTy).Contents (Elt F)),
    binary main_arg1 main_v58 main_v59 ((fun l r => Host.dotGeneral dot_S2048x2048_S2048x64_S2048x64_1_0_0_1_n_n none l r) : (⟨S2048x2048, .f32⟩ : BufTy).Contents (Elt F) → (⟨S2048x64, .f32⟩ : BufTy).Contents (Elt F) → (⟨S2048x64, .f32⟩ : BufTy).Contents (Elt F)),
    binary main_v57 main_v59 main_v60 (addf : (⟨S2048x64, .f32⟩ : BufTy).Contents (Elt F) → (⟨S2048x64, .f32⟩ : BufTy).Contents (Elt F) → (⟨S2048x64, .f32⟩ : BufTy).Contents (Elt F)) ]

-- the sequencing of ninety-four steps is re-associated one step at a time
set_option maxRecDepth 4096 in
set_option maxHeartbeats 4000000 in
/-- The program is that straight line: with the four rectifier bodies and the two halves of the program written out,
    both sides are one chain of steps once sequencing is associated to the right. -/
theorem main_eq (c : Dev nD) : main (F := F) c = seq ops := by
  simp only [main, main_part0, main_part1, fn_leaky_relu.body, fn_leaky_relu_0.body, fn_where.body, fn_where_1.body, seq,
    bind_assoc, pure_bind]

/-- No buffer of the program is scoped. -/
theorem scopedRefs_eq : (Finset.univ.filter fun b : Ref sig .tc => b.isScoped) = ∅ := by decide
/-- The program has no semaphore, so none is scoped. -/
theorem scopedSems_eq : (Finset.univ.filter fun sm : SemLoc sig => sm.isScoped .tc) = ∅ := by decide

/-- Every operation reads and writes device buffers only. -/
theorem ops_sub : (ops : List (HloOp τ sig (Elt F))).Forall fun op => op.bufs ⊆ tcRefs τ sig :=
  ⟨binary_bufs_sub .., unary_bufs_sub .., binary_bufs_sub .., nullary_bufs_sub .., binary_bufs_sub .., nullary_bufs_sub ..,
    unary_bufs_sub .., binary_bufs_sub .., unary_bufs_sub .., unary_bufs_sub .., binary_bufs_sub .., unary_bufs_sub ..,
    nullary_bufs_sub .., binary_bufs_sub .., unary_bufs_sub .., unary_bufs_sub .., binary_bufs_sub .., binary_bufs_sub ..,
    binary_bufs_sub .., nullary_bufs_sub .., unary_bufs_sub .., binary_bufs_sub .., nullary_bufs_sub .., unary_bufs_sub ..,
    binary_bufs_sub .., ternary_bufs_sub .., binary_bufs_sub .., binary_bufs_sub .., nullary_bufs_sub .., unary_bufs_sub ..,
    binary_bufs_sub .., nullary_bufs_sub .., unary_bufs_sub .., binary_bufs_sub .., ternary_bufs_sub .., binary_bufs_sub ..,
    binary_bufs_sub .., unary_bufs_sub .., binary_bufs_sub .., nullary_bufs_sub .., binary_bufs_sub .., nullary_bufs_sub ..,
    unary_bufs_sub .., binary_bufs_sub .., unary_bufs_sub .., unary_bufs_sub .., binary_bufs_sub .., unary_bufs_sub ..,
    nullary_bufs_sub .., binary_bufs_sub .., unary_bufs_sub .., unary_bufs_sub .., binary_bufs_sub .., binary_bufs_sub ..,
    binary_bufs_sub .., nullary_bufs_sub .., unary_bufs_sub .., binary_bufs_sub .., nullary_bufs_sub .., unary_bufs_sub ..,
    binary_bufs_sub .., ternary_bufs_sub .., binary_bufs_sub .., binary_bufs_sub .., nullary_bufs_sub .., unary_bufs_sub ..,
    binary_bufs_sub .., nullary_bufs_sub .., unary_bufs_sub .., binary_bufs_sub .., ternary_bufs_sub .., binary_bufs_sub ..,
    binary_bufs_sub .., unary_bufs_sub .., binary_bufs_sub .., nullary_bufs_sub .., binary_bufs_sub .., nullary_bufs_sub ..,
    unary_bufs_sub .., binary_bufs_sub .., unary_bufs_sub .., unary_bufs_sub .., binary_bufs_sub .., unary_bufs_sub ..,
    nullary_bufs_sub .., binary_bufs_sub .., unary_bufs_sub .., unary_bufs_sub .., binary_bufs_sub .., binary_bufs_sub ..,
    binary_bufs_sub .., binary_bufs_sub .., binary_bufs_sub .., binary_bufs_sub ..⟩

/-- Every weakly fair execution terminates with each buffer at the fold of the operations over the launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

attribute [local irreducible] Host.reduce Host.reduceAdd Host.exp Host.divf transpose broadcastInDim in
set_option maxRecDepth 8192 in
set_option maxHeartbeats 4000000 in
/-- The fold at the result buffer is the three layers composed: reading the operations back from the last sum, each
    buffer is the value of the operation that writes it at the buffers that operation reads, and the term so composed is
    the layers' own, operation for operation. The equation never looks inside a reduction, an exponential, a quotient, a
    transposition or a broadcast — both sides apply each to the same operands — so these stay folded. -/
theorem out_eq (V : Valuation τ sig (Elt F)) :
    after ops V (main_v60 : DevRef τ sig)
      = L3 (L2 (L1 (V (main_arg0 : DevRef τ sig)) (V (main_arg1 : DevRef τ sig)) (V (main_arg2 : DevRef τ sig)) (V (main_arg3 : DevRef τ sig)) (V (main_arg4 : DevRef τ sig)))
            (V (main_arg1 : DevRef τ sig)) (V (main_arg5 : DevRef τ sig)) (V (main_arg6 : DevRef τ sig)) (V (main_arg7 : DevRef τ sig)))
          (V (main_arg1 : DevRef τ sig)) (V (main_arg8 : DevRef τ sig)) (V (main_arg9 : DevRef τ sig)) (V (main_arg10 : DevRef τ sig)) := by
  after_results_simp
  rfl

/-! No operation writes an argument: the fold leaves each of the eleven at its contents. -/

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

theorem arg3_eq (V : Valuation τ sig (Elt F)) :
    after ops V (main_arg3 : DevRef τ sig) = V (main_arg3 : DevRef τ sig) := by
  after_results_simp

theorem arg4_eq (V : Valuation τ sig (Elt F)) :
    after ops V (main_arg4 : DevRef τ sig) = V (main_arg4 : DevRef τ sig) := by
  after_results_simp

theorem arg5_eq (V : Valuation τ sig (Elt F)) :
    after ops V (main_arg5 : DevRef τ sig) = V (main_arg5 : DevRef τ sig) := by
  after_results_simp

theorem arg6_eq (V : Valuation τ sig (Elt F)) :
    after ops V (main_arg6 : DevRef τ sig) = V (main_arg6 : DevRef τ sig) := by
  after_results_simp

theorem arg7_eq (V : Valuation τ sig (Elt F)) :
    after ops V (main_arg7 : DevRef τ sig) = V (main_arg7 : DevRef τ sig) := by
  after_results_simp

theorem arg8_eq (V : Valuation τ sig (Elt F)) :
    after ops V (main_arg8 : DevRef τ sig) = V (main_arg8 : DevRef τ sig) := by
  after_results_simp

theorem arg9_eq (V : Valuation τ sig (Elt F)) :
    after ops V (main_arg9 : DevRef τ sig) = V (main_arg9 : DevRef τ sig) := by
  after_results_simp

theorem arg10_eq (V : Valuation τ sig (Elt F)) :
    after ops V (main_arg10 : DevRef τ sig) = V (main_arg10 : DevRef τ sig) := by
  after_results_simp

/-- Every weakly fair execution of the reference terminates, nothing faulting, with the result at the three layers
    composed over the launch contents of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v60)
        = L3 (L2 (L1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))
              (m ((c.tc : Thread nD τ).loc main_arg1)) (m ((c.tc : Thread nD τ).loc main_arg5)) (m ((c.tc : Thread nD τ).loc main_arg6)) (m ((c.tc : Thread nD τ).loc main_arg7)))
            (m ((c.tc : Thread nD τ).loc main_arg1)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c main_v60).trans (out_eq _),
      (h c main_arg0).trans (arg0_eq _), (h c main_arg1).trans (arg1_eq _), (h c main_arg2).trans (arg2_eq _),
      (h c main_arg3).trans (arg3_eq _), (h c main_arg4).trans (arg4_eq _), (h c main_arg5).trans (arg5_eq _),
      (h c main_arg6).trans (arg6_eq _), (h c main_arg7).trans (arg7_eq _), (h c main_arg8).trans (arg8_eq _),
      (h c main_arg9).trans (arg9_eq _), (h c main_arg10).trans (arg10_eq _)⟩)
    (run_fold m ρ)

end Cert.ReferenceIdeal.RefValue

end
-- ==== Proof.RefRead.lean ====
/-
  The reference's three layers, each read as a function of a row and a column.

  A layer of the program is `act (softmax ((x · Wp) · xᵀ) · (x · Wg)) + act (adj · (x · Wl))`. Read at an entry:
    * a plain matrix product at `(i, c)` is `Σ_k l_{i,k} · r_{k,c}`, and the transpose of `x` at `(k, j)` is `x_{j,k}`, so
      the logits at `(r, j)` are `Σ_k (x · Wp)_{r,k} · x_{j,k}`;
    * the row maximum is the fold of `max` from minus infinity over the row, and taking the maximum with minus infinity
      once more changes nothing; the row sum from zero is the plain sum of the row;
    * a per-row value kept as a column and repeated across the columns reads, at `(r, j)`, the value of row `r`; so the
      softmax at `(r, j)` is `exp (l_{r,j} - max_r) / Σ_j' exp (l_{r,j'} - max_r)`: every weight is divided by its
      row's normaliser BEFORE the weighted sum over the nodes;
    * the rectifier at an index is `x` where `0 ≤ x` and slope · `x` otherwise.
  Together these are the specification's layer in its arrangement "each weight divided first" (`layerR`), with the
  rectifier on layers 1 and 2 and without it on layer 3.
-/
import proofs.«177053_g78872779423838_cont_9to1_m_604_3_alg».proof.Proof.RefDefs
import proofs.«177053_g78872779423838_cont_9to1_m_604_3_alg».proof.Proof.Spec
import proofs.«177053_g78872779423838_cont_9to1_m_604_3_alg».proof.Proof.Arr
import proofs.«177053_g78872779423838_cont_9to1_m_604_3_alg».proof.Proof.LibDot
import proofs.«177053_g78872779423838_cont_9to1_m_604_3_alg».proof.Proof.LibKeepdims
import proofs.«177053_g78872779423838_cont_9to1_m_604_3_alg».proof.Proof.LibMaxReduce
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.ReferenceIdeal.RefRead

open Cert.ReferenceIdeal Cert.ReferenceIdeal.Gen Cert.ReferenceIdeal.RefValue Idealize.ShloMosaic Idealize.ShloMosaic.ValueIdx Cert.Arr

/-! ### Broadcasts read at an entry -/

section Layout
variable {α : Type}

/-- A scalar laid over any shape reads the scalar at every index: there is no axis to match. -/
theorem bcast_scalar_apply {T : Shape} (h : (⟨0, ![]⟩ : Shape).BroadcastsInDim T ![]) (x : (⟨0, ![]⟩ : Shape).Idx → α)
    (j : T.Idx) : broadcastInDim T ![] h x j = x ix0 :=
  broadcastInDim_apply ![] h x j ix0 fun ax => ax.elim0

/-- A vector of `a` entries stood up as an `a × 1` column reads, at `(i, u)`, the vector's entry `i`. -/
theorem bcast_col_apply {a : ℕ} (h : (⟨1, ![a]⟩ : Shape).BroadcastsInDim ⟨2, ![a, 1]⟩ ![0])
    (v : (⟨1, ![a]⟩ : Shape).Idx → α) (i : Fin a) (u : Fin 1) :
    broadcastInDim ⟨2, ![a, 1]⟩ ![0] h v (ix2 i u) = v (ix1 i) := by
  refine broadcastInDim_apply ![0] h v (ix2 i u) (ix1 i) fun ax => ?_
  match ax with
  | ⟨0, _⟩ =>
    show i.val = if a = 1 then 0 else i.val
    split
    · have := i.isLt; omega
    · rfl

/-- An `a × 1` column repeated across `b` columns reads, at `(i, j)`, the column's entry in row `i`. -/
theorem bcast_mat_apply {a b : ℕ} (h : (⟨2, ![a, 1]⟩ : Shape).BroadcastsInDim ⟨2, ![a, b]⟩ ![0, 1])
    (c : (⟨2, ![a, 1]⟩ : Shape).Idx → α) (i : Fin a) (j : Fin b) :
    broadcastInDim ⟨2, ![a, b]⟩ ![0, 1] h c (ix2 i j) = c (ix2 i (0 : Fin 1)) := by
  refine broadcastInDim_apply ![0, 1] h c (ix2 i j) (ix2 i (0 : Fin 1)) fun ax => ?_
  match ax with
  | ⟨0, _⟩ =>
    show i.val = if a = 1 then 0 else i.val
    split
    · have := i.isLt; omega
    · rfl
  | ⟨1, _⟩ => rfl

/-- A vector kept as a column and repeated across the columns of a matrix reads, at `(i, j)`, the vector's entry `i`. -/
theorem keepdims_apply {a b : ℕ} (hc : (⟨1, ![a]⟩ : Shape).BroadcastsInDim ⟨2, ![a, 1]⟩ ![0])
    (hm : (⟨2, ![a, 1]⟩ : Shape).BroadcastsInDim ⟨2, ![a, b]⟩ ![0, 1]) (v : (⟨1, ![a]⟩ : Shape).Idx → α) (i : Fin a) (j : Fin b) :
    broadcastInDim ⟨2, ![a, b]⟩ ![0, 1] hm (broadcastInDim ⟨2, ![a, 1]⟩ ![0] hc v) (ix2 i j) = v (ix1 i) := by
  rw [bcast_mat_apply, bcast_col_apply]

end Layout

/-! ### The row softmax -/

/-- The host's sum over the columns of a matrix, from the zero pattern: in row `r`, the sum of that row's entries. -/
theorem rowsum_apply {a b : ℕ} (e : FVec Ideal ⟨2, ![a, b]⟩ .f32) (h' : (⟨2, ![a, b]⟩ : Shape).ReducesTo [1] ⟨1, ![a]⟩)
    (h : (⟨2, ![a, b]⟩ : Shape).Reduces [1] ⟨1, ![a]⟩) (hu : 0 < (⟨0, ![]⟩ : Shape).numel) (r : Fin a) :
    Host.reduceAdd e (constant ⟨0, ![]⟩ .f32 0x00000000#32) h' hu (ix1 r) = ∑ k : Fin b, e (ix2 r k) := by
  show Ideal.hostReduceAdd h' e (Ideal.ofBits .f32 0x00000000#32) (ix1 r) = _
  rw [Ideal.hostReduceAdd_single h' h, Ideal.ofBits_zero_f32, zero_add]
  exact Finset.sum_congr rfl fun k _ => congrArg e (funext fun ax => Fin.ext (by
    match ax with
    | ⟨0, _⟩ => rfl
    | ⟨1, _⟩ => rfl))

/-- The host's maximum over the columns of a matrix from minus infinity, then the maximum with minus infinity once
    more: in row `r`, the row's maximum. -/
theorem rowmax_apply {a b : ℕ} (l : FVec Ideal ⟨2, ![a, b]⟩ .f32) (h' : (⟨2, ![a, b]⟩ : Shape).ReducesTo [1] ⟨1, ![a]⟩)
    (h : (⟨2, ![a, b]⟩ : Shape).Reduces [1] ⟨1, ![a]⟩) (hu : 0 < (⟨0, ![]⟩ : Shape).numel)
    (hb : (⟨0, ![]⟩ : Shape).BroadcastsInDim ⟨1, ![a]⟩ ![]) (r : Fin a) :
    maximumf (broadcastInDim ⟨1, ![a]⟩ ![] hb (constant ⟨0, ![]⟩ .f32 0xFF800000#32))
        (Host.reduce FloatOps.maximumf l (constant ⟨0, ![]⟩ .f32 0xFF800000#32) h' hu) (ix1 r)
      = Cert.Spec.rmax fun j => l (ix2 r j) := by
  rw [maximumf_apply, bcast_scalar_apply, hostReduce_max_cols_apply l _ h' h hu r]
  exact Cert.Spec.max_ninf_rmax _

/-- The exponential of a matrix less a per-row value kept as a column: at `(r, j)`, `exp (l_{r,j} - m_r)`. -/
theorem exp_sub_apply {a b : ℕ} (hc : (⟨1, ![a]⟩ : Shape).BroadcastsInDim ⟨2, ![a, 1]⟩ ![0])
    (hm : (⟨2, ![a, 1]⟩ : Shape).BroadcastsInDim ⟨2, ![a, b]⟩ ![0, 1]) (l : FVec Ideal ⟨2, ![a, b]⟩ .f32)
    (m : FVec Ideal ⟨1, ![a]⟩ .f32) (r : Fin a) (j : Fin b) :
    Host.exp (subf l (broadcastInDim ⟨2, ![a, b]⟩ ![0, 1] hm (broadcastInDim ⟨2, ![a, 1]⟩ ![0] hc m))) (ix2 r j)
      = Ideal.exp (l (ix2 r j) - m (ix1 r)) := by
  show FloatOps.hostUnary .exp (subf l _ (ix2 r j)) = _
  rw [Ideal.hostUnary_exp_def, subf_apply, keepdims_apply]

/-- The softmax's shape with the row statistic `m` left open: exponentials of `l - m`, each divided by its row's sum
    of them. Where `m` is the row maximum, entry `(r, j)` is the weight `e_j` over the normaliser `Σ e`. -/
theorem smax_core {a b : ℕ} (hc : (⟨1, ![a]⟩ : Shape).BroadcastsInDim ⟨2, ![a, 1]⟩ ![0])
    (hm : (⟨2, ![a, 1]⟩ : Shape).BroadcastsInDim ⟨2, ![a, b]⟩ ![0, 1]) (h' : (⟨2, ![a, b]⟩ : Shape).ReducesTo [1] ⟨1, ![a]⟩)
    (h : (⟨2, ![a, b]⟩ : Shape).Reduces [1] ⟨1, ![a]⟩) (hu : 0 < (⟨0, ![]⟩ : Shape).numel)
    (l : FVec Ideal ⟨2, ![a, b]⟩ .f32) (m : FVec Ideal ⟨1, ![a]⟩ .f32)
    (hmax : ∀ r : Fin a, m (ix1 r) = Cert.Spec.rmax fun j => l (ix2 r j)) (r : Fin a) (j : Fin b) :
    Host.divf
        (Host.exp (subf l (broadcastInDim ⟨2, ![a, b]⟩ ![0, 1] hm (broadcastInDim ⟨2, ![a, 1]⟩ ![0] hc m))))
        (broadcastInDim ⟨2, ![a, b]⟩ ![0, 1] hm (broadcastInDim ⟨2, ![a, 1]⟩ ![0] hc
          (Host.reduceAdd (Host.exp (subf l (broadcastInDim ⟨2, ![a, b]⟩ ![0, 1] hm (broadcastInDim ⟨2, ![a, 1]⟩ ![0] hc m))))
            (constant ⟨0, ![]⟩ .f32 0x00000000#32) h' hu))) (ix2 r j)
      = Ideal.div (Cert.Spec.erow (fun j' => l (ix2 r j')) j) (∑ j' : Fin b, Cert.Spec.erow (fun j' => l (ix2 r j')) j') := by
  have he : ∀ j' : Fin b,
      Host.exp (subf l (broadcastInDim ⟨2, ![a, b]⟩ ![0, 1] hm (broadcastInDim ⟨2, ![a, 1]⟩ ![0] hc m))) (ix2 r j')
        = Cert.Spec.erow (fun j' => l (ix2 r j')) j' := by
    intro j'
    rw [exp_sub_apply, hmax]
    rfl
  show FloatOps.hostDivf (Host.exp _ (ix2 r j)) (broadcastInDim _ _ _ _ (ix2 r j)) = _
  rw [Ideal.hostDivf_def, keepdims_apply, rowsum_apply _ h' h hu, he]
  exact congrArg _ (Finset.sum_congr rfl fun k _ => he k)

/-- The program's row softmax, entry by entry. -/
theorem smax_apply (l : FVec Ideal S2048x2048 .f32) (r j : Fin 2048) :
    smax (F := Ideal) l (ix2 r j)
      = Ideal.div (Cert.Spec.erow (fun j' => l (ix2 r j')) j) (∑ j' : Fin 2048, Cert.Spec.erow (fun j' => l (ix2 r j')) j') :=
  smax_core bcast_S2048_S2048x1_0 bcast_S2048x1_S2048x2048_0_1 reducesTo_S2048x2048_S2048_d1 (by decide) h_S_ l _
    (fun r => rowmax_apply l reducesTo_S2048x2048_S2048_d1 (by decide) h_S_ bcast_S_S2048 r) r j

/-! ### The rectifier -/

/-- Compare with the zero pattern, multiply by the slope pattern, choose: at every index the leaky rectifier of the entry. -/
theorem leaky_apply {T : Shape} (hb : (⟨0, ![]⟩ : Shape).BroadcastsInDim T ![]) (x : FVec Ideal T .f32) (i : T.Idx) :
    select (cmpf .oge x (broadcastInDim T ![] hb (constant ⟨0, ![]⟩ .f32 0x00000000#32))) x
        (mulf (broadcastInDim T ![] hb (constant ⟨0, ![]⟩ .f32 0x3C23D70A#32)) x) i
      = Cert.Spec.leaky (x i) := by
  rw [select_apply, cmpf_apply, mulf_apply, bcast_scalar_apply, bcast_scalar_apply]
  rfl

/-! ### The matrix products -/

/-- Dimension numbers of a plain matrix product: contract the left operand's columns with the right operand's rows,
    no batch axes. -/
def Plain {M K N : ℕ} (d : DotDims ⟨2, ![M, K]⟩ ⟨2, ![K, N]⟩ ⟨2, ![M, N]⟩) : Prop :=
  d.lhsContracting = [1] ∧ d.rhsContracting = [0] ∧ d.lhsNonContracting = [0] ∧ d.rhsNonContracting = [1] ∧
    d.lhsBatch = [] ∧ d.rhsBatch = []

/-- A plain product at entry `(i, c)` is `Σ_k l_{i,k} · r_{k,c}`. -/
theorem dot_apply {M K N : ℕ} {d : DotDims ⟨2, ![M, K]⟩ ⟨2, ![K, N]⟩ ⟨2, ![M, N]⟩} (hd : Plain d)
    (l : FVec Ideal ⟨2, ![M, K]⟩ .f32) (r : FVec Ideal ⟨2, ![K, N]⟩ .f32) (i : Fin M) (c : Fin N) :
    Host.dotGeneral d none l r (ix2 i c) = ∑ k : Fin K, l (ix2 i k) * r (ix2 k c) :=
  Cert.LibDot.dotGeneral_apply d hd.1 hd.2.1 hd.2.2.1 hd.2.2.2.1 hd.2.2.2.2.1 hd.2.2.2.2.2 none l r i c

/-- A plain product of two arrays, as a function of two coordinates, is the product of the two functions. -/
theorem dot_mm {M K N : ℕ} {d : DotDims ⟨2, ![M, K]⟩ ⟨2, ![K, N]⟩ ⟨2, ![M, N]⟩} (hd : Plain d)
    (l : FVec Ideal ⟨2, ![M, K]⟩ .f32) (r : FVec Ideal ⟨2, ![K, N]⟩ .f32) (i : Fin M) (c : Fin N) :
    Host.dotGeneral d none l r (ix2 i c) = Cert.Spec.mm (m2 M K l) (m2 K N r) i c :=
  dot_apply hd l r i c

/-- The logits: `(x · Wp) · xᵀ` at `(r, j)` is `Σ_k (x · Wp)_{r,k} · x_{j,k}`, row `r` of `x · Wp` against node `j`. -/
theorem logits_apply {n ci : ℕ} {dP : DotDims ⟨2, ![n, ci]⟩ ⟨2, ![ci, ci]⟩ ⟨2, ![n, ci]⟩}
    {dL : DotDims ⟨2, ![n, ci]⟩ ⟨2, ![ci, n]⟩ ⟨2, ![n, n]⟩} (hP : Plain dP) (hL : Plain dL)
    (ht : (⟨2, ![n, ci]⟩ : Shape).Transposes [1, 0] ⟨2, ![ci, n]⟩)
    (x : FVec Ideal ⟨2, ![n, ci]⟩ .f32) (Wp : FVec Ideal ⟨2, ![ci, ci]⟩ .f32) (r j : Fin n) :
    Host.dotGeneral dL none (Host.dotGeneral dP none x Wp) (transpose ⟨2, ![ci, n]⟩ [1, 0] x ht) (ix2 r j)
      = Cert.Spec.lrow (Cert.Spec.mm (m2 n ci x) (m2 ci ci Wp) r) (m2 n ci x) j := by
  rw [dot_apply hL]
  unfold Cert.Spec.lrow
  refine Finset.sum_congr rfl fun k _ => ?_
  rw [dot_mm hP, transpose_ix2_apply]
  rfl

/-- The attention term of a layer: the softmax of the logits applied to `x · Wg`, at `(r, c)`, is the sum over the nodes
    of each weight, divided by its row's normaliser, times the node's value. -/
theorem att_apply {ci co : ℕ} {dP : DotDims ⟨2, ![2048, ci]⟩ ⟨2, ![ci, ci]⟩ ⟨2, ![2048, ci]⟩}
    {dL : DotDims ⟨2, ![2048, ci]⟩ ⟨2, ![ci, 2048]⟩ ⟨2, ![2048, 2048]⟩}
    {dV : DotDims ⟨2, ![2048, ci]⟩ ⟨2, ![ci, co]⟩ ⟨2, ![2048, co]⟩}
    {dA : DotDims ⟨2, ![2048, 2048]⟩ ⟨2, ![2048, co]⟩ ⟨2, ![2048, co]⟩}
    (hP : Plain dP) (hL : Plain dL) (hV : Plain dV) (hA : Plain dA)
    (ht : (⟨2, ![2048, ci]⟩ : Shape).Transposes [1, 0] ⟨2, ![ci, 2048]⟩)
    (x : FVec Ideal ⟨2, ![2048, ci]⟩ .f32) (Wp : FVec Ideal ⟨2, ![ci, ci]⟩ .f32) (Wg : FVec Ideal ⟨2, ![ci, co]⟩ .f32)
    (r : Fin 2048) (c : Fin co) :
    Host.dotGeneral dA none
        (smax (Host.dotGeneral dL none (Host.dotGeneral dP none x Wp) (transpose ⟨2, ![ci, 2048]⟩ [1, 0] x ht)))
        (Host.dotGeneral dV none x Wg) (ix2 r c)
      = Cert.Spec.attR (Cert.Spec.mm (m2 2048 ci x) (m2 ci ci Wp) r) (m2 2048 ci x)
          (Cert.Spec.mm (m2 2048 ci x) (m2 ci co Wg)) c := by
  have hl : (fun j' : Fin 2048 =>
      Host.dotGeneral dL none (Host.dotGeneral dP none x Wp) (transpose ⟨2, ![ci, 2048]⟩ [1, 0] x ht) (ix2 r j'))
        = Cert.Spec.lrow (Cert.Spec.mm (m2 2048 ci x) (m2 ci ci Wp) r) (m2 2048 ci x) :=
    funext fun j' => logits_apply hP hL ht x Wp r j'
  rw [dot_apply hA]
  unfold Cert.Spec.attR
  refine Finset.sum_congr rfl fun j _ => ?_
  rw [smax_apply, hl, dot_mm hV]

/-- The local term of a layer: the adjacency applied to `x · Wl`, at `(r, c)`. -/
theorem loc_apply {ci co : ℕ} {dV : DotDims ⟨2, ![2048, ci]⟩ ⟨2, ![ci, co]⟩ ⟨2, ![2048, co]⟩}
    {dA : DotDims ⟨2, ![2048, 2048]⟩ ⟨2, ![2048, co]⟩ ⟨2, ![2048, co]⟩} (hV : Plain dV) (hA : Plain dA)
    (x : FVec Ideal ⟨2, ![2048, ci]⟩ .f32) (adj : FVec Ideal ⟨2, ![2048, 2048]⟩ .f32) (Wl : FVec Ideal ⟨2, ![ci, co]⟩ .f32)
    (r : Fin 2048) (c : Fin co) :
    Host.dotGeneral dA none adj (Host.dotGeneral dV none x Wl) (ix2 r c)
      = Cert.Spec.locr (m2 2048 2048 adj r) (Cert.Spec.mm (m2 2048 ci x) (m2 ci co Wl)) c := by
  rw [dot_apply hA]
  unfold Cert.Spec.locr
  refine Finset.sum_congr rfl fun j _ => ?_
  rw [dot_mm hV]
  rfl

/-! ### The three layers -/

/-- Layer 1, entry by entry. -/
theorem L1_apply (x : FVec Ideal S2048x256 .f32) (adj : FVec Ideal S2048x2048 .f32) (Wp Wg Wl : FVec Ideal S256x256 .f32) :
    m2 2048 256 (L1 (F := Ideal) x adj Wp Wg Wl)
      = Cert.Spec.layerR true (m2 2048 256 x) (m2 2048 2048 adj) (m2 256 256 Wp) (m2 256 256 Wg) (m2 256 256 Wl) := by
  funext r q
  have hP : Plain dot_S2048x256_S256x256_S2048x256_1_0_0_1_n_n := ⟨rfl, rfl, rfl, rfl, rfl, rfl⟩
  have hL : Plain dot_S2048x256_S256x2048_S2048x2048_1_0_0_1_n_n := ⟨rfl, rfl, rfl, rfl, rfl, rfl⟩
  have hA : Plain dot_S2048x2048_S2048x256_S2048x256_1_0_0_1_n_n := ⟨rfl, rfl, rfl, rfl, rfl, rfl⟩
  show L1 (F := Ideal) x adj Wp Wg Wl (ix2 r q) = _
  unfold L1 leaky256
  rw [addf_apply, leaky_apply, leaky_apply, att_apply hP hL hP hA, loc_apply hP hA]
  rfl

/-- Layer 2, entry by entry. -/
theorem L2_apply (x : FVec Ideal S2048x256 .f32) (adj : FVec Ideal S2048x2048 .f32) (Wp : FVec Ideal S256x256 .f32)
    (Wg Wl : FVec Ideal S256x512 .f32) :
    m2 2048 512 (L2 (F := Ideal) x adj Wp Wg Wl)
      = Cert.Spec.layerR true (m2 2048 256 x) (m2 2048 2048 adj) (m2 256 256 Wp) (m2 256 512 Wg) (m2 256 512 Wl) := by
  funext r q
  have hP : Plain dot_S2048x256_S256x256_S2048x256_1_0_0_1_n_n := ⟨rfl, rfl, rfl, rfl, rfl, rfl⟩
  have hL : Plain dot_S2048x256_S256x2048_S2048x2048_1_0_0_1_n_n := ⟨rfl, rfl, rfl, rfl, rfl, rfl⟩
  have hV : Plain dot_S2048x256_S256x512_S2048x512_1_0_0_1_n_n := ⟨rfl, rfl, rfl, rfl, rfl, rfl⟩
  have hA : Plain dot_S2048x2048_S2048x512_S2048x512_1_0_0_1_n_n := ⟨rfl, rfl, rfl, rfl, rfl, rfl⟩
  show L2 (F := Ideal) x adj Wp Wg Wl (ix2 r q) = _
  unfold L2 leaky512
  rw [addf_apply, leaky_apply, leaky_apply, att_apply hP hL hV hA, loc_apply hV hA]
  rfl

/-- Layer 3, entry by entry. -/
theorem L3_apply (x : FVec Ideal S2048x512 .f32) (adj : FVec Ideal S2048x2048 .f32) (Wp : FVec Ideal S512x512 .f32)
    (Wg Wl : FVec Ideal S512x64 .f32) :
    m2 2048 64 (L3 (F := Ideal) x adj Wp Wg Wl)
      = Cert.Spec.layerR false (m2 2048 512 x) (m2 2048 2048 adj) (m2 512 512 Wp) (m2 512 64 Wg) (m2 512 64 Wl) := by
  funext r q
  have hP : Plain dot_S2048x512_S512x512_S2048x512_1_0_0_1_n_n := ⟨rfl, rfl, rfl, rfl, rfl, rfl⟩
  have hL : Plain dot_S2048x512_S512x2048_S2048x2048_1_0_0_1_n_n := ⟨rfl, rfl, rfl, rfl, rfl, rfl⟩
  have hV : Plain dot_S2048x512_S512x64_S2048x64_1_0_0_1_n_n := ⟨rfl, rfl, rfl, rfl, rfl, rfl⟩
  have hA : Plain dot_S2048x2048_S2048x64_S2048x64_1_0_0_1_n_n := ⟨rfl, rfl, rfl, rfl, rfl, rfl⟩
  show L3 (F := Ideal) x adj Wp Wg Wl (ix2 r q) = _
  unfold L3
  rw [addf_apply, att_apply hP hL hV hA, loc_apply hV hA]
  rfl

end Cert.ReferenceIdeal.RefRead

end
-- ==== Proof.lean ====
/-
  The certificate: a three-layer graph network computed by six fused kernel regions against its plain reference.

  Each layer is `act (softmax ((h Wp) hᵀ) (h Wg)) + act (adj (h Wl))`. The kernel regions compute `h Wp`, `h Wg`, `h Wl` by row
  blocks and then, per block of rows, the unnormalised softmax weights `e = exp (l - max l)`, the weighted sum `e (h Wg)`
  divided ONCE by the row's normaliser `Σ e`, the local term, the rectifier and the sum. The reference divides every weight
  by the normaliser first and then sums. On the extended reals the two arrangements agree when every operand is a real
  number and the normaliser is a nonzero real; the precondition makes every input entry real, a layer of real operands
  is real (a finite maximum of reals is real, an exponential of a real is a positive real, so the normaliser of 2048 terms
  is positive), and so the agreement passes from layer to layer. The programs' frames are the generated ones for the two
  kernel programs and the reference's run with its result dropped; the idealization rewrote nothing.
-/
import proofs.«177053_g78872779423838_cont_9to1_m_604_3_alg».proof.Defs
import proofs.«177053_g78872779423838_cont_9to1_m_604_3_alg».proof.Proof.Gen.Kernel
import proofs.«177053_g78872779423838_cont_9to1_m_604_3_alg».proof.Proof.Gen.Kernel.Frame
import proofs.«177053_g78872779423838_cont_9to1_m_604_3_alg».proof.Proof.Gen.KernelIdeal
import proofs.«177053_g78872779423838_cont_9to1_m_604_3_alg».proof.Proof.Gen.KernelIdeal.Frame
import proofs.«177053_g78872779423838_cont_9to1_m_604_3_alg».proof.Proof.Gen.ReferenceIdeal
import proofs.«177053_g78872779423838_cont_9to1_m_604_3_alg».proof.Proof.Gen.Pre_finite_inputs
import proofs.«177053_g78872779423838_cont_9to1_m_604_3_alg».proof.Proof.Spec
import proofs.«177053_g78872779423838_cont_9to1_m_604_3_alg».proof.Proof.Arr
import proofs.«177053_g78872779423838_cont_9to1_m_604_3_alg».proof.Proof.Finite
import proofs.«177053_g78872779423838_cont_9to1_m_604_3_alg».proof.Proof.KRun
import proofs.«177053_g78872779423838_cont_9to1_m_604_3_alg».proof.Proof.KChain
import proofs.«177053_g78872779423838_cont_9to1_m_604_3_alg».proof.Proof.RefRun
import proofs.«177053_g78872779423838_cont_9to1_m_604_3_alg».proof.Proof.RefRead
import Idealize.ShloMosaic.Adequacy
import Idealize.ShloMosaic.Init

set_option maxRecDepth 16384

noncomputable section

namespace Cert.Proof

open Idealize.ShloMosaic Idealize.ShloMosaic.ValueIdx Idealize.SL.Sem Cert.Arr Cert.Spec

/-- An array whose every entry is real, as a function of two coordinates. -/
theorem isReal_m2 {p q : ℕ} {a : (⟨2, ![p, q]⟩ : Shape).Idx → EReal} (h : ∀ i, ∃ x : ℝ, a i = (x : EReal)) : IsReal (m2 p q a) :=
  fun i k => h (ix2 i k)

/-- THE VALUE: under the precondition, the reference's three layers over arrays that agree with the kernel's arguments
    are the kernel program's result array. Entry by entry the reference is three layers with every weight divided first,
    the kernel three layers with the sum divided once; every operand is real, layer after layer, so they agree. -/
theorem value_eq (m : (ℓ : Loc Cert.KernelIdeal.nD Cert.KernelIdeal.τ Cert.KernelIdeal.sig) → Buf (Elt Ideal) ℓ)
    (ρ : Dev Cert.KernelIdeal.nD → PrngReg) (hpre : Cert.Pre_KernelIdeal m) (c : Dev Cert.KernelIdeal.nD) :
    Cert.ReferenceIdeal.RefValue.L3 (F := Ideal)
        (Cert.ReferenceIdeal.RefValue.L2 (F := Ideal)
          (Cert.ReferenceIdeal.RefValue.L1 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)))
          (m ((c.tc : Thread Cert.KernelIdeal.nD Cert.KernelIdeal.τ).loc Cert.KernelIdeal.main_arg1)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)))
        (m ((c.tc : Thread Cert.KernelIdeal.nD Cert.KernelIdeal.τ).loc Cert.KernelIdeal.main_arg1)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))
      = Cert.KernelIdeal.Gen.W6 (F := Ideal) m ρ c (Proc.devRef .tc Cert.KernelIdeal.main_v5) := by
  obtain ⟨r0, r1, r2, r3, r4, r5, r6, r7, r8, r9, r10⟩ := Cert.Finite.real_of_pre _ _ _ _ _ _ _ _ _ _ _ (hpre c)
  have hn : 0 < 2048 := by decide
  -- layer 1: real inputs, so the two arrangements agree and the output is real
  have e1 := layerK_eq_layerR true hn (isReal_m2 r0) (isReal_m2 r1) (isReal_m2 r2) (isReal_m2 r3) (isReal_m2 r4)
  have hl1 := layerK_real true hn (isReal_m2 r0) (isReal_m2 r1) (isReal_m2 r2) (isReal_m2 r3) (isReal_m2 r4)
  -- layer 2 over layer 1's (real) output
  have e2 := layerK_eq_layerR true hn hl1 (isReal_m2 r1) (isReal_m2 r5) (isReal_m2 r6) (isReal_m2 r7)
  have hl2 := layerK_real true hn hl1 (isReal_m2 r1) (isReal_m2 r5) (isReal_m2 r6) (isReal_m2 r7)
  -- layer 3 over layer 2's (real) output
  have e3 := layerK_eq_layerR false hn hl2 (isReal_m2 r1) (isReal_m2 r8) (isReal_m2 r9) (isReal_m2 r10)
  refine ext_m2 ?_
  rw [Cert.ReferenceIdeal.RefRead.L3_apply, Cert.ReferenceIdeal.RefRead.L2_apply, Cert.ReferenceIdeal.RefRead.L1_apply,
    Cert.KernelIdeal.KChain.result_eq, ← e1, ← e2, ← e3]

theorem frame_p : Cert.frame_Kernel := fun m ρ _ => Cert.Kernel.Gen.frame m ρ
theorem frame_pi : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RefValue.run (F := Ideal) m ρ)

/-- The idealization rewrote no operation: nothing to preserve. -/
theorem preserves : Cert.preserves_Kernel_KernelIdeal := trivial

/-- Both idealized programs run; the kernel's result array is the last boundary's contents, and the reference's result, over
    arguments that agree, is the same array (`value_eq`). -/
theorem algebraic : Cert.algebraic_KernelIdeal_ReferenceIdeal := by
  intro m ρ m' ρ' hpre hagree
  refine ⟨fun c => Cert.KernelIdeal.Gen.W6 (F := Ideal) m ρ c (Proc.devRef .tc Cert.KernelIdeal.main_v5),
    Cert.KernelIdeal.KRun.run_main (F := Ideal) m ρ, ?_⟩
  refine (θ_run Cert.ReferenceIdeal.defs _ _).mono (fun _ h c => ⟨(h c).1.trans ?_, (h c).2⟩)
    (Cert.ReferenceIdeal.RefValue.run (F := Ideal) m' ρ')
  obtain ⟨e0, e1, e2, e3, e4, e5, e6, e7, e8, e9, e10⟩ := hagree c
  rw [e0, e1, e2, e3, e4, e5, e6, e7, e8, e9, e10]
  exact value_eq m ρ hpre c

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
